-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v103)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v103) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v89) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x512 : Shape := ⟨2, ![100000, 512]⟩
abbrev S3200000 : Shape := ⟨1, ![3200000]⟩
abbrev S100000 : Shape := ⟨1, ![100000]⟩
abbrev S512x1 : Shape := ⟨2, ![512, 1]⟩
abbrev S1 : Shape := ⟨1, ![1]⟩
abbrev S3x1x1 : Shape := ⟨3, ![3, 1, 1]⟩
abbrev S3x1 : Shape := ⟨2, ![3, 1]⟩
abbrev S_ : Shape := ⟨0, ![]⟩

class Facts : Prop where
  bcast_S_S100000x512 : S_.BroadcastsInDim S100000x512 (![] : Fin 0 → Fin S100000x512.rank)
  reducesTo_S100000x512_S_d0_1 : S100000x512.ReducesTo [0, 1] S_
  h_S_ : 0 < S_.numel
  bcast_S_S512x1 : S_.BroadcastsInDim S512x1 (![] : Fin 0 → Fin S512x1.rank)
  reducesTo_S512x1_S_d0_1 : S512x1.ReducesTo [0, 1] S_
  bcast_S_S1 : S_.BroadcastsInDim S1 (![] : Fin 0 → Fin S1.rank)
  reducesTo_S1_S_d0 : S1.ReducesTo [0] S_
  bcast_S_S3x1x1 : S_.BroadcastsInDim S3x1x1 (![] : Fin 0 → Fin S3x1x1.rank)
  reducesTo_S3x1x1_S_d0_1_2 : S3x1x1.ReducesTo [0, 1, 2] S_
  bcast_S_S3x1 : S_.BroadcastsInDim S3x1 (![] : Fin 0 → Fin S3x1.rank)
  reducesTo_S3x1_S_d0_1 : S3x1.ReducesTo [0, 1] S_

variable [Facts]

def fn_part1 {F : FTy → Type} [FloatOps F] (main_arg7 : FVec F S3x1x1 .f32) (main_arg8 : FVec F S3x1x1 .f32) (main_arg9 : FVec F S3x1 .f32) (main_v13 : IVec S_ 1) (main_v16 : IVec S1 1) : IVec S_ 1 :=
  let main_c_5 : IVec S_ 1 := constantI S_ 1 1#1
  let main_v17 : IVec S_ 1 := (fun x v => Host.reduce IntOp.andi x v reducesTo_S1_S_d0 h_S_) main_v16 main_c_5
  let main_v18 : IVec S_ 1 := andi main_v13 main_v17
  let main_v19 : FVec F S3x1x1 .f32 := Host.absf main_arg7
  let main_cst_6 : FVec F S_ .f32 := constant S_ .f32 0x7F800000#32
  let main_v20 : FVec F S3x1x1 .f32 := broadcastInDim S3x1x1 ![] bcast_S_S3x1x1 main_cst_6
  let main_v21 : IVec S3x1x1 1 := cmpf .olt main_v19 main_v20
  let main_c_7 : IVec S_ 1 := constantI S_ 1 1#1
  let main_v22 : IVec S_ 1 := (fun x v => Host.reduce IntOp.andi x v reducesTo_S3x1x1_S_d0_1_2 h_S_) main_v21 main_c_7
  let main_v23 : IVec S_ 1 := andi main_v18 main_v22
  let main_v24 : FVec F S3x1x1 .f32 := Host.absf main_arg8
  let main_cst_8 : FVec F S_ .f32 := constant S_ .f32 0x7F800000#32
  let main_v25 : FVec F S3x1x1 .f32 := broadcastInDim S3x1x1 ![] bcast_S_S3x1x1 main_cst_8
  let main_v26 : IVec S3x1x1 1 := cmpf .olt main_v24 main_v25
  let main_c_9 : IVec S_ 1 := constantI S_ 1 1#1
  let main_v27 : IVec S_ 1 := (fun x v => Host.reduce IntOp.andi x v reducesTo_S3x1x1_S_d0_1_2 h_S_) main_v26 main_c_9
  let main_v28 : IVec S_ 1 := andi main_v23 main_v27
  let main_v29 : FVec F S3x1 .f32 := Host.absf main_arg9
  let main_cst_10 : FVec F S_ .f32 := constant S_ .f32 0x7F800000#32
  let main_v30 : FVec F S3x1 .f32 := broadcastInDim S3x1 ![] bcast_S_S3x1 main_cst_10
  let main_v31 : IVec S3x1 1 := cmpf .olt main_v29 main_v30
  let main_c_11 : IVec S_ 1 := constantI S_ 1 1#1
  let main_v32 : IVec S_ 1 := (fun x v => Host.reduce IntOp.andi x v reducesTo_S3x1_S_d0_1 h_S_) main_v31 main_c_11
  let main_v33 : IVec S_ 1 := andi main_v28 main_v32
  main_v33

def fn {F : FTy → Type} [FloatOps F] (main_arg0 : FVec F S100000x512 .f32) (main_arg1 : IVec S3200000 32) (main_arg2 : IVec S3200000 32) (main_arg3 : IVec S100000 32) (main_arg4 : FVec F S512x1 .f32) (main_arg5 : FVec F S512x1 .f32) (main_arg6 : FVec F S1 .f32) (main_arg7 : FVec F S3x1x1 .f32) (main_arg8 : FVec F S3x1x1 .f32) (main_arg9 : FVec F S3x1 .f32) : IVec S_ 1 :=
  let main_v0 : FVec F S100000x512 .f32 := Host.absf main_arg0
  let main_cst : FVec F S_ .f32 := constant S_ .f32 0x7F800000#32
  let main_v1 : FVec F S100000x512 .f32 := broadcastInDim S100000x512 ![] bcast_S_S100000x512 main_cst
  let main_v2 : IVec S100000x512 1 := cmpf .olt main_v0 main_v1
  let main_c : IVec S_ 1 := constantI S_ 1 1#1
  let main_v3 : IVec S_ 1 := (fun x v => Host.reduce IntOp.andi x v reducesTo_S100000x512_S_d0_1 h_S_) main_v2 main_c
  let main_v4 : FVec F S512x1 .f32 := Host.absf main_arg4
  let main_cst_0 : FVec F S_ .f32 := constant S_ .f32 0x7F800000#32
  let main_v5 : FVec F S512x1 .f32 := broadcastInDim S512x1 ![] bcast_S_S512x1 main_cst_0
  let main_v6 : IVec S512x1 1 := cmpf .olt main_v4 main_v5
  let main_c_1 : IVec S_ 1 := constantI S_ 1 1#1
  let main_v7 : IVec S_ 1 := (fun x v => Host.reduce IntOp.andi x v reducesTo_S512x1_S_d0_1 h_S_) main_v6 main_c_1
  let main_v8 : IVec S_ 1 := andi main_v3 main_v7
  let main_v9 : FVec F S512x1 .f32 := Host.absf main_arg5
  let main_cst_2 : FVec F S_ .f32 := constant S_ .f32 0x7F800000#32
  let main_v10 : FVec F S512x1 .f32 := broadcastInDim S512x1 ![] bcast_S_S512x1 main_cst_2
  let main_v11 : IVec S512x1 1 := cmpf .olt main_v9 main_v10
  let main_c_3 : IVec S_ 1 := constantI S_ 1 1#1
  let main_v12 : IVec S_ 1 := (fun x v => Host.reduce IntOp.andi x v reducesTo_S512x1_S_d0_1 h_S_) main_v11 main_c_3
  let main_v13 : IVec S_ 1 := andi main_v8 main_v12
  let main_v14 : FVec F S1 .f32 := Host.absf main_arg6
  let main_cst_4 : FVec F S_ .f32 := constant S_ .f32 0x7F800000#32
  let main_v15 : FVec F S1 .f32 := broadcastInDim S1 ![] bcast_S_S1 main_cst_4
  let main_v16 : IVec S1 1 := cmpf .olt main_v14 main_v15
  fn_part1 (F := F) main_arg7 main_arg8 main_arg9 main_v13 main_v16
-- ==== Kernel.lean ====
abbrev S100000x512 : Shape := ⟨2, ![100000, 512]⟩
abbrev S3200000 : Shape := ⟨1, ![3200000]⟩
abbrev S100000 : Shape := ⟨1, ![100000]⟩
abbrev S512x1 : Shape := ⟨2, ![512, 1]⟩
abbrev S1 : Shape := ⟨1, ![1]⟩
abbrev S3x1x1 : Shape := ⟨3, ![3, 1, 1]⟩
abbrev S3x1 : Shape := ⟨2, ![3, 1]⟩
abbrev S512x2 : Shape := ⟨2, ![512, 2]⟩
abbrev S100000x1 : Shape := ⟨2, ![100000, 1]⟩
abbrev S100000x2 : Shape := ⟨2, ![100000, 2]⟩
abbrev S25x64x512 : Shape := ⟨3, ![25, 64, 512]⟩
abbrev S4000x512 : Shape := ⟨2, ![4000, 512]⟩
abbrev S4000x1 : Shape := ⟨2, ![4000, 1]⟩
abbrev S4000x2 : Shape := ⟨2, ![4000, 2]⟩
abbrev S1x64x512 : Shape := ⟨3, ![1, 64, 512]⟩
abbrev S4000x64 : Shape := ⟨2, ![4000, 64]⟩
abbrev S64x512 : Shape := ⟨2, ![64, 512]⟩
abbrev S_ : Shape := ⟨0, ![]⟩
abbrev S3200000x1 : Shape := ⟨2, ![3200000, 1]⟩
abbrev S1x1x1 : Shape := ⟨3, ![1, 1, 1]⟩
abbrev S1x1 : Shape := ⟨2, ![1, 1]⟩
abbrev S100000x4 : Shape := ⟨2, ![100000, 4]⟩
abbrev S64x4 : Shape := ⟨2, ![64, 4]⟩
abbrev S64x516 : Shape := ⟨2, ![64, 516]⟩

abbrev nBuf : Space → Nat
  | .hbm => 137
  | .vmem => 9
  | .smem => 0
  | _ => 0

abbrev hbmTy0_0 (i : Nat) : BufTy := match i % 128 with
  | 0 => ⟨S100000x512, .f32⟩
  | 1 => ⟨S3200000, .i32⟩
  | 2 => ⟨S3200000, .i32⟩
  | 3 => ⟨S100000, .i32⟩
  | 4 => ⟨S512x1, .f32⟩
  | 5 => ⟨S512x1, .f32⟩
  | 6 => ⟨S1, .f32⟩
  | 7 => ⟨S3x1x1, .f32⟩
  | 8 => ⟨S3x1x1, .f32⟩
  | 9 => ⟨S3x1, .f32⟩
  | 10 => ⟨S512x2, .f32⟩
  | 11 => ⟨S100000x1, .i32⟩
  | 12 => ⟨S100000x2, .f32⟩
  | 13 => ⟨S25x64x512, .f32⟩
  | 14 => ⟨S_, .f32⟩
  | 15 => ⟨S64x512, .f32⟩
  | 16 => ⟨S100000x1, .f32⟩
  | 17 => ⟨S100000, .f32⟩
  | 18 => ⟨S100000x1, .f32⟩
  | 19 => ⟨S100000, .f32⟩
  | 20 => ⟨S_, .i32⟩
  | 21 => ⟨S3200000, .i32⟩
  | 22 => ⟨S3200000, .i1⟩
  | 23 => ⟨S_, .i32⟩
  | 24 => ⟨S3200000, .i32⟩
  | 25 => ⟨S3200000, .i32⟩
  | 26 => ⟨S3200000, .i32⟩
  | 27 => ⟨S3200000x1, .i32⟩
  | 28 => ⟨S3200000, .f32⟩
  | 29 => ⟨S_, .f32⟩
  | 30 => ⟨S100000, .f32⟩
  | 31 => ⟨S3200000x1, .i32⟩
  | 32 => ⟨S100000, .f32⟩
  | 33 => ⟨S_, .f32⟩
  | 34 => ⟨S100000, .f32⟩
  | 35 => ⟨S100000, .f32⟩
  | 36 => ⟨S100000, .f32⟩
  | 37 => ⟨S_, .f32⟩
  | 38 => ⟨S100000, .f32⟩
  | 39 => ⟨S100000, .f32⟩
  | 40 => ⟨S1x1x1, .f32⟩
  | 41 => ⟨S_, .f32⟩
  | 42 => ⟨S1x1x1, .f32⟩
  | 43 => ⟨S_, .f32⟩
  | 44 => ⟨S1x1, .f32⟩
  | 45 => ⟨S_, .f32⟩
  | 46 => ⟨S100000, .f32⟩
  | 47 => ⟨S100000, .f32⟩
  | 48 => ⟨S_, .i32⟩
  | 49 => ⟨S3200000, .i32⟩
  | 50 => ⟨S3200000, .i1⟩
  | 51 => ⟨S_, .i32⟩
  | 52 => ⟨S3200000, .i32⟩
  | 53 => ⟨S3200000, .i32⟩
  | 54 => ⟨S3200000, .i32⟩
  | 55 => ⟨S3200000x1, .i32⟩
  | 56 => ⟨S3200000, .f32⟩
  | 57 => ⟨S_, .f32⟩
  | 58 => ⟨S100000, .f32⟩
  | 59 => ⟨S3200000x1, .i32⟩
  | 60 => ⟨S100000, .f32⟩
  | 61 => ⟨S100000, .f32⟩
  | 62 => ⟨S100000, .f32⟩
  | 63 => ⟨S100000, .f32⟩
  | 64 => ⟨S100000, .f32⟩
  | 65 => ⟨S100000, .f32⟩
  | 66 => ⟨S_, .f32⟩
  | 67 => ⟨S100000, .f32⟩
  | 68 => ⟨S100000, .f32⟩
  | 69 => ⟨S1x1x1, .f32⟩
  | 70 => ⟨S_, .f32⟩
  | 71 => ⟨S1x1x1, .f32⟩
  | 72 => ⟨S_, .f32⟩
  | 73 => ⟨S1x1, .f32⟩
  | 74 => ⟨S_, .f32⟩
  | 75 => ⟨S100000, .f32⟩
  | 76 => ⟨S100000, .f32⟩
  | 77 => ⟨S_, .i32⟩
  | 78 => ⟨S3200000, .i32⟩
  | 79 => ⟨S3200000, .i1⟩
  | 80 => ⟨S_, .i32⟩
  | 81 => ⟨S3200000, .i32⟩
  | 82 => ⟨S3200000, .i32⟩
  | 83 => ⟨S3200000, .i32⟩
  | 84 => ⟨S3200000x1, .i32⟩
  | 85 => ⟨S3200000, .f32⟩
  | 86 => ⟨S_, .f32⟩
  | 87 => ⟨S100000, .f32⟩
  | 88 => ⟨S3200000x1, .i32⟩
  | 89 => ⟨S100000, .f32⟩
  | 90 => ⟨S100000, .f32⟩
  | 91 => ⟨S100000, .f32⟩
  | 92 => ⟨S100000, .f32⟩
  | 93 => ⟨S100000, .f32⟩
  | 94 => ⟨S100000, .f32⟩
  | 95 => ⟨S_, .f32⟩
  | 96 => ⟨S100000, .f32⟩
  | 97 => ⟨S100000, .f32⟩
  | 98 => ⟨S1x1x1, .f32⟩
  | 99 => ⟨S_, .f32⟩
  | 100 => ⟨S1x1x1, .f32⟩
  | 101 => ⟨S_, .f32⟩
  | 102 => ⟨S1x1, .f32⟩
  | 103 => ⟨S_, .f32⟩
  | 104 => ⟨S100000, .f32⟩
  | 105 => ⟨S100000, .f32⟩
  | 106 => ⟨S_, .i32⟩
  | 107 => ⟨S3200000, .i32⟩
  | 108 => ⟨S3200000, .i1⟩
  | 109 => ⟨S_, .i32⟩
  | 110 => ⟨S3200000, .i32⟩
  | 111 => ⟨S3200000, .i32⟩
  | 112 => ⟨S3200000, .i32⟩
  | 113 => ⟨S3200000x1, .i32⟩
  | 114 => ⟨S3200000, .f32⟩
  | 115 => ⟨S_, .f32⟩
  | 116 => ⟨S100000, .f32⟩
  | 117 => ⟨S3200000x1, .i32⟩
  | 118 => ⟨S100000, .f32⟩
  | 119 => ⟨S100000, .f32⟩
  | 120 => ⟨S100000, .f32⟩
  | 121 => ⟨S100000, .f32⟩
  | 122 => ⟨S100000, .f32⟩
  | 123 => ⟨S100000, .f32⟩
  | 124 => ⟨S_, .f32⟩
  | 125 => ⟨S100000, .f32⟩
  | 126 => ⟨S100000, .f32⟩
  | 127 => ⟨S100000x1, .f32⟩
  | _ => ⟨S100000x512, .f32⟩

abbrev hbmTy0_1 (i : Nat) : BufTy := match i % 128 with
  | 0 => ⟨S100000x1, .f32⟩
  | 1 => ⟨S100000x1, .f32⟩
  | 2 => ⟨S100000x1, .f32⟩
  | 3 => ⟨S100000x4, .f32⟩
  | 4 => ⟨S_, .f32⟩
  | 5 => ⟨S64x4, .f32⟩
  | 6 => ⟨S100000x1, .i32⟩
  | 7 => ⟨S64x4, .f32⟩
  | 8 => ⟨S64x516, .f32⟩
  | _ => ⟨S100000x512, .f32⟩

abbrev hbmTy (i : Nat) : BufTy := match i / 128 with
  | 0 => hbmTy0_0 i
  | 1 => hbmTy0_1 i
  | _ => ⟨S100000x512, .f32⟩

abbrev bufTy : (tb : Table) → Fin (tcTables nBuf tb) → BufTy
  | .hbm, ⟨i, _⟩ => hbmTy i
  | .local _ .vmem, ⟨0, _⟩ => ⟨S4000x512, .f32⟩
  | .local _ .vmem, ⟨1, _⟩ => ⟨S4000x512, .f32⟩
  | .local _ .vmem, ⟨2, _⟩ => ⟨S512x2, .f32⟩
  | .local _ .vmem, ⟨3, _⟩ => ⟨S4000x1, .i32⟩
  | .local _ .vmem, ⟨4, _⟩ => ⟨S4000x1, .i32⟩
  | .local _ .vmem, ⟨5, _⟩ => ⟨S4000x2, .f32⟩
  | .local _ .vmem, ⟨6, _⟩ => ⟨S4000x2, .f32⟩
  | .local _ .vmem, ⟨7, _⟩ => ⟨S1x64x512, .f32⟩
  | .local _ .vmem, ⟨8, _⟩ => ⟨S1x64x512, .f32⟩
  | _, _ => ⟨S100000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2_0 : Ref sig .tc := ⟨.hbm, 12, rfl⟩
abbrev main_v2_1 : Ref sig .tc := ⟨.hbm, 13, rfl⟩
abbrev main_cst : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_c : Ref sig .tc := ⟨.hbm, 20, rfl⟩
abbrev main_v8 : Ref sig .tc := ⟨.hbm, 21, rfl⟩
abbrev main_v9 : Ref sig .tc := ⟨.hbm, 22, rfl⟩
abbrev main_c_0 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_cst_1 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_call0_cst : Ref sig .tc := ⟨.hbm, 37, rfl⟩
abbrev main_call0_v0 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_c_2 : Ref sig .tc := ⟨.hbm, 48, rfl⟩
abbrev main_v31 : Ref sig .tc := ⟨.hbm, 49, rfl⟩
abbrev main_v32 : Ref sig .tc := ⟨.hbm, 50, rfl⟩
abbrev main_c_3 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_cst_4 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_call1_cst : Ref sig .tc := ⟨.hbm, 66, rfl⟩
abbrev main_call1_v0 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_c_5 : Ref sig .tc := ⟨.hbm, 77, rfl⟩
abbrev main_v55 : Ref sig .tc := ⟨.hbm, 78, rfl⟩
abbrev main_v56 : Ref sig .tc := ⟨.hbm, 79, rfl⟩
abbrev main_c_6 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_cst_7 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_call2_cst : Ref sig .tc := ⟨.hbm, 95, rfl⟩
abbrev main_call2_v0 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_c_8 : Ref sig .tc := ⟨.hbm, 106, rfl⟩
abbrev main_v79 : Ref sig .tc := ⟨.hbm, 107, rfl⟩
abbrev main_v80 : Ref sig .tc := ⟨.hbm, 108, rfl⟩
abbrev main_c_9 : Ref sig .tc := ⟨.hbm, 109, rfl⟩
abbrev main_v81 : Ref sig .tc := ⟨.hbm, 110, rfl⟩
abbrev main_v82 : Ref sig .tc := ⟨.hbm, 111, rfl⟩
abbrev main_v83 : Ref sig .tc := ⟨.hbm, 112, rfl⟩
abbrev main_v84 : Ref sig .tc := ⟨.hbm, 113, rfl⟩
abbrev main_v85 : Ref sig .tc := ⟨.hbm, 114, rfl⟩
abbrev main_cst_10 : Ref sig .tc := ⟨.hbm, 115, rfl⟩
abbrev main_v86 : Ref sig .tc := ⟨.hbm, 116, rfl⟩
abbrev main_v87 : Ref sig .tc := ⟨.hbm, 117, rfl⟩
abbrev main_v88 : Ref sig .tc := ⟨.hbm, 118, rfl⟩
abbrev main_v89 : Ref sig .tc := ⟨.hbm, 119, rfl⟩
abbrev main_v90 : Ref sig .tc := ⟨.hbm, 120, rfl⟩
abbrev main_v91 : Ref sig .tc := ⟨.hbm, 121, rfl⟩
abbrev main_v92 : Ref sig .tc := ⟨.hbm, 122, rfl⟩
abbrev main_v93 : Ref sig .tc := ⟨.hbm, 123, rfl⟩
abbrev main_call3_cst : Ref sig .tc := ⟨.hbm, 124, rfl⟩
abbrev main_call3_v0 : Ref sig .tc := ⟨.hbm, 125, rfl⟩
abbrev main_v94 : Ref sig .tc := ⟨.hbm, 126, rfl⟩
abbrev main_v95 : Ref sig .tc := ⟨.hbm, 127, rfl⟩
abbrev main_v96 : Ref sig .tc := ⟨.hbm, 128, rfl⟩
abbrev main_v97 : Ref sig .tc := ⟨.hbm, 129, rfl⟩
abbrev main_v98 : Ref sig .tc := ⟨.hbm, 130, rfl⟩
abbrev main_v99 : Ref sig .tc := ⟨.hbm, 131, rfl⟩
abbrev main_cst_11 : Ref sig .tc := ⟨.hbm, 132, rfl⟩
abbrev main_v100 : Ref sig .tc := ⟨.hbm, 133, rfl⟩
abbrev main_v101 : Ref sig .tc := ⟨.hbm, 134, rfl⟩
abbrev main_v102 : Ref sig .tc := ⟨.hbm, 135, rfl⟩
abbrev main_v103 : Ref sig .tc := ⟨.hbm, 136, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S4000x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x2 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S4000x1 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4000x2 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x64x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  concatenates_S512x1_S512x1_S512x2_d1 : Shape.Concatenates [S512x1, S512x1] S512x2 1
  shapeCasts_S100000_S100000x1 : S100000.ShapeCasts S100000x1
  inb_S4000x512_S4000x512_0_0 : ∀ a, (![0, 0] : Fin 2 → Nat) a + S4000x512.size a ≤ S4000x512.size a
  h_S4000x512 : 0 < S4000x512.numel
  bitsLt_bf16_f32 : FTy.bits .bf16 < FTy.bits .f32
  inb_S512x2_S512x2_0_0 : ∀ a, (![0, 0] : Fin 2 → Nat) a + S512x2.size a ≤ S512x2.size a
  h_S512x2 : 0 < S512x2.numel
  shapeCasts_S512x2_S512x2 : S512x2.ShapeCasts S512x2
  inb_S4000x2_S4000x2_0_0 : ∀ a, (![0, 0] : Fin 2 → Nat) a + S4000x2.size a ≤ S4000x2.size a
  h_S4000x2 : 0 < S4000x2.numel
  inb_S4000x1_S4000x1_0_0 : ∀ a, (![0, 0] : Fin 2 → Nat) a + S4000x1.size a ≤ S4000x1.size a
  h_S4000x1 : 0 < S4000x1.numel
  shapeCasts_S4000x1_S4000x1 : S4000x1.ShapeCasts S4000x1
  iota_S4000x64_d1_w32 : S4000x64.Iotas .tc 32 [1]
  broadcasts_S4000x1_S4000x64 : S4000x1.Broadcasts S4000x64
  natLt_1_32 : 1 < 32
  inb_S1x64x512_S1x64x512_0_0_0 : ∀ a, (![0, 0, 0] : Fin 3 → Nat) a + S1x64x512.size a ≤ S1x64x512.size a
  h_S1x64x512 : 0 < S1x64x512.numel
  shapeCasts_S1x64x512_S64x512 : S1x64x512.ShapeCasts S64x512
  shapeCasts_S64x512_S1x64x512 : S64x512.ShapeCasts S1x64x512
  reducesTo_S25x64x512_S64x512_d0 : S25x64x512.ReducesTo [0] S64x512
  h_S_ : 0 < S_.numel
  slices_S100000x2_S100000x1_0_0 : S100000x2.Slices ![0, 0] S100000x1
  shapeCasts_S100000x1_S100000 : S100000x1.ShapeCasts S100000
  slices_S100000x2_S100000x1_0_1 : S100000x2.Slices ![0, 1] S100000x1
  bcast_S_S3200000 : S_.BroadcastsInDim S3200000 (![] : Fin 0 → Fin S3200000.rank)
  bcast_S3200000_S3200000x1_0 : S3200000.BroadcastsInDim S3200000x1 (![0] : Fin 1 → Fin S3200000x1.rank)
  bcast_S_S100000 : S_.BroadcastsInDim S100000 (![] : Fin 0 → Fin S100000.rank)
  shapeCasts_S1_S_ : S1.ShapeCasts S_
  slices_S3x1x1_S1x1x1_0_0_0 : S3x1x1.Slices ![0, 0, 0] S1x1x1
  shapeCasts_S1x1x1_S_ : S1x1x1.ShapeCasts S_
  slices_S3x1_S1x1_0_0 : S3x1.Slices ![0, 0] S1x1
  shapeCasts_S1x1_S_ : S1x1.ShapeCasts S_
  slices_S3x1x1_S1x1x1_1_0_0 : S3x1x1.Slices ![1, 0, 0] S1x1x1
  slices_S3x1_S1x1_1_0 : S3x1.Slices ![1, 0] S1x1
  slices_S3x1x1_S1x1x1_2_0_0 : S3x1x1.Slices ![2, 0, 0] S1x1x1
  slices_S3x1_S1x1_2_0 : S3x1.Slices ![2, 0] S1x1
  bcast_S100000_S100000x1_0 : S100000.BroadcastsInDim S100000x1 (![0] : Fin 1 → Fin S100000x1.rank)
  concatenates_S100000x1_S100000x1_S100000x1_S100000x1_S100000x4_d1 : Shape.Concatenates [S100000x1, S100000x1, S100000x1, S100000x1] S100000x4 1
  bcast_S_S64x4 : S_.BroadcastsInDim S64x4 (![] : Fin 0 → Fin S64x4.rank)
  concatenates_S64x512_S64x4_S64x516_d1 : Shape.Concatenates [S64x512, S64x4] S64x516 1
  dot_S4000x512_S512x2_S4000x2_1_0_0_1_n_n_wf : DotDims.WF S4000x512 S512x2 S4000x2 [1] [0] [0] [1] [] []
  dot_S4000x64_S4000x512_S64x512_0_0_1_1_n_n_wf : DotDims.WF S4000x64 S4000x512 S64x512 [0] [0] [1] [1] [] []
  gather_S100000_S3200000x1_S3200000_n_0_n_n_0_1_1_wf : GatherDims.WF S100000 S3200000x1 S3200000 [] [0] [] [0] [] 1 ![1]
  scatter_S100000_S3200000x1_S3200000_n_0_0_1_wf : ScatterDims.WF S100000 S3200000x1 S3200000 [] [0] [0] 1
  scatter_S64x4_S100000x1_S100000x4_1_0_0_1_wf : ScatterDims.WF S64x4 S100000x1 S100000x4 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x512.size a ≤ S100000x512.size a
  hwx0_0 : ∀ i : grid0.Coords, EltTy.bits .f32 = 32 ∨ (Rect.block (s := S100000x512) S4000x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x2.size a ≤ S512x2.size a
  hwx0_1 : ∀ i : grid0.Coords, EltTy.bits .f32 = 32 ∨ (Rect.block (s := S512x2) S512x2.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4000x1.size a ≤ S100000x1.size a
  hwx0_2 : ∀ i : grid0.Coords, EltTy.bits .i32 = 32 ∨ (Rect.block (s := S100000x1) S4000x1.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4000x2.size a ≤ S100000x2.size a
  hwx0_3 : ∀ i : grid0.Coords, EltTy.bits .f32 = 32 ∨ (Rect.block (s := S100000x2) S4000x2.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x64x512.size a ≤ S25x64x512.size a
  hwx0_4 : ∀ i : grid0.Coords, EltTy.bits .f32 = 32 ∨ (Rect.block (s := S25x64x512) S1x64x512.size (cc0_transform_4 i) (hinb0_4 i)).WholeWords (EltTy.packing .f32)

variable [Facts₀]

def dot_S4000x512_S512x2_S4000x2_1_0_0_1_n_n : DotDims S4000x512 S512x2 S4000x2 where
  lhsContracting := [1]
  rhsContracting := [0]
  lhsNonContracting := [0]
  rhsNonContracting := [1]
  lhsBatch := []
  rhsBatch := []
  wf := dot_S4000x512_S512x2_S4000x2_1_0_0_1_n_n_wf
def dot_S4000x64_S4000x512_S64x512_0_0_1_1_n_n : DotDims S4000x64 S4000x512 S64x512 where
  lhsContracting := [0]
  rhsContracting := [0]
  lhsNonContracting := [1]
  rhsNonContracting := [1]
  lhsBatch := []
  rhsBatch := []
  wf := dot_S4000x64_S4000x512_S64x512_0_0_1_1_n_n_wf
def gather_S100000_S3200000x1_S3200000_n_0_n_n_0_1_1 : GatherDims S100000 S3200000x1 S3200000 where
  offsetDims := []
  collapsedSliceDims := [0]
  operandBatchingDims := []
  startIndicesBatchingDims := []
  startIndexMap := [0]
  indexVectorDim := 1
  sliceSizes := ![1]
  wf := gather_S100000_S3200000x1_S3200000_n_0_n_n_0_1_1_wf
def scatter_S100000_S3200000x1_S3200000_n_0_0_1 : ScatterDims S100000 S3200000x1 S3200000 where
  updateWindowDims := []
  insertedWindowDims := [0]
  scatterDimsToOperandDims := [0]
  indexVectorDim := 1
  wf := scatter_S100000_S3200000x1_S3200000_n_0_0_1_wf
def scatter_S64x4_S100000x1_S100000x4_1_0_0_1 : ScatterDims S64x4 S100000x1 S100000x4 where
  updateWindowDims := [1]
  insertedWindowDims := [0]
  scatterDimsToOperandDims := [0]
  indexVectorDim := 1
  wf := scatter_S64x4_S100000x1_S100000x4_1_0_0_1_wf

abbrev win0_0 : Pipeline.Window sig grid0 :=
  Pipeline.Window.ofSpec (Memref.whole main_arg0) S4000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S512x2.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S4000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2_0) S4000x2.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v2_1) S1x64x512.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S100000x512 : Shape := ⟨2, ![100000, 512]⟩
abbrev S3200000 : Shape := ⟨1, ![3200000]⟩
abbrev S100000 : Shape := ⟨1, ![100000]⟩
abbrev S512x1 : Shape := ⟨2, ![512, 1]⟩
abbrev S1 : Shape := ⟨1, ![1]⟩
abbrev S3x1x1 : Shape := ⟨3, ![3, 1, 1]⟩
abbrev S3x1 : Shape := ⟨2, ![3, 1]⟩
abbrev S100000x1 : Shape := ⟨2, ![100000, 1]⟩
abbrev S_ : Shape := ⟨0, ![]⟩
abbrev S3200000x1 : Shape := ⟨2, ![3200000, 1]⟩
abbrev S1x1 : Shape := ⟨2, ![1, 1]⟩
abbrev S1x1x1 : Shape := ⟨3, ![1, 1, 1]⟩
abbrev S100000x516 : Shape := ⟨2, ![100000, 516]⟩
abbrev S64x516 : Shape := ⟨2, ![64, 516]⟩

abbrev nBuf : Space → Nat
  | .hbm => 121
  | .vmem => 0
  | .smem => 0
  | _ => 0

abbrev bufTy : (tb : Table) → Fin (tcTables nBuf tb) → BufTy
  | .hbm, ⟨0, _⟩ => ⟨S100000x512, .f32⟩
  | .hbm, ⟨1, _⟩ => ⟨S3200000, .i32⟩
  | .hbm, ⟨2, _⟩ => ⟨S3200000, .i32⟩
  | .hbm, ⟨3, _⟩ => ⟨S100000, .i32⟩
  | .hbm, ⟨4, _⟩ => ⟨S512x1, .f32⟩
  | .hbm, ⟨5, _⟩ => ⟨S512x1, .f32⟩
  | .hbm, ⟨6, _⟩ => ⟨S1, .f32⟩
  | .hbm, ⟨7, _⟩ => ⟨S3x1x1, .f32⟩
  | .hbm, ⟨8, _⟩ => ⟨S3x1x1, .f32⟩
  | .hbm, ⟨9, _⟩ => ⟨S3x1, .f32⟩
  | .hbm, ⟨10, _⟩ => ⟨S100000x1, .f32⟩
  | .hbm, ⟨11, _⟩ => ⟨S_, .i32⟩
  | .hbm, ⟨12, _⟩ => ⟨S3200000, .i32⟩
  | .hbm, ⟨13, _⟩ => ⟨S3200000, .i1⟩
  | .hbm, ⟨14, _⟩ => ⟨S_, .i32⟩
  | .hbm, ⟨15, _⟩ => ⟨S3200000, .i32⟩
  | .hbm, ⟨16, _⟩ => ⟨S3200000, .i32⟩
  | .hbm, ⟨17, _⟩ => ⟨S3200000, .i32⟩
  | .hbm, ⟨18, _⟩ => ⟨S3200000x1, .i32⟩
  | .hbm, ⟨19, _⟩ => ⟨S3200000x1, .f32⟩
  | .hbm, ⟨20, _⟩ => ⟨S_, .f32⟩
  | .hbm, ⟨21, _⟩ => ⟨S100000x1, .f32⟩
  | .hbm, ⟨22, _⟩ => ⟨S3200000x1, .i32⟩
  | .hbm, ⟨23, _⟩ => ⟨S100000x1, .f32⟩
  | .hbm, ⟨24, _⟩ => ⟨S1x1, .f32⟩
  | .hbm, ⟨25, _⟩ => ⟨S100000x1, .f32⟩
  | .hbm, ⟨26, _⟩ => ⟨S100000x1, .f32⟩
  | .hbm, ⟨27, _⟩ => ⟨S100000x1, .f32⟩
  | .hbm, ⟨28, _⟩ => ⟨S100000x1, .f32⟩
  | .hbm, ⟨29, _⟩ => ⟨S_, .f32⟩
  | .hbm, ⟨30, _⟩ => ⟨S100000x1, .f32⟩
  | .hbm, ⟨31, _⟩ => ⟨S100000x1, .f32⟩
  | .hbm, ⟨32, _⟩ => ⟨S1x1x1, .f32⟩
  | .hbm, ⟨33, _⟩ => ⟨S1x1, .f32⟩
  | .hbm, ⟨34, _⟩ => ⟨S1x1x1, .f32⟩
  | .hbm, ⟨35, _⟩ => ⟨S1x1, .f32⟩
  | .hbm, ⟨36, _⟩ => ⟨S1x1, .f32⟩
  | .hbm, ⟨37, _⟩ => ⟨S1, .f32⟩
  | .hbm, ⟨38, _⟩ => ⟨S100000x1, .f32⟩
  | .hbm, ⟨39, _⟩ => ⟨S_, .i32⟩
  | .hbm, ⟨40, _⟩ => ⟨S3200000, .i32⟩
  | .hbm, ⟨41, _⟩ => ⟨S3200000, .i1⟩
  | .hbm, ⟨42, _⟩ => ⟨S_, .i32⟩
  | .hbm, ⟨43, _⟩ => ⟨S3200000, .i32⟩
  | .hbm, ⟨44, _⟩ => ⟨S3200000, .i32⟩
  | .hbm, ⟨45, _⟩ => ⟨S3200000, .i32⟩
  | .hbm, ⟨46, _⟩ => ⟨S3200000x1, .i32⟩
  | .hbm, ⟨47, _⟩ => ⟨S3200000x1, .f32⟩
  | .hbm, ⟨48, _⟩ => ⟨S_, .f32⟩
  | .hbm, ⟨49, _⟩ => ⟨S100000x1, .f32⟩
  | .hbm, ⟨50, _⟩ => ⟨S3200000x1, .i32⟩
  | .hbm, ⟨51, _⟩ => ⟨S100000x1, .f32⟩
  | .hbm, ⟨52, _⟩ => ⟨S1x1, .f32⟩
  | .hbm, ⟨53, _⟩ => ⟨S100000x1, .f32⟩
  | .hbm, ⟨54, _⟩ => ⟨S100000x1, .f32⟩
  | .hbm, ⟨55, _⟩ => ⟨S100000x1, .f32⟩
  | .hbm, ⟨56, _⟩ => ⟨S100000x1, .f32⟩
  | .hbm, ⟨57, _⟩ => ⟨S_, .f32⟩
  | .hbm, ⟨58, _⟩ => ⟨S100000x1, .f32⟩
  | .hbm, ⟨59, _⟩ => ⟨S100000x1, .f32⟩
  | .hbm, ⟨60, _⟩ => ⟨S1x1x1, .f32⟩
  | .hbm, ⟨61, _⟩ => ⟨S1x1, .f32⟩
  | .hbm, ⟨62, _⟩ => ⟨S1x1x1, .f32⟩
  | .hbm, ⟨63, _⟩ => ⟨S1x1, .f32⟩
  | .hbm, ⟨64, _⟩ => ⟨S1x1, .f32⟩
  | .hbm, ⟨65, _⟩ => ⟨S1, .f32⟩
  | .hbm, ⟨66, _⟩ => ⟨S100000x1, .f32⟩
  | .hbm, ⟨67, _⟩ => ⟨S_, .i32⟩
  | .hbm, ⟨68, _⟩ => ⟨S3200000, .i32⟩
  | .hbm, ⟨69, _⟩ => ⟨S3200000, .i1⟩
  | .hbm, ⟨70, _⟩ => ⟨S_, .i32⟩
  | .hbm, ⟨71, _⟩ => ⟨S3200000, .i32⟩
  | .hbm, ⟨72, _⟩ => ⟨S3200000, .i32⟩
  | .hbm, ⟨73, _⟩ => ⟨S3200000, .i32⟩
  | .hbm, ⟨74, _⟩ => ⟨S3200000x1, .i32⟩
  | .hbm, ⟨75, _⟩ => ⟨S3200000x1, .f32⟩
  | .hbm, ⟨76, _⟩ => ⟨S_, .f32⟩
  | .hbm, ⟨77, _⟩ => ⟨S100000x1, .f32⟩
  | .hbm, ⟨78, _⟩ => ⟨S3200000x1, .i32⟩
  | .hbm, ⟨79, _⟩ => ⟨S100000x1, .f32⟩
  | .hbm, ⟨80, _⟩ => ⟨S1x1, .f32⟩
  | .hbm, ⟨81, _⟩ => ⟨S100000x1, .f32⟩
  | .hbm, ⟨82, _⟩ => ⟨S100000x1, .f32⟩
  | .hbm, ⟨83, _⟩ => ⟨S100000x1, .f32⟩
  | .hbm, ⟨84, _⟩ => ⟨S100000x1, .f32⟩
  | .hbm, ⟨85, _⟩ => ⟨S_, .f32⟩
  | .hbm, ⟨86, _⟩ => ⟨S100000x1, .f32⟩
  | .hbm, ⟨87, _⟩ => ⟨S100000x1, .f32⟩
  | .hbm, ⟨88, _⟩ => ⟨S1x1x1, .f32⟩
  | .hbm, ⟨89, _⟩ => ⟨S1x1, .f32⟩
  | .hbm, ⟨90, _⟩ => ⟨S1x1x1, .f32⟩
  | .hbm, ⟨91, _⟩ => ⟨S1x1, .f32⟩
  | .hbm, ⟨92, _⟩ => ⟨S1x1, .f32⟩
  | .hbm, ⟨93, _⟩ => ⟨S1, .f32⟩
  | .hbm, ⟨94, _⟩ => ⟨S100000x1, .f32⟩
  | .hbm, ⟨95, _⟩ => ⟨S_, .i32⟩
  | .hbm, ⟨96, _⟩ => ⟨S3200000, .i32⟩
  | .hbm, ⟨97, _⟩ => ⟨S3200000, .i1⟩
  | .hbm, ⟨98, _⟩ => ⟨S_, .i32⟩
  | .hbm, ⟨99, _⟩ => ⟨S3200000, .i32⟩
  | .hbm, ⟨100, _⟩ => ⟨S3200000, .i32⟩
  | .hbm, ⟨101, _⟩ => ⟨S3200000, .i32⟩
  | .hbm, ⟨102, _⟩ => ⟨S3200000x1, .i32⟩
  | .hbm, ⟨103, _⟩ => ⟨S3200000x1, .f32⟩
  | .hbm, ⟨104, _⟩ => ⟨S_, .f32⟩
  | .hbm, ⟨105, _⟩ => ⟨S100000x1, .f32⟩
  | .hbm, ⟨106, _⟩ => ⟨S3200000x1, .i32⟩
  | .hbm, ⟨107, _⟩ => ⟨S100000x1, .f32⟩
  | .hbm, ⟨108, _⟩ => ⟨S1x1, .f32⟩
  | .hbm, ⟨109, _⟩ => ⟨S100000x1, .f32⟩
  | .hbm, ⟨110, _⟩ => ⟨S100000x1, .f32⟩
  | .hbm, ⟨111, _⟩ => ⟨S100000x1, .f32⟩
  | .hbm, ⟨112, _⟩ => ⟨S100000x1, .f32⟩
  | .hbm, ⟨113, _⟩ => ⟨S_, .f32⟩
  | .hbm, ⟨114, _⟩ => ⟨S100000x1, .f32⟩
  | .hbm, ⟨115, _⟩ => ⟨S100000x1, .f32⟩
  | .hbm, ⟨116, _⟩ => ⟨S100000x516, .f32⟩
  | .hbm, ⟨117, _⟩ => ⟨S_, .f32⟩
  | .hbm, ⟨118, _⟩ => ⟨S64x516, .f32⟩
  | .hbm, ⟨119, _⟩ => ⟨S100000x1, .i32⟩
  | .hbm, ⟨120, _⟩ => ⟨S64x516, .f32⟩
  | _, _ => ⟨S100000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_c : Ref sig .tc := ⟨.hbm, 11, rfl⟩
abbrev main_v1 : Ref sig .tc := ⟨.hbm, 12, rfl⟩
abbrev main_v2 : Ref sig .tc := ⟨.hbm, 13, rfl⟩
abbrev main_c_0 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_cst : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_call0_cst : Ref sig .tc := ⟨.hbm, 29, rfl⟩
abbrev main_call0_v0 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_c_1 : Ref sig .tc := ⟨.hbm, 39, rfl⟩
abbrev main_v24 : Ref sig .tc := ⟨.hbm, 40, rfl⟩
abbrev main_v25 : Ref sig .tc := ⟨.hbm, 41, rfl⟩
abbrev main_c_2 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_cst_3 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_call1_cst : Ref sig .tc := ⟨.hbm, 57, rfl⟩
abbrev main_call1_v0 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_c_4 : Ref sig .tc := ⟨.hbm, 67, rfl⟩
abbrev main_v47 : Ref sig .tc := ⟨.hbm, 68, rfl⟩
abbrev main_v48 : Ref sig .tc := ⟨.hbm, 69, rfl⟩
abbrev main_c_5 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_cst_6 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_call2_cst : Ref sig .tc := ⟨.hbm, 85, rfl⟩
abbrev main_call2_v0 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_c_7 : Ref sig .tc := ⟨.hbm, 95, rfl⟩
abbrev main_v70 : Ref sig .tc := ⟨.hbm, 96, rfl⟩
abbrev main_v71 : Ref sig .tc := ⟨.hbm, 97, rfl⟩
abbrev main_c_8 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_cst_9 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩
abbrev main_v80 : Ref sig .tc := ⟨.hbm, 108, rfl⟩
abbrev main_v81 : Ref sig .tc := ⟨.hbm, 109, rfl⟩
abbrev main_v82 : Ref sig .tc := ⟨.hbm, 110, rfl⟩
abbrev main_v83 : Ref sig .tc := ⟨.hbm, 111, rfl⟩
abbrev main_v84 : Ref sig .tc := ⟨.hbm, 112, rfl⟩
abbrev main_call3_cst : Ref sig .tc := ⟨.hbm, 113, rfl⟩
abbrev main_call3_v0 : Ref sig .tc := ⟨.hbm, 114, rfl⟩
abbrev main_v85 : Ref sig .tc := ⟨.hbm, 115, rfl⟩
abbrev main_v86 : Ref sig .tc := ⟨.hbm, 116, rfl⟩
abbrev main_cst_10 : Ref sig .tc := ⟨.hbm, 117, rfl⟩
abbrev main_v87 : Ref sig .tc := ⟨.hbm, 118, rfl⟩
abbrev main_v88 : Ref sig .tc := ⟨.hbm, 119, rfl⟩
abbrev main_v89 : Ref sig .tc := ⟨.hbm, 120, rfl⟩

abbrev nD : Nat := 1
abbrev τ : Topo := Topo.v7x

variable {F : FTy → Type} [FloatOps F]

class Facts₀ : Prop where
  bcast_S_S3200000 : S_.BroadcastsInDim S3200000 (![] : Fin 0 → Fin S3200000.rank)
  bcast_S3200000_S3200000x1_0 : S3200000.BroadcastsInDim S3200000x1 (![0] : Fin 1 → Fin S3200000x1.rank)
  bcast_S_S100000x1 : S_.BroadcastsInDim S100000x1 (![] : Fin 0 → Fin S100000x1.rank)
  bcast_S1_S1x1_1 : S1.BroadcastsInDim S1x1 (![1] : Fin 1 → Fin S1x1.rank)
  bcast_S1x1_S100000x1_0_1 : S1x1.BroadcastsInDim S100000x1 (![0, 1] : Fin 2 → Fin S100000x1.rank)
  slices_S3x1x1_S1x1x1_0_0_0 : S3x1x1.Slices ![0, 0, 0] S1x1x1
  shapeCasts_S1x1x1_S1x1 : S1x1x1.ShapeCasts S1x1
  slices_S3x1_S1x1_0_0 : S3x1.Slices ![0, 0] S1x1
  shapeCasts_S1x1_S1 : S1x1.ShapeCasts S1
  slices_S3x1x1_S1x1x1_1_0_0 : S3x1x1.Slices ![1, 0, 0] S1x1x1
  slices_S3x1_S1x1_1_0 : S3x1.Slices ![1, 0] S1x1
  slices_S3x1x1_S1x1x1_2_0_0 : S3x1x1.Slices ![2, 0, 0] S1x1x1
  slices_S3x1_S1x1_2_0 : S3x1.Slices ![2, 0] S1x1
  concatenates_S100000x512_S100000x1_S100000x1_S100000x1_S100000x1_S100000x516_d1 : Shape.Concatenates [S100000x512, S100000x1, S100000x1, S100000x1, S100000x1] S100000x516 1
  bcast_S_S64x516 : S_.BroadcastsInDim S64x516 (![] : Fin 0 → Fin S64x516.rank)
  bcast_S100000_S100000x1_0 : S100000.BroadcastsInDim S100000x1 (![0] : Fin 1 → Fin S100000x1.rank)
  dot_S100000x512_S512x1_S100000x1_1_0_0_1_n_n_wf : DotDims.WF S100000x512 S512x1 S100000x1 [1] [0] [0] [1] [] []
  gather_S100000x1_S3200000x1_S3200000x1_1_0_n_n_0_1_11_wf : GatherDims.WF S100000x1 S3200000x1 S3200000x1 [1] [0] [] [0] [] 1 ![1, 1]
  scatter_S100000x1_S3200000x1_S3200000x1_1_0_0_1_wf : ScatterDims.WF S100000x1 S3200000x1 S3200000x1 [1] [0] [0] 1
  dot_S100000x1_S1x1_S100000x1_1_0_0_1_n_n_wf : DotDims.WF S100000x1 S1x1 S100000x1 [1] [0] [0] [1] [] []
  scatter_S64x516_S100000x1_S100000x516_1_0_0_1_wf : ScatterDims.WF S64x516 S100000x1 S100000x516 [1] [0] [0] 1

variable [Facts₀]

def dot_S100000x512_S512x1_S100000x1_1_0_0_1_n_n : DotDims S100000x512 S512x1 S100000x1 where
  lhsContracting := [1]
  rhsContracting := [0]
  lhsNonContracting := [0]
  rhsNonContracting := [1]
  lhsBatch := []
  rhsBatch := []
  wf := dot_S100000x512_S512x1_S100000x1_1_0_0_1_n_n_wf
def gather_S100000x1_S3200000x1_S3200000x1_1_0_n_n_0_1_11 : GatherDims S100000x1 S3200000x1 S3200000x1 where
  offsetDims := [1]
  collapsedSliceDims := [0]
  operandBatchingDims := []
  startIndicesBatchingDims := []
  startIndexMap := [0]
  indexVectorDim := 1
  sliceSizes := ![1, 1]
  wf := gather_S100000x1_S3200000x1_S3200000x1_1_0_n_n_0_1_11_wf
def scatter_S100000x1_S3200000x1_S3200000x1_1_0_0_1 : ScatterDims S100000x1 S3200000x1 S3200000x1 where
  updateWindowDims := [1]
  insertedWindowDims := [0]
  scatterDimsToOperandDims := [0]
  indexVectorDim := 1
  wf := scatter_S100000x1_S3200000x1_S3200000x1_1_0_0_1_wf
def dot_S100000x1_S1x1_S100000x1_1_0_0_1_n_n : DotDims S100000x1 S1x1 S100000x1 where
  lhsContracting := [1]
  rhsContracting := [0]
  lhsNonContracting := [0]
  rhsNonContracting := [1]
  lhsBatch := []
  rhsBatch := []
  wf := dot_S100000x1_S1x1_S100000x1_1_0_0_1_n_n_wf
def scatter_S64x516_S100000x1_S100000x516_1_0_0_1 : ScatterDims S64x516 S100000x1 S100000x516 where
  updateWindowDims := [1]
  insertedWindowDims := [0]
  scatterDimsToOperandDims := [0]
  indexVectorDim := 1
  wf := scatter_S64x516_S100000x1_S100000x516_1_0_0_1_wf

class Facts : Prop extends Facts₀ where

variable [Facts]
-- ==== Proof.Kernel.Region.lean ====
/-
  The projection-and-readout region of the program, as data for the frame and for the values: what each array
  holds when the region is entered, each window's block at a grid point, and what one grid point leaves in the
  staging buffers. The region walks the 100000 node rows in 25 blocks of 4000. At a point it reads the block's
  4000x512 feature rows, the whole 512x2 weight pair and the block's 4000 graph words; it leaves the inputs as
  found, writes the 4000x2 product of the rows with the weight pair, and writes the 64x512 sums of the block's
  rows grouped by graph word. Nothing is carried from one point to the next.
-/
import proofs.«417001_j56040733278664_2_alg».proof.Proof.Gen.Kernel.Launch
import proofs.«417001_j56040733278664_2_alg».proof.Proof.Gen.Kernel.Skeleton
import proofs.«417001_j56040733278664_2_alg».proof.Proof.Gen.Kernel.Points
import Idealize.ShloMosaic.Lib.Pipeline.FrameBody
import Idealize.ShloMosaic.Lib.Pipeline.FrameSuffix
import Idealize.ShloMosaic.Lib.StableHlo.Run

set_option maxRecDepth 16384

noncomputable section

namespace Cert.Kernel.Region

open Cert.Kernel Cert.Kernel.Gen
open Idealize.ShloMosaic Idealize.ShloMosaic.TcCoe
open Idealize.SL Idealize.SL.RA Idealize.SL.BI
open scoped Idealize.SL.BI
open Idealize.SL.BI.BIBase Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ)

/-- The host lines that follow the region, stretch by stretch (the four relu calls are stretches of their own). -/
abbrev tailOps : List (List (HloOp τ sig (Elt F))) :=
  [hostOps1, hostOps1_1, hostOps1_2, hostOps1_3, hostOps1_4, hostOps1_5, hostOps1_6, hostOps1_7, hostOps1_8]

/-- Core `c`'s buffer contents when the region is entered: the launch contents after the two host lines before it
    (the weight pair joined, the graph words laid as a column). -/
abbrev V0 (c : Dev nD) : Valuation τ sig (Elt F) := StableHlo.after (List.flatten [hostOps0]) (fun b => m (c, b))

/-- The same, read at a TensorCore reference. -/
abbrev V (c : Dev nD) (b : Ref sig .tc) : Buf (Elt F) ((c : Thread nD τ).loc b) := V0 m c (Proc.devRef .tc b)

/-- Window `w`'s block at point `t`, read off its array as the region finds it. -/
def iblk (c : Dev nD) (w : Fin cfg0.W) (t : Fin cfg0.N) :
    ((cfg0.win w).xblock (cfg0.grid.coords t)).Idx → Elt F (cfg0.win w).elt :=
  ((cfg0.win w).blk t).view.read (Elt F) (V m c (Pipeline.arrRef spec0 w))

/-- The region's proof data on core `c`: the arrays as found; after the body at point `t` the three inputs' buffers
    at their blocks, the product window's buffer at the rows-by-weights product of the point's blocks, the readout
    window's at the grouped row sums of the point's blocks; nothing owned beyond the windows; nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => k0_pay2 (iblk m c 0 t) (iblk m c 1 t)
    | ⟨4, _⟩ => k0_pay3 (iblk m c 0 t) (iblk m c 2 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) :
    (dats m 0 c).after 3 t = k0_pay2 (iblk m c 0 t) (iblk m c 1 t) := by dsimp only [dats]
theorem after_4 (c : Dev nD) (t : Fin cfg0.N) :
    (dats m 0 c).after 4 t = k0_pay3 (iblk m c 0 t) (iblk m c 2 t) := by dsimp only [dats]

/-! ## What the region finds -/

/-- The two host lines before the region write only the joined weight pair and the graph-word column: every other
    buffer is found as launched. -/
theorem V_of_ne (c : Dev nD) (b : Ref sig .tc) (h0 : b ≠ main_v0) (h1 : b ≠ main_v1) :
    V m c b = m ((c : Thread nD τ).loc b) :=
  StableHlo.after_of_forall_not_mem (b := Proc.devRef .tc b) _ _ (List.forall_iff_forall_mem.mp (by
    simp only [hostOps0, List.flatten_cons, List.flatten_nil, List.append_nil, List.cons_append, List.nil_append,
      List.Forall, StableHlo.binary_writes, StableHlo.reshape_writes, Finset.mem_singleton]
    exact ⟨StableHlo.devRef_ne_of_ne h0, StableHlo.devRef_ne_of_ne h1⟩))

/-- The weight pair the region reads: the two 512x1 columns side by side. -/
theorem V_v0 (c : Dev nD) :
    (V m c main_v0 : (⟨S512x2, .f32⟩ : BufTy).Contents (Elt F)) =
      concatenate S512x2 1 [⟨S512x1, m ((c : Thread nD τ).loc main_arg4)⟩, ⟨S512x1, m ((c : Thread nD τ).loc main_arg5)⟩]
        concatenates_S512x1_S512x1_S512x2_d1 := by
  dsimp only [V, V0]
  simp only [hostOps0, List.flatten_cons, List.flatten_nil, List.append_nil, List.cons_append, List.nil_append]
  after_results

/-- The graph words the region reads: the launch's 100000 words as a 100000x1 column. -/
theorem V_v1 (c : Dev nD) :
    (V m c main_v1 : (⟨S100000x1, .i32⟩ : BufTy).Contents (Elt F)) =
      shapeCast S100000x1 (m ((c : Thread nD τ).loc main_arg3)) shapeCasts_S100000_S100000x1 := by
  dsimp only [V, V0]
  simp only [hostOps0, List.flatten_cons, List.flatten_nil, List.append_nil, List.cons_append, List.nil_append]
  after_results
  rfl

end Cert.Kernel.Region

end
-- ==== Proof.Kernel.Frame.lean ====
/-
  The program runs to its end, faults nowhere and leaves its ten argument arrays as launched; and its result array
  ends at what the host lines after the region compute from the region's two result arrays.
-/
import proofs.«417001_j56040733278664_2_alg».proof.Proof.Kernel.Region
import Idealize.ShloMosaic.Lib.Pipeline.Value
import Idealize.ShloMosaic.Lib.Ring
import Idealize.ShloMosaic.Lib.Tactic

set_option maxRecDepth 16384

noncomputable section

namespace Cert.Kernel.Region

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## One grid point -/

private theorem zeros2 : (![0, 0] : Fin 2 → Nat) = fun _ => 0 := funext fun a => by fin_cases a <;> rfl
private theorem zeros3 : (![0, 0, 0] : Fin 3 → Nat) = fun _ => 0 := funext fun a => by fin_cases a <;> rfl

/-- The one store into the product buffer covers it. -/
theorem cover_3 (p : Vec F S4000x2 .f32) (y : S4000x2.Idx) :
    ∃ pc ∈ ([⟨Rect.unit (s := S4000x2) ![0, 0] S4000x2.size inb_S4000x2_S4000x2_0_0, p⟩] :
      List (View.Piece (Elt F) S4000x2 .f32)), y ∈ pc.1.set :=
  ⟨⟨Rect.unit (s := S4000x2) ![0, 0] S4000x2.size inb_S4000x2_S4000x2_0_0, p⟩, List.mem_singleton_self _,
    View.mem_set_unit_zero (S := S4000x2) zeros2 inb_S4000x2_S4000x2_0_0 y⟩

/-- The one store into the readout buffer covers it. -/
theorem cover_4 (p : Vec F S1x64x512 .f32) (y : S1x64x512.Idx) :
    ∃ pc ∈ ([⟨Rect.unit (s := S1x64x512) ![0, 0, 0] S1x64x512.size inb_S1x64x512_S1x64x512_0_0_0, p⟩] :
      List (View.Piece (Elt F) S1x64x512 .f32)), y ∈ pc.1.set :=
  ⟨⟨Rect.unit (s := S1x64x512) ![0, 0, 0] S1x64x512.size inb_S1x64x512_S1x64x512_0_0_0, p⟩, List.mem_singleton_self _,
    View.mem_set_unit_zero (S := S1x64x512) zeros3 inb_S1x64x512_S1x64x512_0_0_0 y⟩

/-- The body on whole staging buffers: the three inputs read `x0`, `w0`, `g0` and the two outputs hold anything;
    it ends with the inputs as they were, the product buffer at the rows-by-weights product and the readout buffer
    at the grouped row sums. Each output buffer is read once before it is overwritten whole, and that value is
    never used. -/
theorem sound_kernel (c : Dev nD) (E : Set ℕ) (i : grid0.Coords)
    (arg1 : Memref sig .tc .vmem S4000x512 .f32) (harg1 : arg1.IsWhole) (arg2 : Memref sig .tc .vmem S512x2 .f32) (harg2 : arg2.IsWhole)
    (arg3 : Memref sig .tc .vmem S4000x1 .i32) (harg3 : arg3.IsWhole) (arg4 : Memref sig .tc .vmem S4000x2 .f32) (harg4 : arg4.IsWhole)
    (arg5 : Memref sig .tc .vmem S1x64x512 .f32) (harg5 : arg5.IsWhole)
    (x0 : Vec F S4000x512 .f32) (w0 : Vec F S512x2 .f32) (g0 : Vec F S4000x1 .i32) (K : PUnit → sProp 𝕄) :
    iprop(owns (c : Thread nD τ) arg1 fullShare x0 ∗ owns (c : Thread nD τ) arg2 fullShare w0 ∗ owns (c : Thread nD τ) arg3 fullShare g0
        ∗ (∃ d, owns (c : Thread nD τ) arg4 fullShare d) ∗ (∃ d, owns (c : Thread nD τ) arg5 fullShare d)
        ∗ (iprop(owns (c : Thread nD τ) arg1 fullShare x0 ∗ owns (c : Thread nD τ) arg2 fullShare w0 ∗ owns (c : Thread nD τ) arg3 fullShare g0
            ∗ owns (c : Thread nD τ) arg4 fullShare (k0_pay2 x0 w0) ∗ owns (c : Thread nD τ) arg5 fullShare (k0_pay3 x0 g0)) -∗ K ⟨⟩))
      ⊢ wp frame (wpE (defs₀ (F := F)) Variants.none c none) E
          (cc0__proj_readout_kernel i arg1 harg1 arg2 harg2 arg3 harg3 arg4 harg4 arg5 harg5) K := by
  simp only [cc0__proj_readout_kernel_eq_skeleton]; unfold cc0__proj_readout_kernel_skel
  unfold owns
  iintro ⟨⟨%f1, %hf1, H1⟩, ⟨%f2, %hf2, H2⟩, ⟨%f3, %hf3, H3⟩, ⟨%d4, %f4, -, H4⟩, ⟨%d5, %f5, -, H5⟩, Hk⟩
  subst hf1 hf2 hf3
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    rw [View.read_writes_eq_canon _ _ _ (cover_3 _), View.canon_unit_zero (S := S4000x2) zeros2,
      View.readAt_eq_ld, View.readAt_eq_ld, View.ld_unit_zero (S := S4000x512) zeros2,
      View.ld_unit_zero (S := S512x2) zeros2]
  iexists _; isplitr
  swap; · iexact H5
  ipureintro
  rw [View.read_writes_eq_canon _ _ _ (cover_4 _), View.canon_unit_zero (S := S1x64x512) zeros3,
    View.readAt_eq_ld, View.readAt_eq_ld, View.ld_unit_zero (S := S4000x512) zeros2,
    View.ld_unit_zero (S := S4000x1) zeros2]

/-! ## The host lines after the region -/

/-- The buffers no host line after the region writes: the ten arguments, and the weight pair, the graph-word
    column and the region's two results (with the first argument, the five arrays the region's windows stage). -/
abbrev kept : List (Ref sig .tc) :=
  [main_arg0, main_arg1, main_arg2, main_arg3, main_arg4, main_arg5, main_arg6, main_arg7, main_arg8, main_arg9,
    main_v0, main_v1, main_v2_0, main_v2_1]

/-- A property of every line of each of the nine stretches holds of every line after the region. -/
theorem tail_forall {P : HloOp τ sig (Elt F) → Prop}
    (h0 : (hostOps1 : List (HloOp τ sig (Elt F))).Forall P) (h1 : (hostOps1_1 : List (HloOp τ sig (Elt F))).Forall P)
    (h2 : (hostOps1_2 : List (HloOp τ sig (Elt F))).Forall P) (h3 : (hostOps1_3 : List (HloOp τ sig (Elt F))).Forall P)
    (h4 : (hostOps1_4 : List (HloOp τ sig (Elt F))).Forall P) (h5 : (hostOps1_5 : List (HloOp τ sig (Elt F))).Forall P)
    (h6 : (hostOps1_6 : List (HloOp τ sig (Elt F))).Forall P) (h7 : (hostOps1_7 : List (HloOp τ sig (Elt F))).Forall P)
    (h8 : (hostOps1_8 : List (HloOp τ sig (Elt F))).Forall P) :
    ∀ ops ∈ (tailOps : List (List (HloOp τ sig (Elt F)))), ∀ op ∈ ops, P op := by
  intro ops hops op hop
  simp only [tailOps, List.mem_cons, List.mem_nil_iff, or_false] at hops
  rcases hops with rfl | rfl | rfl | rfl | rfl | rfl | rfl | rfl | rfl
  · exact List.forall_iff_forall_mem.mp h0 op hop
  · exact List.forall_iff_forall_mem.mp h1 op hop
  · exact List.forall_iff_forall_mem.mp h2 op hop
  · exact List.forall_iff_forall_mem.mp h3 op hop
  · exact List.forall_iff_forall_mem.mp h4 op hop
  · exact List.forall_iff_forall_mem.mp h5 op hop
  · exact List.forall_iff_forall_mem.mp h6 op hop
  · exact List.forall_iff_forall_mem.mp h7 op hop
  · exact List.forall_iff_forall_mem.mp h8 op hop

theorem keeps1 (b : Ref sig .tc) (hb : b ∈ kept) :
    (hostOps1 : List (HloOp τ sig (Elt F))).Forall fun op => Proc.devRef .tc b ∉ op.writes := by
  simp only [hostOps1, List.Forall, StableHlo.nullary_writes, StableHlo.unary_writes, StableHlo.binary_writes, StableHlo.ternary_writes,
    StableHlo.reshape_writes, StableHlo.nary_writes, Finset.mem_singleton]
  repeat' apply And.intro
  all_goals exact StableHlo.devRef_ne_of_ne (ne_of_mem_of_not_mem hb (by decide))
theorem fresh1 : (hostOps1 : List (HloOp τ sig (Elt F))).Forall fun op => op.fresh = ∅ := by
  simp only [hostOps1, List.Forall]
  repeat' apply And.intro
  all_goals rfl

theorem keeps1_1 (b : Ref sig .tc) (hb : b ∈ kept) :
    (hostOps1_1 : List (HloOp τ sig (Elt F))).Forall fun op => Proc.devRef .tc b ∉ op.writes := by
  simp only [hostOps1_1, List.Forall, StableHlo.nullary_writes, StableHlo.unary_writes, StableHlo.binary_writes, StableHlo.ternary_writes,
    StableHlo.reshape_writes, StableHlo.nary_writes, Finset.mem_singleton]
  repeat' apply And.intro
  all_goals exact StableHlo.devRef_ne_of_ne (ne_of_mem_of_not_mem hb (by decide))
theorem fresh1_1 : (hostOps1_1 : List (HloOp τ sig (Elt F))).Forall fun op => op.fresh = ∅ := by
  simp only [hostOps1_1, List.Forall]
  repeat' apply And.intro
  all_goals rfl

theorem keeps1_2 (b : Ref sig .tc) (hb : b ∈ kept) :
    (hostOps1_2 : List (HloOp τ sig (Elt F))).Forall fun op => Proc.devRef .tc b ∉ op.writes := by
  simp only [hostOps1_2, List.Forall, StableHlo.nullary_writes, StableHlo.unary_writes, StableHlo.binary_writes, StableHlo.ternary_writes,
    StableHlo.reshape_writes, StableHlo.nary_writes, Finset.mem_singleton]
  repeat' apply And.intro
  all_goals exact StableHlo.devRef_ne_of_ne (ne_of_mem_of_not_mem hb (by decide))
theorem fresh1_2 : (hostOps1_2 : List (HloOp τ sig (Elt F))).Forall fun op => op.fresh = ∅ := by
  simp only [hostOps1_2, List.Forall]
  repeat' apply And.intro
  all_goals rfl

theorem keeps1_3 (b : Ref sig .tc) (hb : b ∈ kept) :
    (hostOps1_3 : List (HloOp τ sig (Elt F))).Forall fun op => Proc.devRef .tc b ∉ op.writes := by
  simp only [hostOps1_3, List.Forall, StableHlo.nullary_writes, StableHlo.unary_writes, StableHlo.binary_writes, StableHlo.ternary_writes,
    StableHlo.reshape_writes, StableHlo.nary_writes, Finset.mem_singleton]
  repeat' apply And.intro
  all_goals exact StableHlo.devRef_ne_of_ne (ne_of_mem_of_not_mem hb (by decide))
theorem fresh1_3 : (hostOps1_3 : List (HloOp τ sig (Elt F))).Forall fun op => op.fresh = ∅ := by
  simp only [hostOps1_3, List.Forall]
  repeat' apply And.intro
  all_goals rfl

theorem keeps1_4 (b : Ref sig .tc) (hb : b ∈ kept) :
    (hostOps1_4 : List (HloOp τ sig (Elt F))).Forall fun op => Proc.devRef .tc b ∉ op.writes := by
  simp only [hostOps1_4, List.Forall, StableHlo.nullary_writes, StableHlo.unary_writes, StableHlo.binary_writes, StableHlo.ternary_writes,
    StableHlo.reshape_writes, StableHlo.nary_writes, Finset.mem_singleton]
  repeat' apply And.intro
  all_goals exact StableHlo.devRef_ne_of_ne (ne_of_mem_of_not_mem hb (by decide))
theorem fresh1_4 : (hostOps1_4 : List (HloOp τ sig (Elt F))).Forall fun op => op.fresh = ∅ := by
  simp only [hostOps1_4, List.Forall]
  repeat' apply And.intro
  all_goals rfl

theorem keeps1_5 (b : Ref sig .tc) (hb : b ∈ kept) :
    (hostOps1_5 : List (HloOp τ sig (Elt F))).Forall fun op => Proc.devRef .tc b ∉ op.writes := by
  simp only [hostOps1_5, List.Forall, StableHlo.nullary_writes, StableHlo.unary_writes, StableHlo.binary_writes, StableHlo.ternary_writes,
    StableHlo.reshape_writes, StableHlo.nary_writes, Finset.mem_singleton]
  repeat' apply And.intro
  all_goals exact StableHlo.devRef_ne_of_ne (ne_of_mem_of_not_mem hb (by decide))
theorem fresh1_5 : (hostOps1_5 : List (HloOp τ sig (Elt F))).Forall fun op => op.fresh = ∅ := by
  simp only [hostOps1_5, List.Forall]
  repeat' apply And.intro
  all_goals rfl

theorem keeps1_6 (b : Ref sig .tc) (hb : b ∈ kept) :
    (hostOps1_6 : List (HloOp τ sig (Elt F))).Forall fun op => Proc.devRef .tc b ∉ op.writes := by
  simp only [hostOps1_6, List.Forall, StableHlo.nullary_writes, StableHlo.unary_writes, StableHlo.binary_writes, StableHlo.ternary_writes,
    StableHlo.reshape_writes, StableHlo.nary_writes, Finset.mem_singleton]
  repeat' apply And.intro
  all_goals exact StableHlo.devRef_ne_of_ne (ne_of_mem_of_not_mem hb (by decide))
theorem fresh1_6 : (hostOps1_6 : List (HloOp τ sig (Elt F))).Forall fun op => op.fresh = ∅ := by
  simp only [hostOps1_6, List.Forall]
  repeat' apply And.intro
  all_goals rfl

theorem keeps1_7 (b : Ref sig .tc) (hb : b ∈ kept) :
    (hostOps1_7 : List (HloOp τ sig (Elt F))).Forall fun op => Proc.devRef .tc b ∉ op.writes := by
  simp only [hostOps1_7, List.Forall, StableHlo.nullary_writes, StableHlo.unary_writes, StableHlo.binary_writes, StableHlo.ternary_writes,
    StableHlo.reshape_writes, StableHlo.nary_writes, Finset.mem_singleton]
  repeat' apply And.intro
  all_goals exact StableHlo.devRef_ne_of_ne (ne_of_mem_of_not_mem hb (by decide))
theorem fresh1_7 : (hostOps1_7 : List (HloOp τ sig (Elt F))).Forall fun op => op.fresh = ∅ := by
  simp only [hostOps1_7, List.Forall]
  repeat' apply And.intro
  all_goals rfl

theorem keeps1_8 (b : Ref sig .tc) (hb : b ∈ kept) :
    (hostOps1_8 : List (HloOp τ sig (Elt F))).Forall fun op => Proc.devRef .tc b ∉ op.writes := by
  simp only [hostOps1_8, List.Forall, StableHlo.nullary_writes, StableHlo.unary_writes, StableHlo.binary_writes, StableHlo.ternary_writes,
    StableHlo.reshape_writes, StableHlo.nary_writes, Finset.mem_singleton]
  repeat' apply And.intro
  all_goals exact StableHlo.devRef_ne_of_ne (ne_of_mem_of_not_mem hb (by decide))
theorem fresh1_8 : (hostOps1_8 : List (HloOp τ sig (Elt F))).Forall fun op => op.fresh = ∅ := by
  simp only [hostOps1_8, List.Forall]
  repeat' apply And.intro
  all_goals rfl

/-- No line after the region writes a kept buffer: each writes its own result buffer only. -/
theorem tail_keeps (b : Ref sig .tc) (hb : b ∈ kept) :
    ∀ ops ∈ (tailOps : List (List (HloOp τ sig (Elt F)))), ∀ op ∈ ops, Proc.devRef .tc b ∉ op.writes :=
  tail_forall (keeps1 b hb) (keeps1_1 b hb) (keeps1_2 b hb) (keeps1_3 b hb) (keeps1_4 b hb) (keeps1_5 b hb) (keeps1_6 b hb) (keeps1_7 b hb) (keeps1_8 b hb)

/-- In particular none writes an array the region's windows stage. -/
theorem tail_keeps_arr : ∀ ops ∈ (tailOps : List (List (HloOp τ sig (Elt F)))), ∀ op ∈ ops,
    ∀ w, Proc.devRef .tc (Pipeline.arrRef spec0 w) ∉ op.writes := fun ops hops op hop w =>
  tail_keeps (Pipeline.arrRef spec0 w) (by fin_cases w <;> decide) ops hops op hop

/-- The lines after the region allocate nothing. -/
theorem tail_fresh : ∀ ops ∈ (tailOps : List (List (HloOp τ sig (Elt F)))), ∀ op ∈ ops, op.fresh = ∅ :=
  tail_forall fresh1 fresh1_1 fresh1_2 fresh1_3 fresh1_4 fresh1_5 fresh1_6 fresh1_7 fresh1_8

/-- They touch only the windows' arrays and the buffers that bypass the region: with nothing prefetched, every
    unscoped buffer of the core is one or the other. -/
theorem tail_sub : ∀ ops ∈ (tailOps : List (List (HloOp τ sig (Elt F)))), ∀ op ∈ ops,
    op.bufs ⊆ Pipeline.tailRefs sig Pipeline.Prefetch.none spec0 := by
  rw [Pipeline.tailRefs_none spec0 launch0.win.arr_unscoped]
  exact tail_forall (P := fun op => op.bufs ⊆ Pipeline.ucRefs τ sig)
    (hostOps1_sub.imp fun op h => Pipeline.sub_ucRefs op h)
    (hostOps1_1_sub.imp fun op h => Pipeline.sub_ucRefs op h)
    (hostOps1_2_sub.imp fun op h => Pipeline.sub_ucRefs op h)
    (hostOps1_3_sub.imp fun op h => Pipeline.sub_ucRefs op h)
    (hostOps1_4_sub.imp fun op h => Pipeline.sub_ucRefs op h)
    (hostOps1_5_sub.imp fun op h => Pipeline.sub_ucRefs op h)
    (hostOps1_6_sub.imp fun op h => Pipeline.sub_ucRefs op h)
    (hostOps1_7_sub.imp fun op h => Pipeline.sub_ucRefs op h)
    (hostOps1_8_sub.imp fun op h => Pipeline.sub_ucRefs op h)

/-! ## The body obligation -/

/-- The feature block's staging buffer holds the point's block at every point. -/
theorem before_0 (c : Dev nD) (t : Fin cfg0.N) (d) : (dats m 0 c).before 0 t d = iblk m c 0 t :=
  ((dats m 0 c).before_in_eq_fetched 0 rfl (fun _ => rfl) (fun _ _ _ => rfl)
    (fun t => by rw [after_0]; unfold Dat.blockOf iblk; rw [A_eq]; try rfl) t d).trans
    (by unfold Dat.fetched Dat.blockOf iblk; rw [A_eq]; try rfl)

/-- The weight pair's staging buffer holds the whole pair at every point: it is brought in at the first point only,
    and its block never moves. -/
theorem before_1 (c : Dev nD) (t : Fin cfg0.N) (d) : (dats m 0 c).before 1 t d = iblk m c 1 t :=
  ((dats m 0 c).before_in_eq_fetched 1 rfl (fun _ => rfl) (fun _ _ _ => rfl)
    (fun t => by rw [after_1]; unfold Dat.blockOf iblk; rw [A_eq]; try rfl) t d).trans
    (by unfold Dat.fetched Dat.blockOf iblk; rw [A_eq]; try rfl)

/-- The graph words' staging buffer holds the point's block at every point. -/
theorem before_2 (c : Dev nD) (t : Fin cfg0.N) (d) : (dats m 0 c).before 2 t d = iblk m c 2 t :=
  ((dats m 0 c).before_in_eq_fetched 2 rfl (fun _ => rfl) (fun _ _ _ => rfl)
    (fun t => by rw [after_2]; unfold Dat.blockOf iblk; rw [A_eq]; try rfl) t d).trans
    (by unfold Dat.fetched Dat.blockOf iblk; rw [A_eq]; try rfl)

/-- The body at a point: the inputs' buffers hold their blocks, the outputs' anything; it leaves the inputs' as
    found and the outputs' at the product and the grouped sums of the point's blocks. The invariant and what the
    core owes pass through unread. -/
theorem sound_body (c : Dev nD) (t : Fin cfg0.N) :
    iprop((dats m 0 c).Φ t.castSucc ∗ (dats m 0 c).owesAt () t.castSucc
        ∗ (∃ d, owns (c : Thread nD τ) (st0_0 t) fullShare ((dats m 0 c).before 0 t d))
        ∗ (∃ d, owns (c : Thread nD τ) (st0_1 t) fullShare ((dats m 0 c).before 1 t d))
        ∗ (∃ d, owns (c : Thread nD τ) (st0_2 t) fullShare ((dats m 0 c).before 2 t d))
        ∗ (∃ d, owns (c : Thread nD τ) (st0_3 t) fullShare ((dats m 0 c).before 3 t d))
        ∗ (∃ d, owns (c : Thread nD τ) (st0_4 t) fullShare ((dats m 0 c).before 4 t d)))
      ⊢ wp frame (wpE (defs₀ (F := F)) Variants.none c none) Set.univ (bodyAt0 t) (fun _ =>
          iprop((dats m 0 c).Φ t.succ ∗ (dats m 0 c).owesAt () t.succ
            ∗ owns (c : Thread nD τ) (st0_0 t) fullShare ((dats m 0 c).after 0 t)
            ∗ owns (c : Thread nD τ) (st0_1 t) fullShare ((dats m 0 c).after 1 t)
            ∗ owns (c : Thread nD τ) (st0_2 t) fullShare ((dats m 0 c).after 2 t)
            ∗ owns (c : Thread nD τ) (st0_3 t) fullShare ((dats m 0 c).after 3 t)
            ∗ owns (c : Thread nD τ) (st0_4 t) fullShare ((dats m 0 c).after 4 t))) := by
  unfold bodyAt0
  simp only [before_0, before_1, before_2]
  rw [show (dats m 0 c).Φ t.succ = (dats m 0 c).Φ t.castSucc from rfl,
    show (dats m 0 c).owesAt () t.succ = (dats m 0 c).owesAt () t.castSucc from rfl,
    after_0, after_1, after_2, after_3, after_4]
  iintro ⟨HΦ, Ho, ⟨%d0, H0⟩, ⟨%d1, H1⟩, ⟨%d2, H2⟩, ⟨%d3, H3⟩, ⟨%d4, H4⟩⟩
  iapply (sound_kernel c Set.univ _ _ _ _ _ _ _ _ _ _ _ (iblk m c 0 t) (iblk m c 1 t) (iblk m c 2 t) _)
  isplitl [H0]; · iexact H0
  isplitl [H1]; · iexact H1
  isplitl [H2]; · iexact H2
  isplitl [H3]; · iexists _; iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The body obligation, at every point: the windows' conjunction opened one by one. -/
theorem body_obligation (c : Dev nD) :
    BodyObligation (dats (F := F) m 0 c) (defs₀ (F := F)) Variants.none () Set.univ := fun t => by
  rw [bigSep_W0, bigSep_W0]
  exact sound_body m c t

/-! ## The run -/

/-- The program is the two host lines before the region, the region, and the nine stretches after it: it reduces
    to the region continued by those stretches. -/
theorem hmain : Pipeline.HMainK (Ix := Unit) (Name := ℕ) (U := UR sig nD τ) (Lvl := ℕ) cfgs 0 defs₀ Variants.none m
    (main (F := F)) (V m) (fun _ => Pipeline.chain ((tailOps : List (List (HloOp τ sig (Elt F)))).map StableHlo.seq)) :=
  Pipeline.hmain_around cfgs 0 defs₀ Variants.none m main [hostOps0] tailOps hostOps0_sub
    (by simp only [hostOps0, List.Forall]; exact ⟨rfl, rfl⟩) main_chain

set_option backward.isDefEq.respectTransparency.types false in
/-- Every weakly fair execution ends without a fault; each array the windows stage ends at what the proof data give
    it after the last point, and every other unscoped buffer at what the lines after the region leave it. -/
theorem run_main : θ_run defs (onTc (τ := τ) (main (F := F))) (s₀ m ρ)
    (Pipeline.FramePost cfgs (dats m) 0 (Pipeline.afterTail₀ cfgs (dats m) 0 (V0 m) tailOps)) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := tailOps) (hsub := tail_sub) (hfresh := tail_fresh)
    (hkeep := tail_keeps_arr) (hmain := hmain m) (hA := A_eq m) (hΦ := fun _ _ => rfl)

/-- An argument array no window stages ends as launched: no line after the region writes it, the region passes
    it by, and the two lines before the region write other buffers. -/
theorem afterTail_arg (c : Dev nD) (b : Ref sig .tc) (hb : b ∈ kept) (h0 : b ≠ main_v0) (h1 : b ≠ main_v1)
    (harr : ∀ w, Pipeline.arrRef spec0 w ≠ b) :
    Pipeline.afterTail₀ cfgs (dats m) 0 (V0 m) tailOps c b = m ((c : Thread nD τ).loc b) := by
  unfold Pipeline.afterTail₀
  rw [StableHlo.after_of_forall_not_mem _ _ (fun op hop => by
      obtain ⟨ops, hops, hop'⟩ := List.mem_flatten.mp hop
      exact tail_keeps b hb ops hops op hop'),
    Pipeline.withArrays_of_ne _ c _ _ b harr]
  exact V_of_ne m c b h0 h1

/-- Every weakly fair execution of the program ends, without a fault, with the result array at the value the host
    lines after the region give it and the ten argument arrays as launched. -/
theorem run_value :
    θ_run defs (onTc (τ := τ) (main (F := F))) ⟨m, fun _ => 0, ρ⟩ (fun r => ∀ c : Dev nD,
      r.2.mem ((c.tc : Thread nD τ).loc main_v103)
          = Pipeline.afterTail₀ cfgs (dats m) 0 (V0 m) tailOps c main_v103
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) := by
  refine (θ_run defs _ _).mono (fun r h c => ⟨?_, ?_, ?_, ?_, ?_, ?_, ?_, ?_, ?_, ?_, ?_⟩) (run_main m ρ)
  · exact (h c).2 main_v103 (Pipeline.mem_restRefs_of _ (by decide) (by decide))
  · exact ((h c).1 0).trans (((dats m 0 c).arrAt_in 0 rfl _).trans ((A_eq m c 0).trans
      (V_of_ne m c main_arg0 (by decide) (by decide))))
  · exact ((h c).2 main_arg1 (Pipeline.mem_restRefs_of _ (by decide) (by decide))).trans
      (afterTail_arg m c main_arg1 (by decide) (by decide) (by decide) (by decide))
  · exact ((h c).2 main_arg2 (Pipeline.mem_restRefs_of _ (by decide) (by decide))).trans
      (afterTail_arg m c main_arg2 (by decide) (by decide) (by decide) (by decide))
  · exact ((h c).2 main_arg3 (Pipeline.mem_restRefs_of _ (by decide) (by decide))).trans
      (afterTail_arg m c main_arg3 (by decide) (by decide) (by decide) (by decide))
  · exact ((h c).2 main_arg4 (Pipeline.mem_restRefs_of _ (by decide) (by decide))).trans
      (afterTail_arg m c main_arg4 (by decide) (by decide) (by decide) (by decide))
  · exact ((h c).2 main_arg5 (Pipeline.mem_restRefs_of _ (by decide) (by decide))).trans
      (afterTail_arg m c main_arg5 (by decide) (by decide) (by decide) (by decide))
  · exact ((h c).2 main_arg6 (Pipeline.mem_restRefs_of _ (by decide) (by decide))).trans
      (afterTail_arg m c main_arg6 (by decide) (by decide) (by decide) (by decide))
  · exact ((h c).2 main_arg7 (Pipeline.mem_restRefs_of _ (by decide) (by decide))).trans
      (afterTail_arg m c main_arg7 (by decide) (by decide) (by decide) (by decide))
  · exact ((h c).2 main_arg8 (Pipeline.mem_restRefs_of _ (by decide) (by decide))).trans
      (afterTail_arg m c main_arg8 (by decide) (by decide) (by decide) (by decide))
  · exact ((h c).2 main_arg9 (Pipeline.mem_restRefs_of _ (by decide) (by decide))).trans
      (afterTail_arg m c main_arg9 (by decide) (by decide) (by decide) (by decide))

/-- The frame: the run ends, faults nowhere, and the ten argument arrays are as launched. -/
theorem frame :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun _ h c => (h c).2) (run_value m ρ)

end Cert.Kernel.Region

end
-- ==== Proof.KernelIdeal.Region.lean ====
/-
  The projection-and-readout region of the program, as data for the frame and for the values: what each array
  holds when the region is entered, each window's block at a grid point, and what one grid point leaves in the
  staging buffers. The region walks the 100000 node rows in 25 blocks of 4000. At a point it reads the block's
  4000x512 feature rows, the whole 512x2 weight pair and the block's 4000 graph words; it leaves the inputs as
  found, writes the 4000x2 product of the rows with the weight pair, and writes the 64x512 sums of the block's
  rows grouped by graph word. Nothing is carried from one point to the next.
-/
import proofs.«417001_j56040733278664_2_alg».proof.Proof.Gen.KernelIdeal.Launch
import proofs.«417001_j56040733278664_2_alg».proof.Proof.Gen.KernelIdeal.Skeleton
import proofs.«417001_j56040733278664_2_alg».proof.Proof.Gen.KernelIdeal.Points
import Idealize.ShloMosaic.Lib.Pipeline.FrameBody
import Idealize.ShloMosaic.Lib.Pipeline.FrameSuffix
import Idealize.ShloMosaic.Lib.StableHlo.Run

set_option maxRecDepth 16384

noncomputable section

namespace Cert.KernelIdeal.Region

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ)

/-- The host lines that follow the region, stretch by stretch (the four relu calls are stretches of their own). -/
abbrev tailOps : List (List (HloOp τ sig (Elt F))) :=
  [hostOps1, hostOps1_1, hostOps1_2, hostOps1_3, hostOps1_4, hostOps1_5, hostOps1_6, hostOps1_7, hostOps1_8]

/-- Core `c`'s buffer contents when the region is entered: the launch contents after the two host lines before it
    (the weight pair joined, the graph words laid as a column). -/
abbrev V0 (c : Dev nD) : Valuation τ sig (Elt F) := StableHlo.after (List.flatten [hostOps0]) (fun b => m (c, b))

/-- The same, read at a TensorCore reference. -/
abbrev V (c : Dev nD) (b : Ref sig .tc) : Buf (Elt F) ((c : Thread nD τ).loc b) := V0 m c (Proc.devRef .tc b)

/-- Window `w`'s block at point `t`, read off its array as the region finds it. -/
def iblk (c : Dev nD) (w : Fin cfg0.W) (t : Fin cfg0.N) :
    ((cfg0.win w).xblock (cfg0.grid.coords t)).Idx → Elt F (cfg0.win w).elt :=
  ((cfg0.win w).blk t).view.read (Elt F) (V m c (Pipeline.arrRef spec0 w))

/-- The region's proof data on core `c`: the arrays as found; after the body at point `t` the three inputs' buffers
    at their blocks, the product window's buffer at the rows-by-weights product of the point's blocks, the readout
    window's at the grouped row sums of the point's blocks; nothing owned beyond the windows; nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => k0_pay2 (iblk m c 0 t) (iblk m c 1 t)
    | ⟨4, _⟩ => k0_pay3 (iblk m c 0 t) (iblk m c 2 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) :
    (dats m 0 c).after 3 t = k0_pay2 (iblk m c 0 t) (iblk m c 1 t) := by dsimp only [dats]
theorem after_4 (c : Dev nD) (t : Fin cfg0.N) :
    (dats m 0 c).after 4 t = k0_pay3 (iblk m c 0 t) (iblk m c 2 t) := by dsimp only [dats]

/-! ## What the region finds -/

/-- The two host lines before the region write only the joined weight pair and the graph-word column: every other
    buffer is found as launched. -/
theorem V_of_ne (c : Dev nD) (b : Ref sig .tc) (h0 : b ≠ main_v0) (h1 : b ≠ main_v1) :
    V m c b = m ((c : Thread nD τ).loc b) :=
  StableHlo.after_of_forall_not_mem (b := Proc.devRef .tc b) _ _ (List.forall_iff_forall_mem.mp (by
    simp only [hostOps0, List.flatten_cons, List.flatten_nil, List.append_nil, List.cons_append, List.nil_append,
      List.Forall, StableHlo.binary_writes, StableHlo.reshape_writes, Finset.mem_singleton]
    exact ⟨StableHlo.devRef_ne_of_ne h0, StableHlo.devRef_ne_of_ne h1⟩))

/-- The weight pair the region reads: the two 512x1 columns side by side. -/
theorem V_v0 (c : Dev nD) :
    (V m c main_v0 : (⟨S512x2, .f32⟩ : BufTy).Contents (Elt F)) =
      concatenate S512x2 1 [⟨S512x1, m ((c : Thread nD τ).loc main_arg4)⟩, ⟨S512x1, m ((c : Thread nD τ).loc main_arg5)⟩]
        concatenates_S512x1_S512x1_S512x2_d1 := by
  dsimp only [V, V0]
  simp only [hostOps0, List.flatten_cons, List.flatten_nil, List.append_nil, List.cons_append, List.nil_append]
  after_results

/-- The graph words the region reads: the launch's 100000 words as a 100000x1 column. -/
theorem V_v1 (c : Dev nD) :
    (V m c main_v1 : (⟨S100000x1, .i32⟩ : BufTy).Contents (Elt F)) =
      shapeCast S100000x1 (m ((c : Thread nD τ).loc main_arg3)) shapeCasts_S100000_S100000x1 := by
  dsimp only [V, V0]
  simp only [hostOps0, List.flatten_cons, List.flatten_nil, List.append_nil, List.cons_append, List.nil_append]
  after_results
  rfl

end Cert.KernelIdeal.Region

end
-- ==== Proof.KernelIdeal.Frame.lean ====
/-
  The program runs to its end, faults nowhere and leaves its ten argument arrays as launched; and its result array
  ends at what the host lines after the region compute from the region's two result arrays.
-/
import proofs.«417001_j56040733278664_2_alg».proof.Proof.KernelIdeal.Region
import Idealize.ShloMosaic.Lib.Pipeline.Value
import Idealize.ShloMosaic.Lib.Ring
import Idealize.ShloMosaic.Lib.Tactic

set_option maxRecDepth 16384

noncomputable section

namespace Cert.KernelIdeal.Region

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## One grid point -/

private theorem zeros2 : (![0, 0] : Fin 2 → Nat) = fun _ => 0 := funext fun a => by fin_cases a <;> rfl
private theorem zeros3 : (![0, 0, 0] : Fin 3 → Nat) = fun _ => 0 := funext fun a => by fin_cases a <;> rfl

/-- The one store into the product buffer covers it. -/
theorem cover_3 (p : Vec F S4000x2 .f32) (y : S4000x2.Idx) :
    ∃ pc ∈ ([⟨Rect.unit (s := S4000x2) ![0, 0] S4000x2.size inb_S4000x2_S4000x2_0_0, p⟩] :
      List (View.Piece (Elt F) S4000x2 .f32)), y ∈ pc.1.set :=
  ⟨⟨Rect.unit (s := S4000x2) ![0, 0] S4000x2.size inb_S4000x2_S4000x2_0_0, p⟩, List.mem_singleton_self _,
    View.mem_set_unit_zero (S := S4000x2) zeros2 inb_S4000x2_S4000x2_0_0 y⟩

/-- The one store into the readout buffer covers it. -/
theorem cover_4 (p : Vec F S1x64x512 .f32) (y : S1x64x512.Idx) :
    ∃ pc ∈ ([⟨Rect.unit (s := S1x64x512) ![0, 0, 0] S1x64x512.size inb_S1x64x512_S1x64x512_0_0_0, p⟩] :
      List (View.Piece (Elt F) S1x64x512 .f32)), y ∈ pc.1.set :=
  ⟨⟨Rect.unit (s := S1x64x512) ![0, 0, 0] S1x64x512.size inb_S1x64x512_S1x64x512_0_0_0, p⟩, List.mem_singleton_self _,
    View.mem_set_unit_zero (S := S1x64x512) zeros3 inb_S1x64x512_S1x64x512_0_0_0 y⟩

/-- The body on whole staging buffers: the three inputs read `x0`, `w0`, `g0` and the two outputs hold anything;
    it ends with the inputs as they were, the product buffer at the rows-by-weights product and the readout buffer
    at the grouped row sums. Each output buffer is read once before it is overwritten whole, and that value is
    never used. -/
theorem sound_kernel (c : Dev nD) (E : Set ℕ) (i : grid0.Coords)
    (arg1 : Memref sig .tc .vmem S4000x512 .f32) (harg1 : arg1.IsWhole) (arg2 : Memref sig .tc .vmem S512x2 .f32) (harg2 : arg2.IsWhole)
    (arg3 : Memref sig .tc .vmem S4000x1 .i32) (harg3 : arg3.IsWhole) (arg4 : Memref sig .tc .vmem S4000x2 .f32) (harg4 : arg4.IsWhole)
    (arg5 : Memref sig .tc .vmem S1x64x512 .f32) (harg5 : arg5.IsWhole)
    (x0 : Vec F S4000x512 .f32) (w0 : Vec F S512x2 .f32) (g0 : Vec F S4000x1 .i32) (K : PUnit → sProp 𝕄) :
    iprop(owns (c : Thread nD τ) arg1 fullShare x0 ∗ owns (c : Thread nD τ) arg2 fullShare w0 ∗ owns (c : Thread nD τ) arg3 fullShare g0
        ∗ (∃ d, owns (c : Thread nD τ) arg4 fullShare d) ∗ (∃ d, owns (c : Thread nD τ) arg5 fullShare d)
        ∗ (iprop(owns (c : Thread nD τ) arg1 fullShare x0 ∗ owns (c : Thread nD τ) arg2 fullShare w0 ∗ owns (c : Thread nD τ) arg3 fullShare g0
            ∗ owns (c : Thread nD τ) arg4 fullShare (k0_pay2 x0 w0) ∗ owns (c : Thread nD τ) arg5 fullShare (k0_pay3 x0 g0)) -∗ K ⟨⟩))
      ⊢ wp frame (wpE (defs₀ (F := F)) Variants.none c none) E
          (cc0__proj_readout_kernel i arg1 harg1 arg2 harg2 arg3 harg3 arg4 harg4 arg5 harg5) K := by
  simp only [cc0__proj_readout_kernel_eq_skeleton]; unfold cc0__proj_readout_kernel_skel
  unfold owns
  iintro ⟨⟨%f1, %hf1, H1⟩, ⟨%f2, %hf2, H2⟩, ⟨%f3, %hf3, H3⟩, ⟨%d4, %f4, -, H4⟩, ⟨%d5, %f5, -, H5⟩, Hk⟩
  subst hf1 hf2 hf3
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    rw [View.read_writes_eq_canon _ _ _ (cover_3 _), View.canon_unit_zero (S := S4000x2) zeros2,
      View.readAt_eq_ld, View.readAt_eq_ld, View.ld_unit_zero (S := S4000x512) zeros2,
      View.ld_unit_zero (S := S512x2) zeros2]
  iexists _; isplitr
  swap; · iexact H5
  ipureintro
  rw [View.read_writes_eq_canon _ _ _ (cover_4 _), View.canon_unit_zero (S := S1x64x512) zeros3,
    View.readAt_eq_ld, View.readAt_eq_ld, View.ld_unit_zero (S := S4000x512) zeros2,
    View.ld_unit_zero (S := S4000x1) zeros2]

/-! ## The host lines after the region -/

/-- The buffers no host line after the region writes: the ten arguments, and the weight pair, the graph-word
    column and the region's two results (with the first argument, the five arrays the region's windows stage). -/
abbrev kept : List (Ref sig .tc) :=
  [main_arg0, main_arg1, main_arg2, main_arg3, main_arg4, main_arg5, main_arg6, main_arg7, main_arg8, main_arg9,
    main_v0, main_v1, main_v2_0, main_v2_1]

/-- A property of every line of each of the nine stretches holds of every line after the region. -/
theorem tail_forall {P : HloOp τ sig (Elt F) → Prop}
    (h0 : (hostOps1 : List (HloOp τ sig (Elt F))).Forall P) (h1 : (hostOps1_1 : List (HloOp τ sig (Elt F))).Forall P)
    (h2 : (hostOps1_2 : List (HloOp τ sig (Elt F))).Forall P) (h3 : (hostOps1_3 : List (HloOp τ sig (Elt F))).Forall P)
    (h4 : (hostOps1_4 : List (HloOp τ sig (Elt F))).Forall P) (h5 : (hostOps1_5 : List (HloOp τ sig (Elt F))).Forall P)
    (h6 : (hostOps1_6 : List (HloOp τ sig (Elt F))).Forall P) (h7 : (hostOps1_7 : List (HloOp τ sig (Elt F))).Forall P)
    (h8 : (hostOps1_8 : List (HloOp τ sig (Elt F))).Forall P) :
    ∀ ops ∈ (tailOps : List (List (HloOp τ sig (Elt F)))), ∀ op ∈ ops, P op := by
  intro ops hops op hop
  simp only [tailOps, List.mem_cons, List.mem_nil_iff, or_false] at hops
  rcases hops with rfl | rfl | rfl | rfl | rfl | rfl | rfl | rfl | rfl
  · exact List.forall_iff_forall_mem.mp h0 op hop
  · exact List.forall_iff_forall_mem.mp h1 op hop
  · exact List.forall_iff_forall_mem.mp h2 op hop
  · exact List.forall_iff_forall_mem.mp h3 op hop
  · exact List.forall_iff_forall_mem.mp h4 op hop
  · exact List.forall_iff_forall_mem.mp h5 op hop
  · exact List.forall_iff_forall_mem.mp h6 op hop
  · exact List.forall_iff_forall_mem.mp h7 op hop
  · exact List.forall_iff_forall_mem.mp h8 op hop

theorem keeps1 (b : Ref sig .tc) (hb : b ∈ kept) :
    (hostOps1 : List (HloOp τ sig (Elt F))).Forall fun op => Proc.devRef .tc b ∉ op.writes := by
  simp only [hostOps1, List.Forall, StableHlo.nullary_writes, StableHlo.unary_writes, StableHlo.binary_writes, StableHlo.ternary_writes,
    StableHlo.reshape_writes, StableHlo.nary_writes, Finset.mem_singleton]
  repeat' apply And.intro
  all_goals exact StableHlo.devRef_ne_of_ne (ne_of_mem_of_not_mem hb (by decide))
theorem fresh1 : (hostOps1 : List (HloOp τ sig (Elt F))).Forall fun op => op.fresh = ∅ := by
  simp only [hostOps1, List.Forall]
  repeat' apply And.intro
  all_goals rfl

theorem keeps1_1 (b : Ref sig .tc) (hb : b ∈ kept) :
    (hostOps1_1 : List (HloOp τ sig (Elt F))).Forall fun op => Proc.devRef .tc b ∉ op.writes := by
  simp only [hostOps1_1, List.Forall, StableHlo.nullary_writes, StableHlo.unary_writes, StableHlo.binary_writes, StableHlo.ternary_writes,
    StableHlo.reshape_writes, StableHlo.nary_writes, Finset.mem_singleton]
  repeat' apply And.intro
  all_goals exact StableHlo.devRef_ne_of_ne (ne_of_mem_of_not_mem hb (by decide))
theorem fresh1_1 : (hostOps1_1 : List (HloOp τ sig (Elt F))).Forall fun op => op.fresh = ∅ := by
  simp only [hostOps1_1, List.Forall]
  repeat' apply And.intro
  all_goals rfl

theorem keeps1_2 (b : Ref sig .tc) (hb : b ∈ kept) :
    (hostOps1_2 : List (HloOp τ sig (Elt F))).Forall fun op => Proc.devRef .tc b ∉ op.writes := by
  simp only [hostOps1_2, List.Forall, StableHlo.nullary_writes, StableHlo.unary_writes, StableHlo.binary_writes, StableHlo.ternary_writes,
    StableHlo.reshape_writes, StableHlo.nary_writes, Finset.mem_singleton]
  repeat' apply And.intro
  all_goals exact StableHlo.devRef_ne_of_ne (ne_of_mem_of_not_mem hb (by decide))
theorem fresh1_2 : (hostOps1_2 : List (HloOp τ sig (Elt F))).Forall fun op => op.fresh = ∅ := by
  simp only [hostOps1_2, List.Forall]
  repeat' apply And.intro
  all_goals rfl

theorem keeps1_3 (b : Ref sig .tc) (hb : b ∈ kept) :
    (hostOps1_3 : List (HloOp τ sig (Elt F))).Forall fun op => Proc.devRef .tc b ∉ op.writes := by
  simp only [hostOps1_3, List.Forall, StableHlo.nullary_writes, StableHlo.unary_writes, StableHlo.binary_writes, StableHlo.ternary_writes,
    StableHlo.reshape_writes, StableHlo.nary_writes, Finset.mem_singleton]
  repeat' apply And.intro
  all_goals exact StableHlo.devRef_ne_of_ne (ne_of_mem_of_not_mem hb (by decide))
theorem fresh1_3 : (hostOps1_3 : List (HloOp τ sig (Elt F))).Forall fun op => op.fresh = ∅ := by
  simp only [hostOps1_3, List.Forall]
  repeat' apply And.intro
  all_goals rfl

theorem keeps1_4 (b : Ref sig .tc) (hb : b ∈ kept) :
    (hostOps1_4 : List (HloOp τ sig (Elt F))).Forall fun op => Proc.devRef .tc b ∉ op.writes := by
  simp only [hostOps1_4, List.Forall, StableHlo.nullary_writes, StableHlo.unary_writes, StableHlo.binary_writes, StableHlo.ternary_writes,
    StableHlo.reshape_writes, StableHlo.nary_writes, Finset.mem_singleton]
  repeat' apply And.intro
  all_goals exact StableHlo.devRef_ne_of_ne (ne_of_mem_of_not_mem hb (by decide))
theorem fresh1_4 : (hostOps1_4 : List (HloOp τ sig (Elt F))).Forall fun op => op.fresh = ∅ := by
  simp only [hostOps1_4, List.Forall]
  repeat' apply And.intro
  all_goals rfl

theorem keeps1_5 (b : Ref sig .tc) (hb : b ∈ kept) :
    (hostOps1_5 : List (HloOp τ sig (Elt F))).Forall fun op => Proc.devRef .tc b ∉ op.writes := by
  simp only [hostOps1_5, List.Forall, StableHlo.nullary_writes, StableHlo.unary_writes, StableHlo.binary_writes, StableHlo.ternary_writes,
    StableHlo.reshape_writes, StableHlo.nary_writes, Finset.mem_singleton]
  repeat' apply And.intro
  all_goals exact StableHlo.devRef_ne_of_ne (ne_of_mem_of_not_mem hb (by decide))
theorem fresh1_5 : (hostOps1_5 : List (HloOp τ sig (Elt F))).Forall fun op => op.fresh = ∅ := by
  simp only [hostOps1_5, List.Forall]
  repeat' apply And.intro
  all_goals rfl

theorem keeps1_6 (b : Ref sig .tc) (hb : b ∈ kept) :
    (hostOps1_6 : List (HloOp τ sig (Elt F))).Forall fun op => Proc.devRef .tc b ∉ op.writes := by
  simp only [hostOps1_6, List.Forall, StableHlo.nullary_writes, StableHlo.unary_writes, StableHlo.binary_writes, StableHlo.ternary_writes,
    StableHlo.reshape_writes, StableHlo.nary_writes, Finset.mem_singleton]
  repeat' apply And.intro
  all_goals exact StableHlo.devRef_ne_of_ne (ne_of_mem_of_not_mem hb (by decide))
theorem fresh1_6 : (hostOps1_6 : List (HloOp τ sig (Elt F))).Forall fun op => op.fresh = ∅ := by
  simp only [hostOps1_6, List.Forall]
  repeat' apply And.intro
  all_goals rfl

theorem keeps1_7 (b : Ref sig .tc) (hb : b ∈ kept) :
    (hostOps1_7 : List (HloOp τ sig (Elt F))).Forall fun op => Proc.devRef .tc b ∉ op.writes := by
  simp only [hostOps1_7, List.Forall, StableHlo.nullary_writes, StableHlo.unary_writes, StableHlo.binary_writes, StableHlo.ternary_writes,
    StableHlo.reshape_writes, StableHlo.nary_writes, Finset.mem_singleton]
  repeat' apply And.intro
  all_goals exact StableHlo.devRef_ne_of_ne (ne_of_mem_of_not_mem hb (by decide))
theorem fresh1_7 : (hostOps1_7 : List (HloOp τ sig (Elt F))).Forall fun op => op.fresh = ∅ := by
  simp only [hostOps1_7, List.Forall]
  repeat' apply And.intro
  all_goals rfl

theorem keeps1_8 (b : Ref sig .tc) (hb : b ∈ kept) :
    (hostOps1_8 : List (HloOp τ sig (Elt F))).Forall fun op => Proc.devRef .tc b ∉ op.writes := by
  simp only [hostOps1_8, List.Forall, StableHlo.nullary_writes, StableHlo.unary_writes, StableHlo.binary_writes, StableHlo.ternary_writes,
    StableHlo.reshape_writes, StableHlo.nary_writes, Finset.mem_singleton]
  repeat' apply And.intro
  all_goals exact StableHlo.devRef_ne_of_ne (ne_of_mem_of_not_mem hb (by decide))
theorem fresh1_8 : (hostOps1_8 : List (HloOp τ sig (Elt F))).Forall fun op => op.fresh = ∅ := by
  simp only [hostOps1_8, List.Forall]
  repeat' apply And.intro
  all_goals rfl

/-- No line after the region writes a kept buffer: each writes its own result buffer only. -/
theorem tail_keeps (b : Ref sig .tc) (hb : b ∈ kept) :
    ∀ ops ∈ (tailOps : List (List (HloOp τ sig (Elt F)))), ∀ op ∈ ops, Proc.devRef .tc b ∉ op.writes :=
  tail_forall (keeps1 b hb) (keeps1_1 b hb) (keeps1_2 b hb) (keeps1_3 b hb) (keeps1_4 b hb) (keeps1_5 b hb) (keeps1_6 b hb) (keeps1_7 b hb) (keeps1_8 b hb)

/-- In particular none writes an array the region's windows stage. -/
theorem tail_keeps_arr : ∀ ops ∈ (tailOps : List (List (HloOp τ sig (Elt F)))), ∀ op ∈ ops,
    ∀ w, Proc.devRef .tc (Pipeline.arrRef spec0 w) ∉ op.writes := fun ops hops op hop w =>
  tail_keeps (Pipeline.arrRef spec0 w) (by fin_cases w <;> decide) ops hops op hop

/-- The lines after the region allocate nothing. -/
theorem tail_fresh : ∀ ops ∈ (tailOps : List (List (HloOp τ sig (Elt F)))), ∀ op ∈ ops, op.fresh = ∅ :=
  tail_forall fresh1 fresh1_1 fresh1_2 fresh1_3 fresh1_4 fresh1_5 fresh1_6 fresh1_7 fresh1_8

/-- They touch only the windows' arrays and the buffers that bypass the region: with nothing prefetched, every
    unscoped buffer of the core is one or the other. -/
theorem tail_sub : ∀ ops ∈ (tailOps : List (List (HloOp τ sig (Elt F)))), ∀ op ∈ ops,
    op.bufs ⊆ Pipeline.tailRefs sig Pipeline.Prefetch.none spec0 := by
  rw [Pipeline.tailRefs_none spec0 launch0.win.arr_unscoped]
  exact tail_forall (P := fun op => op.bufs ⊆ Pipeline.ucRefs τ sig)
    (hostOps1_sub.imp fun op h => Pipeline.sub_ucRefs op h)
    (hostOps1_1_sub.imp fun op h => Pipeline.sub_ucRefs op h)
    (hostOps1_2_sub.imp fun op h => Pipeline.sub_ucRefs op h)
    (hostOps1_3_sub.imp fun op h => Pipeline.sub_ucRefs op h)
    (hostOps1_4_sub.imp fun op h => Pipeline.sub_ucRefs op h)
    (hostOps1_5_sub.imp fun op h => Pipeline.sub_ucRefs op h)
    (hostOps1_6_sub.imp fun op h => Pipeline.sub_ucRefs op h)
    (hostOps1_7_sub.imp fun op h => Pipeline.sub_ucRefs op h)
    (hostOps1_8_sub.imp fun op h => Pipeline.sub_ucRefs op h)

/-! ## The body obligation -/

/-- The feature block's staging buffer holds the point's block at every point. -/
theorem before_0 (c : Dev nD) (t : Fin cfg0.N) (d) : (dats m 0 c).before 0 t d = iblk m c 0 t :=
  ((dats m 0 c).before_in_eq_fetched 0 rfl (fun _ => rfl) (fun _ _ _ => rfl)
    (fun t => by rw [after_0]; unfold Dat.blockOf iblk; rw [A_eq]; try rfl) t d).trans
    (by unfold Dat.fetched Dat.blockOf iblk; rw [A_eq]; try rfl)

/-- The weight pair's staging buffer holds the whole pair at every point: it is brought in at the first point only,
    and its block never moves. -/
theorem before_1 (c : Dev nD) (t : Fin cfg0.N) (d) : (dats m 0 c).before 1 t d = iblk m c 1 t :=
  ((dats m 0 c).before_in_eq_fetched 1 rfl (fun _ => rfl) (fun _ _ _ => rfl)
    (fun t => by rw [after_1]; unfold Dat.blockOf iblk; rw [A_eq]; try rfl) t d).trans
    (by unfold Dat.fetched Dat.blockOf iblk; rw [A_eq]; try rfl)

/-- The graph words' staging buffer holds the point's block at every point. -/
theorem before_2 (c : Dev nD) (t : Fin cfg0.N) (d) : (dats m 0 c).before 2 t d = iblk m c 2 t :=
  ((dats m 0 c).before_in_eq_fetched 2 rfl (fun _ => rfl) (fun _ _ _ => rfl)
    (fun t => by rw [after_2]; unfold Dat.blockOf iblk; rw [A_eq]; try rfl) t d).trans
    (by unfold Dat.fetched Dat.blockOf iblk; rw [A_eq]; try rfl)

/-- The body at a point: the inputs' buffers hold their blocks, the outputs' anything; it leaves the inputs' as
    found and the outputs' at the product and the grouped sums of the point's blocks. The invariant and what the
    core owes pass through unread. -/
theorem sound_body (c : Dev nD) (t : Fin cfg0.N) :
    iprop((dats m 0 c).Φ t.castSucc ∗ (dats m 0 c).owesAt () t.castSucc
        ∗ (∃ d, owns (c : Thread nD τ) (st0_0 t) fullShare ((dats m 0 c).before 0 t d))
        ∗ (∃ d, owns (c : Thread nD τ) (st0_1 t) fullShare ((dats m 0 c).before 1 t d))
        ∗ (∃ d, owns (c : Thread nD τ) (st0_2 t) fullShare ((dats m 0 c).before 2 t d))
        ∗ (∃ d, owns (c : Thread nD τ) (st0_3 t) fullShare ((dats m 0 c).before 3 t d))
        ∗ (∃ d, owns (c : Thread nD τ) (st0_4 t) fullShare ((dats m 0 c).before 4 t d)))
      ⊢ wp frame (wpE (defs₀ (F := F)) Variants.none c none) Set.univ (bodyAt0 t) (fun _ =>
          iprop((dats m 0 c).Φ t.succ ∗ (dats m 0 c).owesAt () t.succ
            ∗ owns (c : Thread nD τ) (st0_0 t) fullShare ((dats m 0 c).after 0 t)
            ∗ owns (c : Thread nD τ) (st0_1 t) fullShare ((dats m 0 c).after 1 t)
            ∗ owns (c : Thread nD τ) (st0_2 t) fullShare ((dats m 0 c).after 2 t)
            ∗ owns (c : Thread nD τ) (st0_3 t) fullShare ((dats m 0 c).after 3 t)
            ∗ owns (c : Thread nD τ) (st0_4 t) fullShare ((dats m 0 c).after 4 t))) := by
  unfold bodyAt0
  simp only [before_0, before_1, before_2]
  rw [show (dats m 0 c).Φ t.succ = (dats m 0 c).Φ t.castSucc from rfl,
    show (dats m 0 c).owesAt () t.succ = (dats m 0 c).owesAt () t.castSucc from rfl,
    after_0, after_1, after_2, after_3, after_4]
  iintro ⟨HΦ, Ho, ⟨%d0, H0⟩, ⟨%d1, H1⟩, ⟨%d2, H2⟩, ⟨%d3, H3⟩, ⟨%d4, H4⟩⟩
  iapply (sound_kernel c Set.univ _ _ _ _ _ _ _ _ _ _ _ (iblk m c 0 t) (iblk m c 1 t) (iblk m c 2 t) _)
  isplitl [H0]; · iexact H0
  isplitl [H1]; · iexact H1
  isplitl [H2]; · iexact H2
  isplitl [H3]; · iexists _; iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The body obligation, at every point: the windows' conjunction opened one by one. -/
theorem body_obligation (c : Dev nD) :
    BodyObligation (dats (F := F) m 0 c) (defs₀ (F := F)) Variants.none () Set.univ := fun t => by
  rw [bigSep_W0, bigSep_W0]
  exact sound_body m c t

/-! ## The run -/

/-- The program is the two host lines before the region, the region, and the nine stretches after it: it reduces
    to the region continued by those stretches. -/
theorem hmain : Pipeline.HMainK (Ix := Unit) (Name := ℕ) (U := UR sig nD τ) (Lvl := ℕ) cfgs 0 defs₀ Variants.none m
    (main (F := F)) (V m) (fun _ => Pipeline.chain ((tailOps : List (List (HloOp τ sig (Elt F)))).map StableHlo.seq)) :=
  Pipeline.hmain_around cfgs 0 defs₀ Variants.none m main [hostOps0] tailOps hostOps0_sub
    (by simp only [hostOps0, List.Forall]; exact ⟨rfl, rfl⟩) main_chain

set_option backward.isDefEq.respectTransparency.types false in
/-- Every weakly fair execution ends without a fault; each array the windows stage ends at what the proof data give
    it after the last point, and every other unscoped buffer at what the lines after the region leave it. -/
theorem run_main : θ_run defs (onTc (τ := τ) (main (F := F))) (s₀ m ρ)
    (Pipeline.FramePost cfgs (dats m) 0 (Pipeline.afterTail₀ cfgs (dats m) 0 (V0 m) tailOps)) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := tailOps) (hsub := tail_sub) (hfresh := tail_fresh)
    (hkeep := tail_keeps_arr) (hmain := hmain m) (hA := A_eq m) (hΦ := fun _ _ => rfl)

/-- An argument array no window stages ends as launched: no line after the region writes it, the region passes
    it by, and the two lines before the region write other buffers. -/
theorem afterTail_arg (c : Dev nD) (b : Ref sig .tc) (hb : b ∈ kept) (h0 : b ≠ main_v0) (h1 : b ≠ main_v1)
    (harr : ∀ w, Pipeline.arrRef spec0 w ≠ b) :
    Pipeline.afterTail₀ cfgs (dats m) 0 (V0 m) tailOps c b = m ((c : Thread nD τ).loc b) := by
  unfold Pipeline.afterTail₀
  rw [StableHlo.after_of_forall_not_mem _ _ (fun op hop => by
      obtain ⟨ops, hops, hop'⟩ := List.mem_flatten.mp hop
      exact tail_keeps b hb ops hops op hop'),
    Pipeline.withArrays_of_ne _ c _ _ b harr]
  exact V_of_ne m c b h0 h1

/-- Every weakly fair execution of the program ends, without a fault, with the result array at the value the host
    lines after the region give it and the ten argument arrays as launched. -/
theorem run_value :
    θ_run defs (onTc (τ := τ) (main (F := F))) ⟨m, fun _ => 0, ρ⟩ (fun r => ∀ c : Dev nD,
      r.2.mem ((c.tc : Thread nD τ).loc main_v103)
          = Pipeline.afterTail₀ cfgs (dats m) 0 (V0 m) tailOps c main_v103
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) := by
  refine (θ_run defs _ _).mono (fun r h c => ⟨?_, ?_, ?_, ?_, ?_, ?_, ?_, ?_, ?_, ?_, ?_⟩) (run_main m ρ)
  · exact (h c).2 main_v103 (Pipeline.mem_restRefs_of _ (by decide) (by decide))
  · exact ((h c).1 0).trans (((dats m 0 c).arrAt_in 0 rfl _).trans ((A_eq m c 0).trans
      (V_of_ne m c main_arg0 (by decide) (by decide))))
  · exact ((h c).2 main_arg1 (Pipeline.mem_restRefs_of _ (by decide) (by decide))).trans
      (afterTail_arg m c main_arg1 (by decide) (by decide) (by decide) (by decide))
  · exact ((h c).2 main_arg2 (Pipeline.mem_restRefs_of _ (by decide) (by decide))).trans
      (afterTail_arg m c main_arg2 (by decide) (by decide) (by decide) (by decide))
  · exact ((h c).2 main_arg3 (Pipeline.mem_restRefs_of _ (by decide) (by decide))).trans
      (afterTail_arg m c main_arg3 (by decide) (by decide) (by decide) (by decide))
  · exact ((h c).2 main_arg4 (Pipeline.mem_restRefs_of _ (by decide) (by decide))).trans
      (afterTail_arg m c main_arg4 (by decide) (by decide) (by decide) (by decide))
  · exact ((h c).2 main_arg5 (Pipeline.mem_restRefs_of _ (by decide) (by decide))).trans
      (afterTail_arg m c main_arg5 (by decide) (by decide) (by decide) (by decide))
  · exact ((h c).2 main_arg6 (Pipeline.mem_restRefs_of _ (by decide) (by decide))).trans
      (afterTail_arg m c main_arg6 (by decide) (by decide) (by decide) (by decide))
  · exact ((h c).2 main_arg7 (Pipeline.mem_restRefs_of _ (by decide) (by decide))).trans
      (afterTail_arg m c main_arg7 (by decide) (by decide) (by decide) (by decide))
  · exact ((h c).2 main_arg8 (Pipeline.mem_restRefs_of _ (by decide) (by decide))).trans
      (afterTail_arg m c main_arg8 (by decide) (by decide) (by decide) (by decide))
  · exact ((h c).2 main_arg9 (Pipeline.mem_restRefs_of _ (by decide) (by decide))).trans
      (afterTail_arg m c main_arg9 (by decide) (by decide) (by decide) (by decide))

/-- The frame: the run ends, faults nowhere, and the ten argument arrays are as launched. -/
theorem frame :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun _ h c => (h c).2) (run_value m ρ)

end Cert.KernelIdeal.Region

end
-- ==== Proof.Spec.lean ====
/-
  What the graph network computes, index by index, on the extended reals.

  Nodes carry 512 features; 3,200,000 directed edges carry a source word and a destination word; every node
  has a graph word. Layer 0 projects a node's row against two 512x1 columns; each layer sums, at every node,
  the projected values of the edges that END at that node (an edge whose destination word is negative or past
  the last node ends nowhere; a source word is read with negative words counted from the end and then clamped
  into the node range), adds a bias and the node's own projected value, and keeps the positive part. Layers
  1 to 3 act on one value per node, with scalar weights. The result has one row per graph word 0..63: the sums,
  over the nodes of that graph, of the 512 features and of the four layers' values.
-/
import Idealize.ShloMosaic.PureOps.Ideal
import Idealize.ShloMosaic.Lib.ValueIdx

noncomputable section

namespace Cert.GraphSpec

open Idealize.ShloMosaic Idealize.ShloMosaic.ValueIdx

abbrev SX : Shape := ⟨2, ![100000, 512]⟩
abbrev SE : Shape := ⟨1, ![3200000]⟩
abbrev SV : Shape := ⟨1, ![100000]⟩
abbrev SW : Shape := ⟨2, ![512, 1]⟩
abbrev SB : Shape := ⟨1, ![1]⟩
abbrev SWr : Shape := ⟨3, ![3, 1, 1]⟩
abbrev SBr : Shape := ⟨2, ![3, 1]⟩
abbrev SO : Shape := ⟨2, ![64, 516]⟩

/-- The word an edge's source is read as: a negative word counts from the end of the node range. -/
def srcWord (s : BitVec 32) : BitVec 32 :=
  Scalar.select (IntOp.cmpi .slt s 0#32) (IntOp.addi s 100000#32) s

/-- The node that word names: read signed, clamped into the node range. -/
def srcNode (s : BitVec 32) : Fin 100000 := ⟨min (srcWord s).toInt.toNat (100000 - 1), by omega⟩

/-- Whether a graph word is graph `g`, as the real 1 or 0. -/
def oneHot (a : BitVec 32) (g : Fin 64) : EReal := if a = BitVec.ofNat 32 g.val then 1 else 0

section

variable (x : FVec Ideal SX .f32) (src dst : IVec SE 32) (gid : IVec SV 32)
  (wn ws : FVec Ideal SW .f32) (b0 : FVec Ideal SB .f32) (wnr wsr : FVec Ideal SWr .f32) (br : FVec Ideal SBr .f32)

/-- A node's feature row against a 512x1 weight column. -/
def proj (w : FVec Ideal SW .f32) (n : Fin 100000) : EReal := ∑ k : Fin 512, x (ix2 n k) * w (ix2 k 0)

/-- At node `n`: the sum, over the edges whose destination word is `n`, of `v` at the edge's source node. -/
def msg (v : Fin 100000 → EReal) (n : Fin 100000) : EReal :=
  ∑ e ∈ Finset.univ.filter (fun e : Fin 3200000 => (dst (ix1 e)).toInt = (n.val : ℤ)), v (srcNode (src (ix1 e)))

/-- Layer 0: the neighbours' projected rows, the bias, the node's own projected row; the positive part. -/
def h0 (n : Fin 100000) : EReal :=
  max ((msg src dst (proj x wn) n + b0 (ix1 0)) + proj x ws n) 0

/-- A later layer, on one value per node, with its scalar weights and bias. -/
def layer (k : Fin 3) (h : Fin 100000 → EReal) (n : Fin 100000) : EReal :=
  max ((msg src dst (fun j => h j * wnr (ix3 k 0 0)) n + br (ix2 k 0)) + h n * wsr (ix3 k 0 0)) 0

def h1 : Fin 100000 → EReal := layer src dst wnr wsr br 0 (h0 x src dst wn ws b0)
def h2 : Fin 100000 → EReal := layer src dst wnr wsr br 1 (h1 x src dst wn ws b0 wnr wsr br)
def h3 : Fin 100000 → EReal := layer src dst wnr wsr br 2 (h2 x src dst wn ws b0 wnr wsr br)

/-- The four layers' values, by layer. -/
def hcol (l : Fin 4) : Fin 100000 → EReal :=
  match l with
  | 0 => h0 x src dst wn ws b0
  | 1 => h1 x src dst wn ws b0 wnr wsr br
  | 2 => h2 x src dst wn ws b0 wnr wsr br
  | 3 => h3 x src dst wn ws b0 wnr wsr br

/-- The sum of a node vector over the nodes whose graph word is `g`. -/
def gsum (v : Fin 100000 → EReal) (g : Fin 64) : EReal :=
  ∑ n ∈ Finset.univ.filter (fun n : Fin 100000 => (gid (ix1 n)).toInt = (g.val : ℤ)), v n

/-- The result: per graph, the sums of the 512 features, then of the four layers' values. -/
def out : FVec Ideal SO .f32 := fun i =>
  if h : (i 1).val < 512 then gsum gid (fun n => x (ix2 n ⟨(i 1).val, h⟩)) (i 0)
  else gsum gid (hcol x src dst wn ws b0 wnr wsr br ⟨(i 1).val - 512, by have := idx2_lt1 i; omega⟩) (i 0)

end

end Cert.GraphSpec

end
-- ==== Proof.KernelIdeal.Blocks.lean ====
/-
  The region's two result arrays at the exact reals, entry by entry. Row `n` of the product array is the node's 512
  features against each of the two weight columns. Entry (t, g, f) of the readout array is the sum, over the 4000
  rows of block `t`, of feature `f` of the rows whose graph word is `g`.

  The way there: at a grid point the product written is the block's 4000 rows against the weight pair, a plain sum
  over the 512 features (a change of float format is the identity on the extended reals, and the accumulator is
  zero); the readout written is the product of the 4000x64 mask "row r has graph word g" (the real 1 or 0) with the
  block's rows, a plain sum over the 4000 rows. Block `t` of each row-blocked array is rows 4000 t … 4000 t + 3999,
  the weight pair is read whole, and slab `t` of the readout array is point `t`'s block; the 25 blocks tile each
  result array, so each array is one function of the arrays the region finds.
-/
import proofs.«417001_j56040733278664_2_alg».proof.Proof.KernelIdeal.Region
import proofs.«417001_j56040733278664_2_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Region

open Cert.KernelIdeal Cert.KernelIdeal.Gen
open Idealize.ShloMosaic Idealize.ShloMosaic.TcCoe Idealize.ShloMosaic.ValueIdx
open Idealize.SL.Sem
open Idealize.ShloMosaic.Pipeline (Dat Cfg Window)

variable (m : (ℓ : Loc nD τ sig) → Buf (Elt Ideal) ℓ)

/-- The arrays the region reads and writes, at their literal types. -/
abbrev xArr (c : Dev nD) : FVec Ideal S100000x512 .f32 := V m c main_arg0
abbrev wArr (c : Dev nD) : FVec Ideal S512x2 .f32 := V m c main_v0
abbrev gArr (c : Dev nD) : IVec S100000x1 32 := V m c main_v1
abbrev pArr (c : Dev nD) : FVec Ideal S100000x2 .f32 := (dats m 0 c).arrAt 3 cfg0.N
abbrev rArr (c : Dev nD) : FVec Ideal S25x64x512 .f32 := (dats m 0 c).arrAt 4 cfg0.N

/-! ## The first product's operand indices -/

theorem prodDot_lhs_0 (i : S4000x2.Idx) (q : dot_S4000x512_S512x2_S4000x2_1_0_0_1_n_n.contr.Idx) :
    (dot_S4000x512_S512x2_S4000x2_1_0_0_1_n_n.lhsIdx i q 0).val = (i 0).val := by
  unfold DotDims.lhsIdx
  rw [dif_neg (show ¬(0 : Fin S4000x512.rank) ∈ dot_S4000x512_S512x2_S4000x2_1_0_0_1_n_n.lhsBatch by decide), dif_pos (show (0 : Fin S4000x512.rank) ∈ dot_S4000x512_S512x2_S4000x2_1_0_0_1_n_n.lhsNonContracting by decide)]
  rfl
theorem prodDot_lhs_1 (i : S4000x2.Idx) (q : dot_S4000x512_S512x2_S4000x2_1_0_0_1_n_n.contr.Idx) :
    (dot_S4000x512_S512x2_S4000x2_1_0_0_1_n_n.lhsIdx i q 1).val = (q ⟨0, by decide⟩).val :=
  dot_S4000x512_S512x2_S4000x2_1_0_0_1_n_n.lhsIdx_val_of_single rfl i q
theorem prodDot_rhs_0 (i : S4000x2.Idx) (q : dot_S4000x512_S512x2_S4000x2_1_0_0_1_n_n.contr.Idx) :
    (dot_S4000x512_S512x2_S4000x2_1_0_0_1_n_n.rhsIdx i q 0).val = (q ⟨0, by decide⟩).val :=
  dot_S4000x512_S512x2_S4000x2_1_0_0_1_n_n.rhsIdx_val_of_single rfl i q
theorem prodDot_rhs_1 (i : S4000x2.Idx) (q : dot_S4000x512_S512x2_S4000x2_1_0_0_1_n_n.contr.Idx) :
    (dot_S4000x512_S512x2_S4000x2_1_0_0_1_n_n.rhsIdx i q 1).val = (i 1).val := by
  unfold DotDims.rhsIdx
  rw [dif_neg (show ¬(1 : Fin S512x2.rank) ∈ dot_S4000x512_S512x2_S4000x2_1_0_0_1_n_n.rhsBatch by decide), dif_pos (show (1 : Fin S512x2.rank) ∈ dot_S4000x512_S512x2_S4000x2_1_0_0_1_n_n.rhsNonContracting by decide)]
  rfl

/-- The product payload at an entry: the block's row against the weight column. -/
theorem prodPay_apply (x0 : Vec Ideal S4000x512 .f32) (w0 : Vec Ideal S512x2 .f32) (r : Fin 4000) (j : Fin 2) :
    k0_pay2 (F := Ideal) x0 w0 (ix2 r j) = ∑ k : Fin 512, x0 (ix2 r k) * w0 (ix2 k j) := by
  unfold k0_pay2 k0_pay1
  simp only [matmul]
  rw [Ideal.matmul_constant_zero_apply, ← Equiv.sum_comp (contrEquiv1 dot_S4000x512_S512x2_S4000x2_1_0_0_1_n_n 512 rfl rfl).symm]
  refine Finset.sum_congr rfl fun k _ => ?_
  have hk := contrEquiv1_symm_val dot_S4000x512_S512x2_S4000x2_1_0_0_1_n_n 512 rfl rfl k
  have el : dot_S4000x512_S512x2_S4000x2_1_0_0_1_n_n.lhsIdx (ix2 r j) ((contrEquiv1 dot_S4000x512_S512x2_S4000x2_1_0_0_1_n_n 512 rfl rfl).symm k) = ix2 r k := funext fun a => Fin.ext (by
    match a with
    | ⟨0, _⟩ => exact prodDot_lhs_0 _ _
    | ⟨1, _⟩ => exact (prodDot_lhs_1 _ _).trans hk)
  have er : dot_S4000x512_S512x2_S4000x2_1_0_0_1_n_n.rhsIdx (ix2 r j) ((contrEquiv1 dot_S4000x512_S512x2_S4000x2_1_0_0_1_n_n 512 rfl rfl).symm k) = ix2 k j := funext fun a => Fin.ext (by
    match a with
    | ⟨0, _⟩ => exact (prodDot_rhs_0 _ _).trans hk
    | ⟨1, _⟩ => exact prodDot_rhs_1 _ _)
  rw [el, er, truncf_apply, truncf_apply, shapeCast_self]
/-! ## The second product's operand indices: both operands' rows are summed over -/

theorem readDot_lhs_0 (i : S64x512.Idx) (q : dot_S4000x64_S4000x512_S64x512_0_0_1_1_n_n.contr.Idx) :
    (dot_S4000x64_S4000x512_S64x512_0_0_1_1_n_n.lhsIdx i q 0).val = (q ⟨0, by decide⟩).val :=
  dot_S4000x64_S4000x512_S64x512_0_0_1_1_n_n.lhsIdx_val_of_single rfl i q
theorem readDot_lhs_1 (i : S64x512.Idx) (q : dot_S4000x64_S4000x512_S64x512_0_0_1_1_n_n.contr.Idx) :
    (dot_S4000x64_S4000x512_S64x512_0_0_1_1_n_n.lhsIdx i q 1).val = (i 0).val := by
  unfold DotDims.lhsIdx
  rw [dif_neg (show ¬(1 : Fin S4000x64.rank) ∈ dot_S4000x64_S4000x512_S64x512_0_0_1_1_n_n.lhsBatch by decide), dif_pos (show (1 : Fin S4000x64.rank) ∈ dot_S4000x64_S4000x512_S64x512_0_0_1_1_n_n.lhsNonContracting by decide)]
  rfl
theorem readDot_rhs_0 (i : S64x512.Idx) (q : dot_S4000x64_S4000x512_S64x512_0_0_1_1_n_n.contr.Idx) :
    (dot_S4000x64_S4000x512_S64x512_0_0_1_1_n_n.rhsIdx i q 0).val = (q ⟨0, by decide⟩).val :=
  dot_S4000x64_S4000x512_S64x512_0_0_1_1_n_n.rhsIdx_val_of_single rfl i q
theorem readDot_rhs_1 (i : S64x512.Idx) (q : dot_S4000x64_S4000x512_S64x512_0_0_1_1_n_n.contr.Idx) :
    (dot_S4000x64_S4000x512_S64x512_0_0_1_1_n_n.rhsIdx i q 1).val = (i 1).val := by
  unfold DotDims.rhsIdx
  rw [dif_neg (show ¬(1 : Fin S4000x512.rank) ∈ dot_S4000x64_S4000x512_S64x512_0_0_1_1_n_n.rhsBatch by decide), dif_pos (show (1 : Fin S4000x512.rank) ∈ dot_S4000x64_S4000x512_S64x512_0_0_1_1_n_n.rhsNonContracting by decide)]
  rfl

/-- A word compared for equality, widened and converted, is the real 1 or 0. -/
theorem sitofp_eq (a b : BitVec 32) :
    FloatOps.sitofp (F := Ideal) .f32 ((IntOp.cmpi .eq a b).setWidth 32) = if a = b then 1 else 0 := by
  have hiff : IntOp.cmpi .eq a b = 1#1 ↔ a = b := by
    show BitVec.ofBool (a == b) = 1#1 ↔ a = b
    by_cases h : a = b
    · simp [h]
    · have hb : (a == b) = false := beq_eq_false_iff_ne.mpr h
      rw [hb]
      exact ⟨fun h1 => absurd h1 (by decide), fun h2 => absurd h2 h⟩
  by_cases h : a = b
  · rw [if_pos h, hiff.mpr h]
    show (((1#1 : BitVec 1).setWidth 32).toInt : ℝ) = (1 : EReal)
    rw [show ((1#1 : BitVec 1).setWidth 32).toInt = 1 from by decide]
    simp
  · rw [if_neg h, eq_zero_of_ne_one (fun h1 => h (hiff.mp h1))]
    show (((0#1 : BitVec 1).setWidth 32).toInt : ℝ) = (0 : EReal)
    rw [show ((0#1 : BitVec 1).setWidth 32).toInt = 0 from by decide]
    simp

/-- The mask the readout multiplies by: at (row, graph), whether the row's graph word is that graph. -/
theorem mask_apply (g0 : Vec Ideal S4000x1 .i32) (r : Fin 4000) (g : Fin 64) :
    (sitofp (F := Ideal) .f32 (extui 32 (cmpi .eq (broadcastTo S4000x64 (shapeCast S4000x1 g0 shapeCasts_S4000x1_S4000x1) broadcasts_S4000x1_S4000x64)
        (iota .tc S4000x64 32 [1] iota_S4000x64_d1_w32)) natLt_1_32) : FVec Ideal S4000x64 .f32) (ix2 r g)
      = Cert.GraphSpec.oneHot (g0 (ix2 r 0)) g := by
  rw [sitofp_apply, extui_apply]
  show FloatOps.sitofp (F := Ideal) .f32 ((IntOp.cmpi .eq _ _).setWidth 32) = _
  rw [sitofp_eq, iota_single_apply, shapeCast_self,
    broadcastTo_apply g0 broadcasts_S4000x1_S4000x64 (ix2 r g) (ix2 r 0) (fun a => by
      match a with
      | ⟨0, _⟩ => rfl
      | ⟨1, _⟩ => rfl)]
  rfl

/-- The readout payload at an entry: the block's rows of graph `g`, feature `f`, summed. -/
theorem readPay_apply (x0 : Vec Ideal S4000x512 .f32) (g0 : Vec Ideal S4000x1 .i32) (g : Fin 64) (f : Fin 512) :
    k0_pay3 (F := Ideal) x0 g0 (ix3 0 g f) = ∑ r : Fin 4000, Cert.GraphSpec.oneHot (g0 (ix2 r 0)) g * x0 (ix2 r f) := by
  unfold k0_pay3 k0_pay1
  simp only [matmul]
  refine (shapeCast_addUnit_apply ![64, 512] _ shapeCasts_S64x512_S1x64x512 (ix3 0 g f)).trans ?_
  rw [show (fun a : Fin 2 => (ix3 (0 : Fin 1) g f) a.succ) = ix2 g f from funext fun a => by
    match a with
    | ⟨0, _⟩ => rfl
    | ⟨1, _⟩ => rfl]
  rw [Ideal.matmul_constant_zero_apply, ← Equiv.sum_comp (contrEquiv1 dot_S4000x64_S4000x512_S64x512_0_0_1_1_n_n 4000 rfl rfl).symm]
  refine Finset.sum_congr rfl fun k _ => ?_
  have hk := contrEquiv1_symm_val dot_S4000x64_S4000x512_S64x512_0_0_1_1_n_n 4000 rfl rfl k
  have el : dot_S4000x64_S4000x512_S64x512_0_0_1_1_n_n.lhsIdx (ix2 g f) ((contrEquiv1 dot_S4000x64_S4000x512_S64x512_0_0_1_1_n_n 4000 rfl rfl).symm k) = ix2 k g := funext fun a => Fin.ext (by
    match a with
    | ⟨0, _⟩ => exact (readDot_lhs_0 _ _).trans hk
    | ⟨1, _⟩ => exact readDot_lhs_1 _ _)
  have er : dot_S4000x64_S4000x512_S64x512_0_0_1_1_n_n.rhsIdx (ix2 g f) ((contrEquiv1 dot_S4000x64_S4000x512_S64x512_0_0_1_1_n_n 4000 rfl rfl).symm k) = ix2 k f := funext fun a => Fin.ext (by
    match a with
    | ⟨0, _⟩ => exact (readDot_rhs_0 _ _).trans hk
    | ⟨1, _⟩ => exact readDot_rhs_1 _ _)
  rw [el, er, truncf_apply, truncf_apply, mask_apply]
/-! ## Where each window's block sits at a grid point -/

/-- The block index of every window at grid point `t`: the row-blocked windows sit at block `t` of their first axis,
    the weight pair at its one block. -/
theorem blockIndex_at : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0
    ∧ win0_4.index t (0 : Fin 3) = t.val ∧ win0_4.index t (1 : Fin 3) = 0 ∧ win0_4.index t (2 : Fin 3) = 0 :=
  (by decide +kernel : ∀ t : Fin grid0.N, _)

/-- Row `r` of the feature block at point `t` is row `4000 t + r` of the feature array. -/
theorem xblk_apply (c : Dev nD) (t : Fin cfg0.N) (r : Fin 4000) (k : Fin 512) (n : Fin 100000)
    (hn : n.val = t.val * 4000 + r.val) :
    (iblk m c 0 t : Vec Ideal S4000x512 .f32) (ix2 r k) = xArr m c (ix2 n k) := by
  obtain ⟨e0, e1, -⟩ := blockIndex_at t
  unfold iblk
  rw [View.read_apply]
  show V m c main_arg0 _ = V m c main_arg0 _
  congr 1
  funext a
  apply Fin.ext
  match a with
  | ⟨0, _⟩ => show win0_0.index t (0 : Fin 2) * 4000 + 1 * r.val = n.val; rw [e0, hn]; omega
  | ⟨1, _⟩ => show win0_0.index t (1 : Fin 2) * 512 + 1 * k.val = k.val; rw [e1]; omega

/-- The weight block at every point is the whole weight pair. -/
theorem wblk_apply (c : Dev nD) (t : Fin cfg0.N) (k : Fin 512) (j : Fin 2) :
    (iblk m c 1 t : Vec Ideal S512x2 .f32) (ix2 k j) = wArr m c (ix2 k j) := by
  obtain ⟨-, -, e0, e1, -⟩ := blockIndex_at t
  unfold iblk
  rw [View.read_apply]
  show V m c main_v0 _ = V m c main_v0 _
  congr 1
  funext a
  apply Fin.ext
  match a with
  | ⟨0, _⟩ => show win0_1.index t (0 : Fin 2) * 512 + 1 * k.val = k.val; rw [e0]; omega
  | ⟨1, _⟩ => show win0_1.index t (1 : Fin 2) * 2 + 1 * j.val = j.val; rw [e1]; omega

/-- Word `r` of the graph-word block at point `t` is word `4000 t + r` of the graph-word column. -/
theorem gblk_apply (c : Dev nD) (t : Fin cfg0.N) (r : Fin 4000) (n : Fin 100000)
    (hn : n.val = t.val * 4000 + r.val) :
    (iblk m c 2 t : Vec Ideal S4000x1 .i32) (ix2 r 0) = gArr m c (ix2 n 0) := by
  obtain ⟨-, -, -, -, e0, e1, -⟩ := blockIndex_at t
  unfold iblk
  rw [View.read_apply]
  show V m c main_v1 _ = V m c main_v1 _
  congr 1
  funext a
  apply Fin.ext
  match a with
  | ⟨0, _⟩ => show win0_2.index t (0 : Fin 2) * 4000 + 1 * r.val = n.val; rw [e0, hn]; omega
  | ⟨1, _⟩ => show win0_2.index t (1 : Fin 2) * 1 + 1 * 0 = 0; rw [e1]

/-! ## The two result arrays as functions of the arrays the region finds -/

/-- The product array: a node's row against each weight column. -/
def prodArr (c : Dev nD) : FVec Ideal S100000x2 .f32 := fun i =>
  ∑ k : Fin 512, xArr m c (ix2 (⟨(i 0).val, idx2_lt0 i⟩ : Fin 100000) k) * wArr m c (ix2 k (⟨(i 1).val, idx2_lt1 i⟩ : Fin 2))

theorem prodArr_apply (c : Dev nD) (n : Fin 100000) (j : Fin 2) :
    prodArr m c (ix2 n j) = ∑ k : Fin 512, xArr m c (ix2 n k) * wArr m c (ix2 k j) := rfl

/-- The readout array: per row block and graph, the block's rows of that graph, summed feature by feature. -/
def readArr (c : Dev nD) : FVec Ideal S25x64x512 .f32 := fun i =>
  ∑ r : Fin 4000,
    Cert.GraphSpec.oneHot (gArr m c (ix2 (⟨(i 0).val * 4000 + r.val, by have h : (i 0).val < 25 := (i 0).isLt; omega⟩ : Fin 100000) 0))
        (⟨(i 1).val, (i 1).isLt⟩ : Fin 64)
      * xArr m c (ix2 (⟨(i 0).val * 4000 + r.val, by have h : (i 0).val < 25 := (i 0).isLt; omega⟩ : Fin 100000) (⟨(i 2).val, (i 2).isLt⟩ : Fin 512))

theorem readArr_apply (c : Dev nD) (t : Fin 25) (g : Fin 64) (f : Fin 512) :
    readArr m c (ix3 t g f)
      = ∑ r : Fin 4000, Cert.GraphSpec.oneHot (gArr m c (ix2 ⟨t.val * 4000 + r.val, by omega⟩ 0)) g
          * xArr m c (ix2 ⟨t.val * 4000 + r.val, by omega⟩ f) := rfl

/-! ## What a grid point writes back is its block of those functions -/

/-- Point `t` writes back rows `4000 t … 4000 t + 3999` of the product array. -/
theorem prod_flushed (c : Dev nD) (t : Fin cfg0.N) :
    (dats m 0 c).flushed 3 t = ((cfg0.win 3).blk t).view.read (Elt Ideal) (prodArr m c) := by
  have hN : t.val < 25 := lt_of_lt_of_eq t.isLt N_0
  obtain ⟨-, -, -, -, -, -, e0, e1, -⟩ := blockIndex_at t
  show (cfg0.win 3).cut (grid0.coords t) ((dats m 0 c).after 3 t) = _
  rw [after_3]
  funext j
  obtain ⟨r, q, rfl⟩ : ∃ (r : Fin 4000) (q : Fin 2), j = ix2 r q := ⟨j 0, j 1, eq_ix2 j⟩
  refine (prodPay_apply (iblk m c 0 t) (iblk m c 1 t) r q).trans ?_
  have hemb : ((cfg0.win 3).blk t).view.emb (ix2 r q) = (ix2 (⟨t.val * 4000 + r.val, by omega⟩ : Fin 100000) q : S100000x2.Idx) := by
    funext a
    apply Fin.ext
    match a with
    | ⟨0, _⟩ => show win0_3.index t (0 : Fin 2) * 4000 + 1 * r.val = t.val * 4000 + r.val; rw [e0]; omega
    | ⟨1, _⟩ => show win0_3.index t (1 : Fin 2) * 2 + 1 * q.val = q.val; rw [e1]; omega
  show _ = prodArr m c (((cfg0.win 3).blk t).view.emb (ix2 r q))
  rw [hemb, prodArr_apply]
  exact Finset.sum_congr rfl fun k _ =>
    congrArg₂ (· * ·) (xblk_apply m c t r k ⟨t.val * 4000 + r.val, by omega⟩ rfl) (wblk_apply m c t k q)

/-- Point `t` writes back slab `t` of the readout array. -/
theorem read_flushed (c : Dev nD) (t : Fin cfg0.N) :
    (dats m 0 c).flushed 4 t = ((cfg0.win 4).blk t).view.read (Elt Ideal) (readArr m c) := by
  have hN : t.val < 25 := lt_of_lt_of_eq t.isLt N_0
  obtain ⟨-, -, -, -, -, -, -, -, e0, e1, e2⟩ := blockIndex_at t
  show (cfg0.win 4).cut (grid0.coords t) ((dats m 0 c).after 4 t) = _
  rw [after_4]
  funext j
  obtain ⟨z, g, f, rfl⟩ : ∃ (z : Fin 1) (g : Fin 64) (f : Fin 512), j = ix3 z g f := ⟨j 0, j 1, j 2, eq_ix3 j⟩
  obtain rfl : z = 0 := Subsingleton.elim _ _
  refine (readPay_apply (iblk m c 0 t) (iblk m c 2 t) g f).trans ?_
  have hemb : ((cfg0.win 4).blk t).view.emb (ix3 (0 : Fin 1) g f) = (ix3 (⟨t.val, hN⟩ : Fin 25) g f : S25x64x512.Idx) := by
    funext a
    apply Fin.ext
    match a with
    | ⟨0, _⟩ => show win0_4.index t (0 : Fin 3) * 1 + 1 * 0 = t.val; rw [e0]; omega
    | ⟨1, _⟩ => show win0_4.index t (1 : Fin 3) * 64 + 1 * g.val = g.val; rw [e1]; omega
    | ⟨2, _⟩ => show win0_4.index t (2 : Fin 3) * 512 + 1 * f.val = f.val; rw [e2]; omega
  show _ = readArr m c (((cfg0.win 4).blk t).view.emb (ix3 (0 : Fin 1) g f))
  rw [hemb, readArr_apply]
  exact Finset.sum_congr rfl fun r _ =>
    congrArg₂ (· * ·)
      (congrArg (fun a => Cert.GraphSpec.oneHot a g) (gblk_apply m c t r ⟨t.val * 4000 + r.val, by omega⟩ rfl))
      (xblk_apply m c t r f ⟨t.val * 4000 + r.val, by omega⟩ rfl)

/-! ## The blocks tile the arrays -/

/-- An entry of the product array is in point `t`'s block iff each coordinate is in the block's range. -/
theorem mem_prodBlock (t : Fin cfg0.N) (i : S100000x2.Idx) :
    i ∈ ((cfg0.win 3).blk t).view.set ↔ ∀ a : Fin 2, win0_3.index t a * S4000x2.size a ≤ (i a).val ∧ (i a).val < win0_3.index t a * S4000x2.size a + S4000x2.size a := by
  show i ∈ ((View.whole main_v2_0).slice (win0_3.rect t)).set ↔ _
  rw [View.set_slice_whole, Rect.mem_set_unit]
  exact Iff.rfl

/-- Row `n` of the product array is in the block of point `n / 4000`. -/
theorem prod_cover (i : S100000x2.Idx) :
    ∃ t : Fin cfg0.N, (cfg0.win 3).flush t = true ∧ i ∈ ((cfg0.win 3).blk t).view.set := by
  have hi0 : (i 0).val < 100000 := (i 0).isLt
  have hi1 : (i 1).val < 2 := (i 1).isLt
  obtain ⟨t, ht⟩ : ∃ t : Fin cfg0.N, t.val = (i 0).val / 4000 :=
    ⟨⟨(i 0).val / 4000, by rw [show cfg0.N = 25 from N_0]; omega⟩, rfl⟩
  obtain ⟨-, -, -, -, -, -, e0, e1, -⟩ := blockIndex_at t
  refine ⟨t, flush0_3 t, ?_⟩
  rw [mem_prodBlock]
  intro a
  match a with
  | ⟨0, _⟩ => show win0_3.index t (0 : Fin 2) * 4000 ≤ (i 0).val ∧ (i 0).val < win0_3.index t (0 : Fin 2) * 4000 + 4000; rw [e0, ht]; omega
  | ⟨1, _⟩ => show win0_3.index t (1 : Fin 2) * 2 ≤ (i 1).val ∧ (i 1).val < win0_3.index t (1 : Fin 2) * 2 + 2; rw [e1]; omega

/-- An entry of the readout array is in point `t`'s block iff each coordinate is in the block's range. -/
theorem mem_readBlock (t : Fin cfg0.N) (i : S25x64x512.Idx) :
    i ∈ ((cfg0.win 4).blk t).view.set ↔ ∀ a : Fin 3, win0_4.index t a * S1x64x512.size a ≤ (i a).val ∧ (i a).val < win0_4.index t a * S1x64x512.size a + S1x64x512.size a := by
  show i ∈ ((View.whole main_v2_1).slice (win0_4.rect t)).set ↔ _
  rw [View.set_slice_whole, Rect.mem_set_unit]
  exact Iff.rfl

/-- Slab `t` of the readout array is the block of point `t`. -/
theorem read_cover (i : S25x64x512.Idx) :
    ∃ t : Fin cfg0.N, (cfg0.win 4).flush t = true ∧ i ∈ ((cfg0.win 4).blk t).view.set := by
  have hi0 : (i 0).val < 25 := (i 0).isLt
  have hi1 : (i 1).val < 64 := (i 1).isLt
  have hi2 : (i 2).val < 512 := (i 2).isLt
  obtain ⟨t, ht⟩ : ∃ t : Fin cfg0.N, t.val = (i 0).val :=
    ⟨⟨(i 0).val, by rw [show cfg0.N = 25 from N_0]; omega⟩, rfl⟩
  obtain ⟨-, -, -, -, -, -, -, -, e0, e1, e2⟩ := blockIndex_at t
  refine ⟨t, flush0_4 t, ?_⟩
  rw [mem_readBlock]
  intro a
  match a with
  | ⟨0, _⟩ => show win0_4.index t (0 : Fin 3) * 1 ≤ (i 0).val ∧ (i 0).val < win0_4.index t (0 : Fin 3) * 1 + 1; rw [e0, ht]; omega
  | ⟨1, _⟩ => show win0_4.index t (1 : Fin 3) * 64 ≤ (i 1).val ∧ (i 1).val < win0_4.index t (1 : Fin 3) * 64 + 64; rw [e1]; omega
  | ⟨2, _⟩ => show win0_4.index t (2 : Fin 3) * 512 ≤ (i 2).val ∧ (i 2).val < win0_4.index t (2 : Fin 3) * 512 + 512; rw [e2]; omega

/-! ## The arrays after the region -/

theorem pArr_eq (c : Dev nD) : pArr m c = prodArr m c :=
  (dats m 0 c).arrAt_eq_of_cover 3 (prodArr m c) (fun t _ => prod_flushed m c t) prod_cover

theorem rArr_eq (c : Dev nD) : rArr m c = readArr m c :=
  (dats m 0 c).arrAt_eq_of_cover 4 (readArr m c) (fun t _ => read_flushed m c t) read_cover

/-- The product array after the region: a node's row against weight column `j`. -/
theorem pArr_apply (c : Dev nD) (n : Fin 100000) (j : Fin 2) :
    pArr m c (ix2 n j) = ∑ k : Fin 512, xArr m c (ix2 n k) * wArr m c (ix2 k j) := by
  rw [pArr_eq, prodArr_apply]

/-- The readout array after the region: block `t`'s rows of graph `g`, feature `f`, summed. -/
theorem rArr_apply (c : Dev nD) (t : Fin 25) (g : Fin 64) (f : Fin 512) :
    rArr m c (ix3 t g f)
      = ∑ r : Fin 4000, Cert.GraphSpec.oneHot (gArr m c (ix2 ⟨t.val * 4000 + r.val, by omega⟩ 0)) g
          * xArr m c (ix2 ⟨t.val * 4000 + r.val, by omega⟩ f) := by
  rw [rArr_eq, readArr_apply]

end Cert.KernelIdeal.Region

end
-- ==== Proof.Scatter.lean ====
/-
  The accumulating scatter of the message passing and of the per-graph readout, read at an index: an element of
  the result is the operand's element plus the sum of the updates whose index word, read signed and not clamped,
  is that element's row. An update whose word is negative or past the last row lands nowhere.
-/
import Idealize.ShloMosaic.PureOps.Ideal
import Idealize.ShloMosaic.Lib.ValueIdx

noncomputable section

namespace Cert.GraphSpec

open Idealize.ShloMosaic Idealize.ShloMosaic.ValueIdx

/-- An update lands at the operand index `i` exactly when, on every axis, the start of its window plus its window
    coordinate is `i`'s coordinate (in particular the sum is then inside the operand on every axis). -/
theorem resultIdx?_eq_some_iff {s si u : Shape} (d : ScatterDims s si u) {w : Nat} (j : u.Idx) (idx : IVec si w)
    (i : s.Idx) :
    d.resultIdx? j idx = some i ↔ ∀ a, d.start j idx a + (d.window j a : ℤ) = ((i a).val : ℤ) := by
  unfold ScatterDims.resultIdx?
  split
  · next h =>
    constructor
    · intro hs a
      have hi : (fun a => (⟨(d.start j idx a + d.window j a).toNat, by have := h a; omega⟩ : Fin (s.size a))) = i :=
        Option.some.inj hs
      have := congrArg (fun f => (f a).val) hi
      simp only at this
      have := h a
      omega
    · intro hs
      congr 1
      funext a
      apply Fin.ext
      have := hs a
      simp only
      omega
  · next h =>
    constructor
    · intro hs; exact absurd hs (by simp)
    · intro hs
      exfalso
      apply h
      intro a
      have := hs a
      have := (i a).isLt
      omega

/-- No window axes; the operand's one axis is inserted and is the one the index word names; the word stands on axis 1
    of the column. Update `e` lands at entry `n` exactly when its word, read signed, is `n`: the window coordinate
    on the inserted axis is 0. -/
theorem resultIdx?_vec {N E w : Nat} (d : ScatterDims ⟨1, ![N]⟩ ⟨2, ![E, 1]⟩ ⟨1, ![E]⟩)
    (huw : d.updateWindowDims = []) (hiw : d.insertedWindowDims = [0])
    (hsd : d.scatterDimsToOperandDims = [0]) (hiv : d.indexVectorDim = 1)
    (idx : IVec ⟨2, ![E, 1]⟩ w) (e : Fin E) (n : Fin N) :
    d.resultIdx? (ix1 e) idx = some (ix1 n) ↔ (idx (ix2 e 0)).toInt = (n.val : ℤ) := by
  rw [resultIdx?_eq_some_iff]
  obtain ⟨uw, iw, sd, iv, wf⟩ := d
  simp only at huw hiw hsd hiv
  subst huw hiw hsd hiv
  have hst : (ScatterDims.mk [] [0] [0] 1 wf).start (ix1 e) idx 0 = (idx (ix2 e 0)).toInt := by
    unfold ScatterDims.start
    rw [dif_pos (List.mem_singleton.mpr rfl)]
    congr 2
    funext b
    match b with
    | ⟨0, _⟩ => rfl
    | ⟨1, _⟩ => rfl
  have hwin : (ScatterDims.mk [] [0] [0] 1 wf).window (ix1 e) 0 = 0 := by
    unfold ScatterDims.window
    exact dif_neg (show (0 : Fin 1) ∉ (List.finRange 1).filter (· ∉ [(0 : Fin 1)]) by decide)
  constructor
  · intro h
    have h0 := h 0
    rw [hst, hwin, Nat.cast_zero, add_zero] at h0
    exact h0
  · intro h a
    obtain rfl : a = 0 := Subsingleton.elim _ _
    rw [hst, hwin, Nat.cast_zero, add_zero]
    exact h

/-- One window axis, the updates' axis 1, going to the operand's axis 1; the operand's axis 0 is inserted and is the
    one the index word names. Update `(n, c')` lands at `(g, c)` exactly when row `n`'s word, read signed, is `g`
    and the columns agree: on axis 0 the window coordinate is 0, on axis 1 the start is 0 and the window coordinate
    is the update's column. -/
theorem resultIdx?_rows {G N C w : Nat} (d : ScatterDims ⟨2, ![G, C]⟩ ⟨2, ![N, 1]⟩ ⟨2, ![N, C]⟩)
    (huw : d.updateWindowDims = [1]) (hiw : d.insertedWindowDims = [0])
    (hsd : d.scatterDimsToOperandDims = [0]) (hiv : d.indexVectorDim = 1)
    (idx : IVec ⟨2, ![N, 1]⟩ w) (n : Fin N) (c' : Fin C) (g : Fin G) (c : Fin C) :
    d.resultIdx? (ix2 n c') idx = some (ix2 g c) ↔ (idx (ix2 n 0)).toInt = (g.val : ℤ) ∧ c' = c := by
  rw [resultIdx?_eq_some_iff]
  obtain ⟨uw, iw, sd, iv, wf⟩ := d
  simp only at huw hiw hsd hiv
  subst huw hiw hsd hiv
  have hst0 : (ScatterDims.mk [1] [0] [0] 1 wf).start (ix2 n c') idx 0 = (idx (ix2 n 0)).toInt := by
    unfold ScatterDims.start
    rw [dif_pos (List.mem_singleton.mpr rfl)]
    congr 2
    funext b
    match b with
    | ⟨0, _⟩ => rfl
    | ⟨1, _⟩ => rfl
  have hst1 : (ScatterDims.mk [1] [0] [0] 1 wf).start (ix2 n c') idx 1 = 0 := by
    unfold ScatterDims.start
    exact dif_neg (show (1 : Fin 2) ∉ [(0 : Fin 2)] by decide)
  have hw0 : (ScatterDims.mk [1] [0] [0] 1 wf).window (ix2 n c') 0 = 0 := by
    unfold ScatterDims.window
    exact dif_neg (show (0 : Fin 2) ∉ (List.finRange 2).filter (· ∉ [(0 : Fin 2)]) by decide)
  have hw1 : (ScatterDims.mk [1] [0] [0] 1 wf).window (ix2 n c') 1 = c'.val := by
    unfold ScatterDims.window
    exact (dif_pos (show (1 : Fin 2) ∈ (List.finRange 2).filter (· ∉ [(0 : Fin 2)]) by decide)).trans rfl
  constructor
  · intro h
    have h0 := h 0
    have h1 := h 1
    rw [hst0, hw0, Nat.cast_zero, add_zero] at h0
    rw [hst1, hw1, zero_add] at h1
    exact ⟨h0, Fin.ext (by exact_mod_cast h1)⟩
  · rintro ⟨h, rfl⟩
    refine Fin.forall_fin_two.2 ⟨?_, ?_⟩
    · rw [hst0, hw0, Nat.cast_zero, add_zero]
      exact h
    · rw [hst1, hw1, zero_add]

/-- Into a vector of `N` entries, from `E` updates whose index words stand in an `E`x1 column. -/
theorem scatterAdd_vec {N E w : Nat} (d : ScatterDims ⟨1, ![N]⟩ ⟨2, ![E, 1]⟩ ⟨1, ![E]⟩)
    (huw : d.updateWindowDims = []) (hiw : d.insertedWindowDims = [0])
    (hsd : d.scatterDimsToOperandDims = [0]) (hiv : d.indexVectorDim = 1)
    (x : FVec Ideal ⟨1, ![N]⟩ .f32) (idx : IVec ⟨2, ![E, 1]⟩ w) (upd : FVec Ideal ⟨1, ![E]⟩ .f32) (n : Fin N) :
    Host.scatterAdd (F := Ideal) d x idx upd (ix1 n)
      = x (ix1 n) + ∑ e ∈ Finset.univ.filter (fun e : Fin E => (idx (ix2 e 0)).toInt = (n.val : ℤ)), upd (ix1 e) := by
  show x (ix1 n) + ∑ j ∈ Finset.univ.filter (fun j => d.resultIdx? j idx = some (ix1 n)), upd j = _
  congr 1
  have key : ∀ j : (⟨1, ![E]⟩ : Shape).Idx,
      d.resultIdx? j idx = some (ix1 n) ↔ (idx (ix2 (j 0) 0)).toInt = (n.val : ℤ) := by
    intro j
    have e : d.resultIdx? j idx = d.resultIdx? (ix1 (j 0)) idx := congrArg (fun t => d.resultIdx? t idx) (eq_ix1 j)
    rw [e]
    exact resultIdx?_vec d huw hiw hsd hiv idx (j 0) n
  refine Finset.sum_bij' (fun j _ => j 0) (fun e _ => ix1 e) ?_ ?_ (fun j _ => (eq_ix1 j).symm) (fun _ _ => rfl) ?_
  · intro j hj
    exact Finset.mem_filter.2 ⟨Finset.mem_univ _, (key j).1 (Finset.mem_filter.1 hj).2⟩
  · intro e he
    exact Finset.mem_filter.2 ⟨Finset.mem_univ _, (key (ix1 e)).2 (Finset.mem_filter.1 he).2⟩
  · intro j _
    exact congrArg upd (eq_ix1 j)

/-- Into the rows of a `G`x`C` array, from the rows of an `N`x`C` array whose index words stand in an `N`x1
    column: row `n` of the updates is added, entry by entry, to the row its word names. -/
theorem scatterAdd_rows {G N C w : Nat} (d : ScatterDims ⟨2, ![G, C]⟩ ⟨2, ![N, 1]⟩ ⟨2, ![N, C]⟩)
    (huw : d.updateWindowDims = [1]) (hiw : d.insertedWindowDims = [0])
    (hsd : d.scatterDimsToOperandDims = [0]) (hiv : d.indexVectorDim = 1)
    (x : FVec Ideal ⟨2, ![G, C]⟩ .f32) (idx : IVec ⟨2, ![N, 1]⟩ w) (upd : FVec Ideal ⟨2, ![N, C]⟩ .f32)
    (g : Fin G) (c : Fin C) :
    Host.scatterAdd (F := Ideal) d x idx upd (ix2 g c)
      = x (ix2 g c) + ∑ n ∈ Finset.univ.filter (fun n : Fin N => (idx (ix2 n 0)).toInt = (g.val : ℤ)), upd (ix2 n c) := by
  show x (ix2 g c) + ∑ j ∈ Finset.univ.filter (fun j => d.resultIdx? j idx = some (ix2 g c)), upd j = _
  congr 1
  have key : ∀ j : (⟨2, ![N, C]⟩ : Shape).Idx,
      d.resultIdx? j idx = some (ix2 g c) ↔ (idx (ix2 (j 0) 0)).toInt = (g.val : ℤ) ∧ j 1 = c := by
    intro j
    have e : d.resultIdx? j idx = d.resultIdx? (ix2 (j 0) (j 1)) idx := congrArg (fun t => d.resultIdx? t idx) (eq_ix2 j)
    rw [e]
    exact resultIdx?_rows d huw hiw hsd hiv idx (j 0) (j 1) g c
  have back : ∀ j : (⟨2, ![N, C]⟩ : Shape).Idx, d.resultIdx? j idx = some (ix2 g c) → ix2 (j 0) c = j := by
    intro j hj
    have hc : j 1 = c := ((key j).1 hj).2
    rw [← hc]
    exact (eq_ix2 j).symm
  refine Finset.sum_bij' (fun j _ => j 0) (fun n _ => ix2 n c) ?_ ?_ ?_ (fun _ _ => rfl) ?_
  · intro j hj
    exact Finset.mem_filter.2 ⟨Finset.mem_univ _, ((key j).1 (Finset.mem_filter.1 hj).2).1⟩
  · intro n hn
    exact Finset.mem_filter.2 ⟨Finset.mem_univ _, (key (ix2 n c)).2 ⟨(Finset.mem_filter.1 hn).2, rfl⟩⟩
  · intro j hj
    exact back j (Finset.mem_filter.1 hj).2
  · intro j hj
    exact (congrArg upd (back j (Finset.mem_filter.1 hj).2)).symm

end Cert.GraphSpec

end
-- ==== Proof.Gather.lean ====
/-
  The gather of the message passing read at an index (the entry read is the one the start word names, read signed
  and clamped into the table), and two facts about sums: 25 blocks of 4000 rows are the 100000 rows, and weighting
  by the 0/1 indicator of a graph word keeps exactly that graph's nodes.
-/
import Idealize.ShloMosaic.PureOps.Ideal
import Idealize.ShloMosaic.Lib.ValueIdx
import Idealize.ShloMosaic.Lib.StableHlo.Predicate
import proofs.«417001_j56040733278664_2_alg».proof.Proof.Spec

noncomputable section

namespace Cert.GraphSpec

open Idealize.ShloMosaic Idealize.ShloMosaic.ValueIdx

/-- From a vector of `N` entries, at `E` start words standing in an `E`x1 column. -/
theorem gather_vec {α : Type} {N E w : Nat} (d : GatherDims ⟨1, ![N]⟩ ⟨2, ![E, 1]⟩ ⟨1, ![E]⟩)
    (hcoll : d.collapsedSliceDims = [0]) (hob : d.operandBatchingDims = [])
    (hsim : d.startIndexMap = [0]) (hivd : d.indexVectorDim = 1)
    (x : (⟨1, ![N]⟩ : Shape).Idx → α) (idx : IVec ⟨2, ![E, 1]⟩ w) (e : Fin E) (hN : 0 < N) :
    Host.gather d x idx (ix1 e) = x (ix1 ⟨min (idx (ix2 e 0)).toInt.toNat (N - 1), by omega⟩) := by
  -- the rank-1 index at a coordinate, and the row of a column, are the same indices however they are written
  have h1 : ∀ {n : Nat} (k : Fin n), (ix1 k : (⟨1, ![n]⟩ : Shape).Idx) = Shape.Idx.ofFin k := by
    intro n k; funext a; match a with | ⟨0, _⟩ => exact Fin.ext rfl
  have h2 : (ix2 e 0 : (⟨2, ![E, 1]⟩ : Shape).Idx) = StableHlo.Predicate.ixP e := by
    funext a; match a with | ⟨0, _⟩ => rfl | ⟨1, _⟩ => rfl
  rw [h1 e, StableHlo.Predicate.gather_take d hcoll hob hsim hivd x idx e hN, h1]
  congr 1
  funext a
  obtain rfl : a = 0 := Subsingleton.elim _ _
  apply Fin.ext
  show min (idx (StableHlo.Predicate.ixP e)).toInt.toNat (N - 1) = min (idx (ix2 e 0)).toInt.toNat (N - 1)
  rw [h2]

/-- From an `N`x1 column, at `E` start words standing in an `E`x1 column, into an `E`x1 column. -/
theorem gather_col {α : Type} {N E w : Nat} (d : GatherDims ⟨2, ![N, 1]⟩ ⟨2, ![E, 1]⟩ ⟨2, ![E, 1]⟩)
    (hoff : d.offsetDims = [1]) (hcoll : d.collapsedSliceDims = [0]) (hob : d.operandBatchingDims = [])
    (hsim : d.startIndexMap = [0]) (hivd : d.indexVectorDim = 1) (hss : d.sliceSizes = ![1, 1])
    (x : (⟨2, ![N, 1]⟩ : Shape).Idx → α) (idx : IVec ⟨2, ![E, 1]⟩ w) (e : Fin E) (hN : 0 < N) :
    Host.gather d x idx (ix2 e 0) = x (ix2 ⟨min (idx (ix2 e 0)).toInt.toNat (N - 1), by omega⟩ 0) := by
  unfold Host.gather
  congr 1
  funext a
  apply Fin.ext
  match a with
  | ⟨1, _⟩ =>
    -- the second operand axis has one entry
    have hlt := (d.operandIdx (ix2 e 0) idx (1 : Fin 2)).isLt
    change (d.operandIdx (ix2 e 0) idx (1 : Fin 2)).val < 1 at hlt
    show (d.operandIdx (ix2 e 0) idx (1 : Fin 2)).val = 0
    omega
  | ⟨0, _⟩ =>
    have hb : (0 : Fin 2) ∉ d.operandBatchingDims := by rw [hob]; exact List.not_mem_nil
    have hk : (0 : Fin 2) ∉ d.sKept := by rw [GatherDims.mem_sKept, hcoll]; simp
    have hm : (0 : Fin 2) ∈ d.startIndexMap := by rw [hsim]; exact List.mem_singleton.mpr rfl
    have hsl : d.sliceSizes 0 = 1 := by rw [hss]; rfl
    -- the result's one batch axis is its first
    have hbd : ∀ z ∈ d.batchDims, z = (0 : Fin 2) := by
      intro z hz
      have hl : d.batchDims = [0] := by
        show Shape.kept _ d.offsetDims = [0]
        rw [hoff]; rfl
      rw [hl] at hz
      exact List.mem_singleton.mp hz
    show d.start (ix2 e 0) idx 0 + d.batchCoord (ix2 e 0) 0 + d.offCoord (ix2 e 0) 0 = min (idx (ix2 e 0)).toInt.toNat (N - 1)
    rw [GatherDims.batchCoord_eq_zero _ _ _ hb, GatherDims.offCoord_eq_zero _ _ _ hk]
    simp only [Nat.add_zero]
    unfold GatherDims.start
    rw [dif_pos hm]
    show min (idx _).toInt.toNat (N - d.sliceSizes 0) = min (idx (ix2 e 0)).toInt.toNat (N - 1)
    rw [hsl]
    congr 3
    congr 1
    funext b
    match b with
    | ⟨0, _⟩ =>
      unfold GatherDims.siIdx
      rw [dif_neg (by rw [hivd]; simp)]
      unfold GatherDims.siCoord
      apply Fin.ext
      simp only [Fin.val_cast]
      exact congrArg (fun X : Fin 2 => ((ix2 e (0 : Fin 1) : (⟨2, ![E, 1]⟩ : Shape).Idx) X).val) (hbd _ (List.getElem_mem _))
    | ⟨1, _⟩ =>
      unfold GatherDims.siIdx
      rw [dif_pos (by rw [hivd])]
      apply Fin.ext
      show List.idxOf (0 : Fin 2) d.startIndexMap = 0
      rw [hsim]; simp

/-- Block `t`, row `r` is row `4000 t + r`: a one-to-one pairing of the 25 x 4000 pairs with the 100000 rows. -/
def blockRowEquiv : Fin 25 × Fin 4000 ≃ Fin 100000 where
  toFun p := ⟨p.1.val * 4000 + p.2.val, by have := p.1.isLt; have := p.2.isLt; omega⟩
  invFun n := (⟨n.val / 4000, by have := n.isLt; omega⟩, ⟨n.val % 4000, Nat.mod_lt _ (by decide)⟩)
  left_inv p := by
    obtain ⟨t, r⟩ := p
    have ht := t.isLt
    have hr := r.isLt
    refine Prod.ext (Fin.ext ?_) (Fin.ext ?_)
    · show (t.val * 4000 + r.val) / 4000 = t.val
      omega
    · show (t.val * 4000 + r.val) % 4000 = r.val
      omega
  right_inv n := by
    apply Fin.ext
    show n.val / 4000 * 4000 + n.val % 4000 = n.val
    omega

/-- The 100000 rows are 25 blocks of 4000. -/
theorem sum_blocks (f : Fin 100000 → EReal) :
    ∑ t : Fin 25, ∑ r : Fin 4000, f ⟨t.val * 4000 + r.val, by omega⟩ = ∑ n : Fin 100000, f n := by
  refine (Fintype.sum_prod_type' (f := fun (t : Fin 25) (r : Fin 4000) => f ⟨t.val * 4000 + r.val, by omega⟩)).symm.trans ?_
  exact Fintype.sum_equiv blockRowEquiv _ _ (fun p => rfl)

/-- A word is graph `g`'s word exactly when it reads, signed, as `g`. -/
theorem eq_ofNat_iff_toInt (a : BitVec 32) (g : Fin 64) : a = BitVec.ofNat 32 g.val ↔ a.toInt = (g.val : ℤ) := by
  have hg := g.isLt
  have ha := a.isLt
  constructor
  · intro h
    have hn : a.toNat = g.val := by rw [h, BitVec.toNat_ofNat]; omega
    rw [BitVec.toInt_eq_toNat_cond, hn]
    split
    · rfl
    · omega
  · intro h
    rw [BitVec.toInt_eq_toNat_cond] at h
    apply BitVec.eq_of_toNat_eq
    rw [BitVec.toNat_ofNat]
    split at h
    · omega
    · omega

/-- Weighting by the 0/1 indicator of graph `g` keeps the nodes of graph `g`. -/
theorem sum_oneHot {N : Nat} (a : Fin N → BitVec 32) (g : Fin 64) (v : Fin N → EReal) :
    ∑ n : Fin N, oneHot (a n) g * v n = ∑ n ∈ Finset.univ.filter (fun n : Fin N => (a n).toInt = (g.val : ℤ)), v n := by
  rw [Finset.sum_filter]
  refine Finset.sum_congr rfl (fun n _ => ?_)
  unfold oneHot
  by_cases h : (a n).toInt = (g.val : ℤ)
  · rw [if_pos h, if_pos ((eq_ofNat_iff_toInt _ _).2 h), one_mul]
  · rw [if_neg h, if_neg (fun h' => h ((eq_ofNat_iff_toInt _ _).1 h')), zero_mul]

end Cert.GraphSpec

end
-- ==== Proof.KernelIdeal.Readout.lean ====
/-
  The per-graph feature sums. The region leaves, for each block of 4000 nodes, the sums of the block's feature rows
  weighted by the 0/1 indicator of the rows' graph words. Summed over the 25 blocks this is, for graph `g` and
  feature `f`, the sum of feature `f` over ALL nodes whose graph word is `g`: the blocks partition the nodes, and
  the indicator keeps exactly that graph's nodes.
-/
import proofs.«417001_j56040733278664_2_alg».proof.Proof.KernelIdeal.Blocks
import proofs.«417001_j56040733278664_2_alg».proof.Proof.Gather
import Idealize.ShloMosaic.Lib.Pipeline.Value

set_option maxRecDepth 16384

noncomputable section

namespace Cert.KernelIdeal.Region

open Cert.KernelIdeal Cert.KernelIdeal.Gen
open Idealize.ShloMosaic Idealize.ShloMosaic.TcCoe Idealize.ShloMosaic.ValueIdx
open Idealize.SL.Sem

variable (m : (ℓ : Loc nD τ sig) → Buf (Elt Ideal) ℓ)

/-- The graph-word column the region reads holds, at row `n`, the launch's graph word of node `n`. -/
theorem gArr_apply (c : Dev nD) (n : Fin 100000) :
    gArr m c (ix2 n 0) = (m ((c : Thread nD τ).loc main_arg3) : IVec S100000 32) (ix1 n) := by
  show (V m c main_v1 : IVec S100000x1 32) (ix2 n 0) = _
  rw [V_v1]
  refine shapeCast_apply _ _ (ix2 n 0) (ix1 n) ?_
  rw [Shape.rowMajor_val_two, Shape.rowMajor_val_one]
  show n.val = n.val * 1 + 0
  omega

/-- The feature array the region reads is the launch's. -/
theorem xArr_eq (c : Dev nD) : xArr m c = m ((c : Thread nD τ).loc main_arg0) :=
  V_of_ne m c main_arg0 (by decide) (by decide)

/-- Summed over the 25 blocks, the readout array is the per-graph sum of a feature over all nodes. -/
theorem readout_x (c : Dev nD) (g : Fin 64) (f : Fin 512) :
    ∑ t : Fin 25, rArr m c (ix3 t g f)
      = Cert.GraphSpec.gsum (m ((c : Thread nD τ).loc main_arg3))
          (fun n => (m ((c : Thread nD τ).loc main_arg0) : FVec Ideal S100000x512 .f32) (ix2 n f)) g := by
  simp only [rArr_apply]
  rw [Cert.GraphSpec.sum_blocks (fun n => Cert.GraphSpec.oneHot (gArr m c (ix2 n 0)) g * xArr m c (ix2 n f)),
    Cert.GraphSpec.sum_oneHot (fun n => gArr m c (ix2 n 0)) g (fun n => xArr m c (ix2 n f))]
  unfold Cert.GraphSpec.gsum
  refine Finset.sum_congr (Finset.filter_congr fun n _ => by rw [gArr_apply]) (fun n _ => by rw [xArr_eq])

end Cert.KernelIdeal.Region

end
-- ==== Proof.KernelIdeal.Tail.lean ====
/-
  The host lines after the region, at the exact reals: from the region's product and readout arrays they compute
  the four layers of message passing and the per-graph sums, and the result is the specification's.
-/
import proofs.«417001_j56040733278664_2_alg».proof.Proof.KernelIdeal.Blocks
import proofs.«417001_j56040733278664_2_alg».proof.Proof.Scatter
import proofs.«417001_j56040733278664_2_alg».proof.Proof.Gather
import proofs.«417001_j56040733278664_2_alg».proof.Proof.KernelIdeal.Readout
import Idealize.ShloMosaic.Lib.StableHlo.Run
import Idealize.ShloMosaic.Lib.IdealHost

set_option maxRecDepth 16384

noncomputable section

namespace Cert.KernelIdeal.Region

open Cert.KernelIdeal Cert.KernelIdeal.Gen
open Idealize.ShloMosaic Idealize.ShloMosaic.TcCoe Idealize.ShloMosaic.ValueIdx
open Idealize.SL.Sem
open Idealize.ShloMosaic.Pipeline (Dat Cfg Window)

/-! ## The host lines after the region, as operations on arrays -/

section Stages

variable (P : FVec Ideal S100000x2 .f32) (R : FVec Ideal S25x64x512 .f32)
  (src dst : IVec S3200000 32) (gid : IVec S100000 32) (b0 : FVec Ideal S1 .f32)
  (wnr wsr : FVec Ideal S3x1x1 .f32) (br : FVec Ideal S3x1 .f32)

/-- The edges' source words as the column of start words the gather reads: a negative word counts from the end. -/
def srcIdx : IVec S3200000x1 32 :=
  broadcastInDim S3200000x1 ![0] bcast_S3200000_S3200000x1_0
    (select (cmpi .slt src (broadcastInDim S3200000 ![] bcast_S_S3200000 (constantI S_ 32 0#32)))
      (addi src (broadcastInDim S3200000 ![] bcast_S_S3200000 (constantI S_ 32 100000#32))) src)

/-- The edges' destination words as a column. -/
def dstIdx : IVec S3200000x1 32 := broadcastInDim S3200000x1 ![0] bcast_S3200000_S3200000x1_0 dst

/-- One zero per node. -/
def zerosN : FVec Ideal S100000 .f32 :=
  broadcastInDim S100000 ![] bcast_S_S100000 (constant (F := Ideal) S_ .f32 0x00000000#32)

/-- A scalar at every node. -/
def splatN (a : FVec Ideal S_ .f32) : FVec Ideal S100000 .f32 := broadcastInDim S100000 ![] bcast_S_S100000 a

/-- Message passing: every edge reads the vector at its source node and adds it in at its destination word. -/
def msgOp (v : FVec Ideal S100000 .f32) : FVec Ideal S100000 .f32 :=
  Host.scatterAdd (F := Ideal) scatter_S100000_S3200000x1_S3200000_n_0_0_1 zerosN (dstIdx dst)
    (Host.gather gather_S100000_S3200000x1_S3200000_n_0_n_n_0_1_1 v (srcIdx src))

/-- The positive part. -/
def reluOp (v : FVec Ideal S100000 .f32) : FVec Ideal S100000 .f32 := maximumf v zerosN

/-- Column `0` and column `1` of the product array, each as a vector over the nodes. -/
def colP0 : FVec Ideal S100000 .f32 :=
  shapeCast S100000 (extractStridedSlice S100000x1 ![0, 0] P slices_S100000x2_S100000x1_0_0) shapeCasts_S100000x1_S100000
def colP1 : FVec Ideal S100000 .f32 :=
  shapeCast S100000 (extractStridedSlice S100000x1 ![0, 1] P slices_S100000x2_S100000x1_0_1) shapeCasts_S100000x1_S100000

/-- Layer 0 before its positive part: the neighbours' sums of column 0, the bias, column 1. -/
def pre0 : FVec Ideal S100000 .f32 :=
  addf (addf (msgOp src dst (colP0 P)) (splatN (shapeCast S_ b0 shapeCasts_S1_S_))) (colP1 P)

/-- Layer 0 on the product array's two columns. -/
def layer0Op : FVec Ideal S100000 .f32 := reluOp (pre0 P src dst b0)

/-- A later layer before its positive part, on one value per node, with its three scalars. -/
def preL (a s bb : FVec Ideal S_ .f32) (h : FVec Ideal S100000 .f32) : FVec Ideal S100000 .f32 :=
  addf (addf (msgOp src dst (mulf h (splatN a))) (splatN bb)) (mulf h (splatN s))

/-- A later layer. -/
def layerOp (a s bb : FVec Ideal S_ .f32) (h : FVec Ideal S100000 .f32) : FVec Ideal S100000 .f32 :=
  reluOp (preL src dst a s bb h)

/-- The scalars of the three later layers, cut out of their arrays. -/
def w3_0 (w : FVec Ideal S3x1x1 .f32) : FVec Ideal S_ .f32 :=
  shapeCast S_ (extractStridedSlice S1x1x1 ![0, 0, 0] w slices_S3x1x1_S1x1x1_0_0_0) shapeCasts_S1x1x1_S_
def w3_1 (w : FVec Ideal S3x1x1 .f32) : FVec Ideal S_ .f32 :=
  shapeCast S_ (extractStridedSlice S1x1x1 ![1, 0, 0] w slices_S3x1x1_S1x1x1_1_0_0) shapeCasts_S1x1x1_S_
def w3_2 (w : FVec Ideal S3x1x1 .f32) : FVec Ideal S_ .f32 :=
  shapeCast S_ (extractStridedSlice S1x1x1 ![2, 0, 0] w slices_S3x1x1_S1x1x1_2_0_0) shapeCasts_S1x1x1_S_
def b2_0 (w : FVec Ideal S3x1 .f32) : FVec Ideal S_ .f32 :=
  shapeCast S_ (extractStridedSlice S1x1 ![0, 0] w slices_S3x1_S1x1_0_0) shapeCasts_S1x1_S_
def b2_1 (w : FVec Ideal S3x1 .f32) : FVec Ideal S_ .f32 :=
  shapeCast S_ (extractStridedSlice S1x1 ![1, 0] w slices_S3x1_S1x1_1_0) shapeCasts_S1x1_S_
def b2_2 (w : FVec Ideal S3x1 .f32) : FVec Ideal S_ .f32 :=
  shapeCast S_ (extractStridedSlice S1x1 ![2, 0] w slices_S3x1_S1x1_2_0) shapeCasts_S1x1_S_

/-- The four layers' vectors. -/
def L0 : FVec Ideal S100000 .f32 := layer0Op P src dst b0
def L1 : FVec Ideal S100000 .f32 := layerOp src dst (w3_0 wnr) (w3_0 wsr) (b2_0 br) (L0 P src dst b0)
def L2 : FVec Ideal S100000 .f32 := layerOp src dst (w3_1 wnr) (w3_1 wsr) (b2_1 br) (L1 P src dst b0 wnr wsr br)
def L3 : FVec Ideal S100000 .f32 := layerOp src dst (w3_2 wnr) (w3_2 wsr) (b2_2 br) (L2 P src dst b0 wnr wsr br)

/-- A node vector as a column. -/
def colOf (v : FVec Ideal S100000 .f32) : FVec Ideal S100000x1 .f32 :=
  broadcastInDim S100000x1 ![0] bcast_S100000_S100000x1_0 v

/-- Four columns side by side. -/
def cat4 (a b c d : FVec Ideal S100000x1 .f32) : FVec Ideal S100000x4 .f32 :=
  concatenate S100000x4 1 [⟨S100000x1, a⟩, ⟨S100000x1, b⟩, ⟨S100000x1, c⟩, ⟨S100000x1, d⟩]
    concatenates_S100000x1_S100000x1_S100000x1_S100000x1_S100000x4_d1

/-- The feature sums and the layers' sums side by side. -/
def cat2 (a : FVec Ideal S64x512 .f32) (b : FVec Ideal S64x4 .f32) : FVec Ideal S64x516 .f32 :=
  concatenate S64x516 1 [⟨S64x512, a⟩, ⟨S64x4, b⟩] concatenates_S64x512_S64x4_S64x516_d1

/-- The per-graph sums of four node vectors laid as columns. -/
def readHOf (h0 h1 h2 h3 : FVec Ideal S100000 .f32) : FVec Ideal S64x4 .f32 :=
  Host.scatterAdd (F := Ideal) scatter_S64x4_S100000x1_S100000x4_1_0_0_1
    (broadcastInDim S64x4 ![] bcast_S_S64x4 (constant (F := Ideal) S_ .f32 0x00000000#32))
    (broadcastInDim S100000x1 ![0] bcast_S100000_S100000x1_0 gid) (cat4 (colOf h0) (colOf h1) (colOf h2) (colOf h3))

/-- The last lines: the result array from the feature sums, the graph words and the four layers' vectors. -/
def lastOp (X : FVec Ideal S64x512 .f32) (h0 h1 h2 h3 : FVec Ideal S100000 .f32) : FVec Ideal S64x516 .f32 :=
  cat2 X (readHOf gid h0 h1 h2 h3)

/-- The four layers' vectors side by side. -/
def colsOp : FVec Ideal S100000x4 .f32 :=
  cat4 (colOf (L0 P src dst b0)) (colOf (L1 P src dst b0 wnr wsr br)) (colOf (L2 P src dst b0 wnr wsr br))
    (colOf (L3 P src dst b0 wnr wsr br))

/-- The per-graph sums of the four layers' vectors. -/
def readH : FVec Ideal S64x4 .f32 :=
  readHOf gid (L0 P src dst b0) (L1 P src dst b0 wnr wsr br) (L2 P src dst b0 wnr wsr br) (L3 P src dst b0 wnr wsr br)

/-- The readout array summed over its 25 blocks. -/
def readX : FVec Ideal S64x512 .f32 :=
  Host.reduceAdd (F := Ideal) R (constant (F := Ideal) S_ .f32 0x00000000#32) reducesTo_S25x64x512_S64x512_d0 h_S_

/-- The result array: the feature sums, then the four layers' sums. -/
def resultOp : FVec Ideal S64x516 .f32 :=
  lastOp gid (readX R) (L0 P src dst b0) (L1 P src dst b0 wnr wsr br) (L2 P src dst b0 wnr wsr br) (L3 P src dst b0 wnr wsr br)

end Stages

/-! ## The operations read at an index -/

section Reads

variable (P : FVec Ideal S100000x2 .f32) (R : FVec Ideal S25x64x512 .f32)
  (src dst : IVec S3200000 32) (gid : IVec S100000 32) (b0 : FVec Ideal S1 .f32)
  (wnr wsr : FVec Ideal S3x1x1 .f32) (br : FVec Ideal S3x1 .f32)

theorem srcIdx_apply (e : Fin 3200000) : srcIdx src (ix2 e 0) = Cert.GraphSpec.srcWord (src (ix1 e)) := by
  unfold srcIdx
  refine (broadcastInDim_apply _ _ _ (ix2 e 0) (ix1 e) (fun a => match a with | ⟨0, _⟩ => rfl)).trans ?_
  rw [select_apply]
  unfold Cert.GraphSpec.srcWord
  show Scalar.select (IntOp.cmpi .slt (src (ix1 e)) (broadcastInDim S3200000 ![] bcast_S_S3200000 (constantI S_ 32 0#32) (ix1 e)))
      (IntOp.addi (src (ix1 e)) (broadcastInDim S3200000 ![] bcast_S_S3200000 (constantI S_ 32 100000#32) (ix1 e))) (src (ix1 e)) = _
  rw [broadcastInDim_scalar_apply, broadcastInDim_scalar_apply]
  rfl

theorem dstIdx_apply (e : Fin 3200000) : dstIdx dst (ix2 e 0) = dst (ix1 e) := by
  unfold dstIdx
  exact broadcastInDim_apply _ _ _ (ix2 e 0) (ix1 e) (fun a => match a with | ⟨0, _⟩ => rfl)

theorem zerosN_apply (n : Fin 100000) : zerosN (ix1 n) = 0 := by
  unfold zerosN
  rw [broadcastInDim_scalar_apply, constant_apply, Ideal.ofBits_zero_f32]

theorem splatN_apply (a : FVec Ideal S_ .f32) (n : Fin 100000) : splatN a (ix1 n) = a ix0 := by
  unfold splatN
  rw [broadcastInDim_scalar_apply]

theorem msgOp_apply (v : FVec Ideal S100000 .f32) (n : Fin 100000) :
    msgOp src dst v (ix1 n)
      = ∑ e ∈ Finset.univ.filter (fun e : Fin 3200000 => (dst (ix1 e)).toInt = (n.val : ℤ)),
          v (ix1 (Cert.GraphSpec.srcNode (src (ix1 e)))) := by
  unfold msgOp
  rw [Cert.GraphSpec.scatterAdd_vec _ rfl rfl rfl rfl, zerosN_apply, zero_add]
  refine Finset.sum_congr (Finset.filter_congr fun e _ => by rw [dstIdx_apply]) (fun e _ => ?_)
  rw [Cert.GraphSpec.gather_vec _ rfl rfl rfl rfl v (srcIdx src) e (by decide)]
  unfold Cert.GraphSpec.srcNode
  congr 2
  apply Fin.ext
  show min (srcIdx src (ix2 e 0)).toInt.toNat (100000 - 1) = min (Cert.GraphSpec.srcWord (src (ix1 e))).toInt.toNat (100000 - 1)
  rw [srcIdx_apply]

theorem reluOp_apply (v : FVec Ideal S100000 .f32) (n : Fin 100000) : reluOp v (ix1 n) = max (v (ix1 n)) 0 := by
  unfold reluOp
  rw [maximumf_apply, zerosN_apply]

theorem colP0_apply (n : Fin 100000) : colP0 P (ix1 n) = P (ix2 n 0) := by
  unfold colP0
  refine (shapeCast_apply _ _ (ix1 n) (ix2 n 0) ?_).trans ?_
  · rw [Shape.rowMajor_val_two, Shape.rowMajor_val_one]
    show n.val * 1 + 0 = n.val
    omega
  · exact extractStridedSlice_apply _ _ _ (ix2 n 0) (ix2 n 0) (fun a => match a with
      | ⟨0, _⟩ => by show n.val = 0 + n.val; omega
      | ⟨1, _⟩ => rfl)

theorem colP1_apply (n : Fin 100000) : colP1 P (ix1 n) = P (ix2 n 1) := by
  unfold colP1
  refine (shapeCast_apply _ _ (ix1 n) (ix2 n 0) ?_).trans ?_
  · rw [Shape.rowMajor_val_two, Shape.rowMajor_val_one]
    show n.val * 1 + 0 = n.val
    omega
  · exact extractStridedSlice_apply _ _ _ (ix2 n 0) (ix2 n 1) (fun a => match a with
      | ⟨0, _⟩ => by show n.val = 0 + n.val; omega
      | ⟨1, _⟩ => rfl)

theorem b0s_apply : shapeCast S_ b0 shapeCasts_S1_S_ ix0 = b0 (ix1 0) := by
  refine shapeCast_apply _ _ ix0 (ix1 0) ?_
  have h1 : (S1.rowMajor (ix1 0)).val = 0 := Nat.lt_one_iff.mp (S1.rowMajor (ix1 0)).isLt
  have h2 : (S_.rowMajor ix0).val = 0 := Nat.lt_one_iff.mp (S_.rowMajor ix0).isLt
  exact h1.trans h2.symm

theorem layer0Op_apply (n : Fin 100000) :
    layer0Op P src dst b0 (ix1 n)
      = max (((∑ e ∈ Finset.univ.filter (fun e : Fin 3200000 => (dst (ix1 e)).toInt = (n.val : ℤ)),
          P (ix2 (Cert.GraphSpec.srcNode (src (ix1 e))) 0)) + b0 (ix1 0)) + P (ix2 n 1)) 0 := by
  unfold layer0Op pre0
  rw [reluOp_apply, addf_apply, addf_apply, msgOp_apply, splatN_apply, b0s_apply, colP1_apply]
  simp only [colP0_apply]

theorem layerOp_apply (a s bb : FVec Ideal S_ .f32) (h : FVec Ideal S100000 .f32) (n : Fin 100000) :
    layerOp src dst a s bb h (ix1 n)
      = max (((∑ e ∈ Finset.univ.filter (fun e : Fin 3200000 => (dst (ix1 e)).toInt = (n.val : ℤ)),
          h (ix1 (Cert.GraphSpec.srcNode (src (ix1 e)))) * a ix0) + bb ix0) + h (ix1 n) * s ix0) 0 := by
  unfold layerOp preL
  rw [reluOp_apply, addf_apply, addf_apply, msgOp_apply, splatN_apply, mulf_apply, splatN_apply]
  simp only [mulf_apply, splatN_apply]

end Reads

/-! ## The stages against the specification -/

section Spec

theorem w3_0_apply (w : FVec Ideal S3x1x1 .f32) : w3_0 w ix0 = w (ix3 0 0 0) := by
  unfold w3_0
  refine (shapeCast_apply _ _ ix0 (ix3 0 0 0 : S1x1x1.Idx) ?_).trans ?_
  · have h1 : (S1x1x1.rowMajor (ix3 0 0 0)).val = 0 := Nat.lt_one_iff.mp (S1x1x1.rowMajor (ix3 0 0 0)).isLt
    have h2 : (S_.rowMajor ix0).val = 0 := Nat.lt_one_iff.mp (S_.rowMajor ix0).isLt
    exact h1.trans h2.symm
  · exact extractStridedSlice_apply _ _ _ (ix3 0 0 0 : S1x1x1.Idx) (ix3 0 0 0 : S3x1x1.Idx)
      (fun a => match a with | ⟨0, _⟩ => rfl | ⟨1, _⟩ => rfl | ⟨2, _⟩ => rfl)

theorem w3_1_apply (w : FVec Ideal S3x1x1 .f32) : w3_1 w ix0 = w (ix3 1 0 0) := by
  unfold w3_1
  refine (shapeCast_apply _ _ ix0 (ix3 0 0 0 : S1x1x1.Idx) ?_).trans ?_
  · have h1 : (S1x1x1.rowMajor (ix3 0 0 0)).val = 0 := Nat.lt_one_iff.mp (S1x1x1.rowMajor (ix3 0 0 0)).isLt
    have h2 : (S_.rowMajor ix0).val = 0 := Nat.lt_one_iff.mp (S_.rowMajor ix0).isLt
    exact h1.trans h2.symm
  · exact extractStridedSlice_apply _ _ _ (ix3 0 0 0 : S1x1x1.Idx) (ix3 1 0 0 : S3x1x1.Idx)
      (fun a => match a with | ⟨0, _⟩ => rfl | ⟨1, _⟩ => rfl | ⟨2, _⟩ => rfl)

theorem w3_2_apply (w : FVec Ideal S3x1x1 .f32) : w3_2 w ix0 = w (ix3 2 0 0) := by
  unfold w3_2
  refine (shapeCast_apply _ _ ix0 (ix3 0 0 0 : S1x1x1.Idx) ?_).trans ?_
  · have h1 : (S1x1x1.rowMajor (ix3 0 0 0)).val = 0 := Nat.lt_one_iff.mp (S1x1x1.rowMajor (ix3 0 0 0)).isLt
    have h2 : (S_.rowMajor ix0).val = 0 := Nat.lt_one_iff.mp (S_.rowMajor ix0).isLt
    exact h1.trans h2.symm
  · exact extractStridedSlice_apply _ _ _ (ix3 0 0 0 : S1x1x1.Idx) (ix3 2 0 0 : S3x1x1.Idx)
      (fun a => match a with | ⟨0, _⟩ => rfl | ⟨1, _⟩ => rfl | ⟨2, _⟩ => rfl)

theorem b2_0_apply (w : FVec Ideal S3x1 .f32) : b2_0 w ix0 = w (ix2 0 0) := by
  unfold b2_0
  refine (shapeCast_apply _ _ ix0 (ix2 0 0 : S1x1.Idx) ?_).trans ?_
  · have h1 : (S1x1.rowMajor (ix2 0 0)).val = 0 := Nat.lt_one_iff.mp (S1x1.rowMajor (ix2 0 0)).isLt
    have h2 : (S_.rowMajor ix0).val = 0 := Nat.lt_one_iff.mp (S_.rowMajor ix0).isLt
    exact h1.trans h2.symm
  · exact extractStridedSlice_apply _ _ _ (ix2 0 0 : S1x1.Idx) (ix2 0 0 : S3x1.Idx)
      (fun a => match a with | ⟨0, _⟩ => rfl | ⟨1, _⟩ => rfl)

theorem b2_1_apply (w : FVec Ideal S3x1 .f32) : b2_1 w ix0 = w (ix2 1 0) := by
  unfold b2_1
  refine (shapeCast_apply _ _ ix0 (ix2 0 0 : S1x1.Idx) ?_).trans ?_
  · have h1 : (S1x1.rowMajor (ix2 0 0)).val = 0 := Nat.lt_one_iff.mp (S1x1.rowMajor (ix2 0 0)).isLt
    have h2 : (S_.rowMajor ix0).val = 0 := Nat.lt_one_iff.mp (S_.rowMajor ix0).isLt
    exact h1.trans h2.symm
  · exact extractStridedSlice_apply _ _ _ (ix2 0 0 : S1x1.Idx) (ix2 1 0 : S3x1.Idx)
      (fun a => match a with | ⟨0, _⟩ => rfl | ⟨1, _⟩ => rfl)

theorem b2_2_apply (w : FVec Ideal S3x1 .f32) : b2_2 w ix0 = w (ix2 2 0) := by
  unfold b2_2
  refine (shapeCast_apply _ _ ix0 (ix2 0 0 : S1x1.Idx) ?_).trans ?_
  · have h1 : (S1x1.rowMajor (ix2 0 0)).val = 0 := Nat.lt_one_iff.mp (S1x1.rowMajor (ix2 0 0)).isLt
    have h2 : (S_.rowMajor ix0).val = 0 := Nat.lt_one_iff.mp (S_.rowMajor ix0).isLt
    exact h1.trans h2.symm
  · exact extractStridedSlice_apply _ _ _ (ix2 0 0 : S1x1.Idx) (ix2 2 0 : S3x1.Idx)
      (fun a => match a with | ⟨0, _⟩ => rfl | ⟨1, _⟩ => rfl)

/-- A later layer is the specification's, given what its input vector and its three scalars are. -/
theorem layerOp_spec (src dst : IVec S3200000 32) (wnr wsr : FVec Ideal S3x1x1 .f32) (br : FVec Ideal S3x1 .f32) (k : Fin 3)
    (a s bb : FVec Ideal S_ .f32) (h : FVec Ideal S100000 .f32) (hs : Fin 100000 → EReal)
    (hh : ∀ j, h (ix1 j) = hs j) (ha : a ix0 = wnr (ix3 k 0 0)) (hs' : s ix0 = wsr (ix3 k 0 0)) (hb : bb ix0 = br (ix2 k 0))
    (n : Fin 100000) :
    layerOp src dst a s bb h (ix1 n) = Cert.GraphSpec.layer src dst wnr wsr br k hs n := by
  unfold Cert.GraphSpec.layer Cert.GraphSpec.msg
  rw [layerOp_apply]
  simp only [hh, ha, hs', hb]

variable (x : FVec Ideal S100000x512 .f32) (P : FVec Ideal S100000x2 .f32) (R : FVec Ideal S25x64x512 .f32)
  (src dst : IVec S3200000 32) (gid : IVec S100000 32) (wn ws : FVec Ideal S512x1 .f32) (b0 : FVec Ideal S1 .f32)
  (wnr wsr : FVec Ideal S3x1x1 .f32) (br : FVec Ideal S3x1 .f32)
  (hP0 : ∀ n, P (ix2 n 0) = Cert.GraphSpec.proj x wn n) (hP1 : ∀ n, P (ix2 n 1) = Cert.GraphSpec.proj x ws n)

include hP0 hP1

theorem L0_spec (n : Fin 100000) : L0 P src dst b0 (ix1 n) = Cert.GraphSpec.h0 x src dst wn ws b0 n := by
  unfold L0 Cert.GraphSpec.h0 Cert.GraphSpec.msg
  rw [layer0Op_apply, hP1]
  simp only [hP0]

theorem L1_spec (n : Fin 100000) :
    L1 P src dst b0 wnr wsr br (ix1 n) = Cert.GraphSpec.h1 x src dst wn ws b0 wnr wsr br n := by
  unfold L1 Cert.GraphSpec.h1
  exact layerOp_spec src dst wnr wsr br 0 _ _ _ _ _ (L0_spec x P src dst wn ws b0 hP0 hP1)
    (w3_0_apply wnr) (w3_0_apply wsr) (b2_0_apply br) n

theorem L2_spec (n : Fin 100000) :
    L2 P src dst b0 wnr wsr br (ix1 n) = Cert.GraphSpec.h2 x src dst wn ws b0 wnr wsr br n := by
  unfold L2 Cert.GraphSpec.h2
  exact layerOp_spec src dst wnr wsr br 1 _ _ _ _ _ (L1_spec x P src dst wn ws b0 wnr wsr br hP0 hP1)
    (w3_1_apply wnr) (w3_1_apply wsr) (b2_1_apply br) n

theorem L3_spec (n : Fin 100000) :
    L3 P src dst b0 wnr wsr br (ix1 n) = Cert.GraphSpec.h3 x src dst wn ws b0 wnr wsr br n := by
  unfold L3 Cert.GraphSpec.h3
  exact layerOp_spec src dst wnr wsr br 2 _ _ _ _ _ (L2_spec x P src dst wn ws b0 wnr wsr br hP0 hP1)
    (w3_2_apply wnr) (w3_2_apply wsr) (b2_2_apply br) n

omit hP0 hP1 in
theorem colOf_apply (v : FVec Ideal S100000 .f32) (n : Fin 100000) : colOf v (ix2 n 0) = v (ix1 n) := by
  unfold colOf
  exact broadcastInDim_apply _ _ _ (ix2 n 0) (ix1 n) (fun a => match a with | ⟨0, _⟩ => rfl)

omit hP0 hP1 in
/-- Four columns side by side, read at row `n`, column `k`: column `k`'s entry at row `n`. -/
theorem cols4_apply (a0 a1 a2 a3 : FVec Ideal S100000x1 .f32) (n : Fin 100000) :
    (concatenate S100000x4 1 [⟨S100000x1, a0⟩, ⟨S100000x1, a1⟩, ⟨S100000x1, a2⟩, ⟨S100000x1, a3⟩]
        concatenates_S100000x1_S100000x1_S100000x1_S100000x1_S100000x4_d1 (ix2 n 0) = a0 (ix2 n 0))
    ∧ (concatenate S100000x4 1 [⟨S100000x1, a0⟩, ⟨S100000x1, a1⟩, ⟨S100000x1, a2⟩, ⟨S100000x1, a3⟩]
        concatenates_S100000x1_S100000x1_S100000x1_S100000x1_S100000x4_d1 (ix2 n 1) = a1 (ix2 n 0))
    ∧ (concatenate S100000x4 1 [⟨S100000x1, a0⟩, ⟨S100000x1, a1⟩, ⟨S100000x1, a2⟩, ⟨S100000x1, a3⟩]
        concatenates_S100000x1_S100000x1_S100000x1_S100000x1_S100000x4_d1 (ix2 n 2) = a2 (ix2 n 0))
    ∧ (concatenate S100000x4 1 [⟨S100000x1, a0⟩, ⟨S100000x1, a1⟩, ⟨S100000x1, a2⟩, ⟨S100000x1, a3⟩]
        concatenates_S100000x1_S100000x1_S100000x1_S100000x1_S100000x4_d1 (ix2 n 3) = a3 (ix2 n 0)) := by
  refine ⟨?_, ?_, ?_, ?_⟩
  · exact concatenate_apply_piece (1 : Fin S100000x4.rank) [⟨S100000x1, a0⟩, ⟨S100000x1, a1⟩, ⟨S100000x1, a2⟩, ⟨S100000x1, a3⟩] concatenates_S100000x1_S100000x1_S100000x1_S100000x1_S100000x4_d1 (ix2 n 0) 0 (by show (0 : ℕ) < 4; decide) S100000x1 a0 rfl rfl 0 rfl (ix2 n 0)
      (fun b => match b with | ⟨0, _⟩ => fun _ => rfl | ⟨1, _⟩ => fun hb => absurd (Fin.ext rfl) hb) rfl
  · exact concatenate_apply_piece (1 : Fin S100000x4.rank) [⟨S100000x1, a0⟩, ⟨S100000x1, a1⟩, ⟨S100000x1, a2⟩, ⟨S100000x1, a3⟩] concatenates_S100000x1_S100000x1_S100000x1_S100000x1_S100000x4_d1 (ix2 n 1) 1 (by show (1 : ℕ) < 4; decide) S100000x1 a1 rfl rfl 1 rfl (ix2 n 0)
      (fun b => match b with | ⟨0, _⟩ => fun _ => rfl | ⟨1, _⟩ => fun hb => absurd (Fin.ext rfl) hb) rfl
  · exact concatenate_apply_piece (1 : Fin S100000x4.rank) [⟨S100000x1, a0⟩, ⟨S100000x1, a1⟩, ⟨S100000x1, a2⟩, ⟨S100000x1, a3⟩] concatenates_S100000x1_S100000x1_S100000x1_S100000x1_S100000x4_d1 (ix2 n 2) 2 (by show (2 : ℕ) < 4; decide) S100000x1 a2 rfl rfl 2 rfl (ix2 n 0)
      (fun b => match b with | ⟨0, _⟩ => fun _ => rfl | ⟨1, _⟩ => fun hb => absurd (Fin.ext rfl) hb) rfl
  · exact concatenate_apply_piece (1 : Fin S100000x4.rank) [⟨S100000x1, a0⟩, ⟨S100000x1, a1⟩, ⟨S100000x1, a2⟩, ⟨S100000x1, a3⟩] concatenates_S100000x1_S100000x1_S100000x1_S100000x1_S100000x4_d1 (ix2 n 3) 3 (by show (3 : ℕ) < 4; decide) S100000x1 a3 rfl rfl 3 rfl (ix2 n 0)
      (fun b => match b with | ⟨0, _⟩ => fun _ => rfl | ⟨1, _⟩ => fun hb => absurd (Fin.ext rfl) hb) rfl

theorem colsOp_spec (n : Fin 100000) (l : Fin 4) :
    colsOp P src dst b0 wnr wsr br (ix2 n l) = Cert.GraphSpec.hcol x src dst wn ws b0 wnr wsr br l n := by
  unfold colsOp cat4
  match l with
  | ⟨0, _⟩ => exact ((cols4_apply _ _ _ _ n).1.trans (colOf_apply _ n)).trans (L0_spec x P src dst wn ws b0 hP0 hP1 n)
  | ⟨1, _⟩ => exact ((cols4_apply _ _ _ _ n).2.1.trans (colOf_apply _ n)).trans (L1_spec x P src dst wn ws b0 wnr wsr br hP0 hP1 n)
  | ⟨2, _⟩ => exact ((cols4_apply _ _ _ _ n).2.2.1.trans (colOf_apply _ n)).trans (L2_spec x P src dst wn ws b0 wnr wsr br hP0 hP1 n)
  | ⟨3, _⟩ => exact ((cols4_apply _ _ _ _ n).2.2.2.trans (colOf_apply _ n)).trans (L3_spec x P src dst wn ws b0 wnr wsr br hP0 hP1 n)

theorem readH_spec (g : Fin 64) (l : Fin 4) :
    readH P src dst gid b0 wnr wsr br (ix2 g l)
      = Cert.GraphSpec.gsum gid (Cert.GraphSpec.hcol x src dst wn ws b0 wnr wsr br l) g := by
  unfold readH readHOf Cert.GraphSpec.gsum
  show Host.scatterAdd (F := Ideal) scatter_S64x4_S100000x1_S100000x4_1_0_0_1 _ _ (colsOp P src dst b0 wnr wsr br) (ix2 g l) = _
  rw [Cert.GraphSpec.scatterAdd_rows _ rfl rfl rfl rfl, broadcastInDim_scalar_apply, constant_apply, Ideal.ofBits_zero_f32, zero_add]
  refine Finset.sum_congr (Finset.filter_congr fun n _ => ?_) (fun n _ => colsOp_spec x P src dst wn ws b0 wnr wsr br hP0 hP1 n l)
  rw [broadcastInDim_apply _ _ _ (ix2 n 0) (ix1 n) (fun a => match a with | ⟨0, _⟩ => rfl)]

omit hP0 hP1 in
theorem readX_apply (g : Fin 64) (f : Fin 512) : readX R (ix2 g f) = ∑ t : Fin 25, R (ix3 t g f) := by
  unfold readX
  rw [hostReduceAdd_apply,
    Ideal.hostReduceAdd_single reducesTo_S25x64x512_S64x512_d0 (by decide : S25x64x512.Reduces [0] S64x512),
    constant_apply, Ideal.ofBits_zero_f32, zero_add]
  refine Finset.sum_congr rfl (fun t _ => congrArg R ?_)
  funext a
  match a with
  | ⟨0, _⟩ => exact Fin.ext rfl
  | ⟨1, _⟩ => exact Fin.ext rfl
  | ⟨2, _⟩ => exact Fin.ext rfl

omit hP0 hP1 in
/-- The result's join read left of column 512 … -/
theorem result_left (A : FVec Ideal S64x512 .f32) (B : FVec Ideal S64x4 .f32) (g : Fin 64) (f : Fin 516) (h : f.val < 512) :
    concatenate S64x516 1 [⟨S64x512, A⟩, ⟨S64x4, B⟩] concatenates_S64x512_S64x4_S64x516_d1 (ix2 g f)
      = A (ix2 g (⟨f.val, h⟩ : Fin 512)) :=
  concatenate_pair_apply_left (1 : Fin S64x516.rank) A B concatenates_S64x512_S64x4_S64x516_d1 (ix2 g f) rfl
    (ix2 g (⟨f.val, h⟩ : Fin 512)) (fun b => match b with | ⟨0, _⟩ => rfl | ⟨1, _⟩ => rfl)

omit hP0 hP1 in
/-- … and from column 512 on. -/
theorem result_right (A : FVec Ideal S64x512 .f32) (B : FVec Ideal S64x4 .f32) (g : Fin 64) (f : Fin 516) (h : ¬ f.val < 512) :
    concatenate S64x516 1 [⟨S64x512, A⟩, ⟨S64x4, B⟩] concatenates_S64x512_S64x4_S64x516_d1 (ix2 g f)
      = B (ix2 g (⟨f.val - 512, by have := f.isLt; omega⟩ : Fin 4)) :=
  concatenate_pair_apply_right (1 : Fin S64x516.rank) A B concatenates_S64x512_S64x4_S64x516_d1 (ix2 g f) rfl rfl
    (ix2 g (⟨f.val - 512, by have := f.isLt; omega⟩ : Fin 4))
    (fun b => match b with | ⟨0, _⟩ => fun _ => rfl | ⟨1, _⟩ => fun hb => absurd (Fin.ext rfl) hb)
    (by show f.val - 512 + 512 = f.val; omega)

theorem resultOp_spec
    (hR : ∀ (g : Fin 64) (f : Fin 512), ∑ t : Fin 25, R (ix3 t g f) = Cert.GraphSpec.gsum gid (fun n => x (ix2 n f)) g) :
    resultOp P R src dst gid b0 wnr wsr br = Cert.GraphSpec.out x src dst gid wn ws b0 wnr wsr br := by
  funext i
  obtain ⟨g, f, rfl⟩ : ∃ (g : Fin 64) (f : Fin 516), i = ix2 g f := ⟨i 0, i 1, eq_ix2 i⟩
  unfold resultOp lastOp cat2 Cert.GraphSpec.out
  by_cases h : f.val < 512
  · have hc : ((ix2 g f : S64x516.Idx) 1).val < 512 := h
    rw [dif_pos hc]
    rw [result_left _ _ g f h, readX_apply, hR]
  · have hc : ¬ ((ix2 g f : S64x516.Idx) 1).val < 512 := h
    rw [dif_neg hc]
    rw [result_right _ _ g f h]
    exact readH_spec x P src dst gid wn ws b0 wnr wsr br hP0 hP1 g _

end Spec

/-! ## The tail stretch by stretch, from any contents -/

section Stretches

variable (W : Valuation τ sig (Elt Ideal))

/-- Stretch 1 leaves the buffers later stretches still read as it finds them. -/
theorem keep1 (b : Ref sig .tc) (hb : b ∈ ([main_arg1, main_arg2, main_arg3, main_arg7, main_arg8, main_arg9] : List (Ref sig .tc))) :
    StableHlo.after (hostOps1 : List (HloOp τ sig (Elt Ideal))) W (Proc.devRef .tc b) = W (Proc.devRef .tc b) :=
  StableHlo.after_of_forall_not_mem (b := Proc.devRef .tc b) _ _ (List.forall_iff_forall_mem.mp (by
    simp only [hostOps1, StableHlo.TRef.nullary, StableHlo.TRef.unary, StableHlo.TRef.binary]
    simp only [List.Forall, StableHlo.nullary_writes, StableHlo.unary_writes, StableHlo.binary_writes,
      StableHlo.ternary_writes, StableHlo.reshape_writes, StableHlo.nary_writes, Finset.mem_singleton]
    repeat' apply And.intro
    all_goals exact StableHlo.devRef_ne_of_ne (ne_of_mem_of_not_mem hb (by decide))))

/-- Stretch 2 leaves the buffers later stretches still read as it finds them. -/
theorem keep2 (b : Ref sig .tc) (hb : b ∈ ([main_arg1, main_arg2, main_arg3, main_arg7, main_arg8, main_arg9, main_v3] : List (Ref sig .tc))) :
    StableHlo.after (hostOps1_1 : List (HloOp τ sig (Elt Ideal))) W (Proc.devRef .tc b) = W (Proc.devRef .tc b) :=
  StableHlo.after_of_forall_not_mem (b := Proc.devRef .tc b) _ _ (List.forall_iff_forall_mem.mp (by
    simp only [hostOps1_1, StableHlo.TRef.nullary, StableHlo.TRef.unary, StableHlo.TRef.binary]
    simp only [List.Forall, StableHlo.nullary_writes, StableHlo.unary_writes, StableHlo.binary_writes,
      StableHlo.ternary_writes, StableHlo.reshape_writes, StableHlo.nary_writes, Finset.mem_singleton]
    repeat' apply And.intro
    all_goals exact StableHlo.devRef_ne_of_ne (ne_of_mem_of_not_mem hb (by decide))))

/-- Stretch 3 leaves the buffers later stretches still read as it finds them. -/
theorem keep3 (b : Ref sig .tc) (hb : b ∈ ([main_arg1, main_arg2, main_arg3, main_arg7, main_arg8, main_arg9, main_v3, main_v22] : List (Ref sig .tc))) :
    StableHlo.after (hostOps1_2 : List (HloOp τ sig (Elt Ideal))) W (Proc.devRef .tc b) = W (Proc.devRef .tc b) :=
  StableHlo.after_of_forall_not_mem (b := Proc.devRef .tc b) _ _ (List.forall_iff_forall_mem.mp (by
    simp only [hostOps1_2, StableHlo.TRef.nullary, StableHlo.TRef.unary, StableHlo.TRef.binary]
    simp only [List.Forall, StableHlo.nullary_writes, StableHlo.unary_writes, StableHlo.binary_writes,
      StableHlo.ternary_writes, StableHlo.reshape_writes, StableHlo.nary_writes, Finset.mem_singleton]
    repeat' apply And.intro
    all_goals exact StableHlo.devRef_ne_of_ne (ne_of_mem_of_not_mem hb (by decide))))

/-- Stretch 4 leaves the buffers later stretches still read as it finds them. -/
theorem keep4 (b : Ref sig .tc) (hb : b ∈ ([main_arg1, main_arg2, main_arg3, main_arg7, main_arg8, main_arg9, main_v3, main_v22] : List (Ref sig .tc))) :
    StableHlo.after (hostOps1_3 : List (HloOp τ sig (Elt Ideal))) W (Proc.devRef .tc b) = W (Proc.devRef .tc b) :=
  StableHlo.after_of_forall_not_mem (b := Proc.devRef .tc b) _ _ (List.forall_iff_forall_mem.mp (by
    simp only [hostOps1_3, StableHlo.TRef.nullary, StableHlo.TRef.unary, StableHlo.TRef.binary]
    simp only [List.Forall, StableHlo.nullary_writes, StableHlo.unary_writes, StableHlo.binary_writes,
      StableHlo.ternary_writes, StableHlo.reshape_writes, StableHlo.nary_writes, Finset.mem_singleton]
    repeat' apply And.intro
    all_goals exact StableHlo.devRef_ne_of_ne (ne_of_mem_of_not_mem hb (by decide))))

/-- Stretch 5 leaves the buffers later stretches still read as it finds them. -/
theorem keep5 (b : Ref sig .tc) (hb : b ∈ ([main_arg1, main_arg2, main_arg3, main_arg7, main_arg8, main_arg9, main_v3, main_v22, main_v46] : List (Ref sig .tc))) :
    StableHlo.after (hostOps1_4 : List (HloOp τ sig (Elt Ideal))) W (Proc.devRef .tc b) = W (Proc.devRef .tc b) :=
  StableHlo.after_of_forall_not_mem (b := Proc.devRef .tc b) _ _ (List.forall_iff_forall_mem.mp (by
    simp only [hostOps1_4, StableHlo.TRef.nullary, StableHlo.TRef.unary, StableHlo.TRef.binary]
    simp only [List.Forall, StableHlo.nullary_writes, StableHlo.unary_writes, StableHlo.binary_writes,
      StableHlo.ternary_writes, StableHlo.reshape_writes, StableHlo.nary_writes, Finset.mem_singleton]
    repeat' apply And.intro
    all_goals exact StableHlo.devRef_ne_of_ne (ne_of_mem_of_not_mem hb (by decide))))

/-- Stretch 6 leaves the buffers later stretches still read as it finds them. -/
theorem keep6 (b : Ref sig .tc) (hb : b ∈ ([main_arg1, main_arg2, main_arg3, main_arg7, main_arg8, main_arg9, main_v3, main_v22, main_v46] : List (Ref sig .tc))) :
    StableHlo.after (hostOps1_5 : List (HloOp τ sig (Elt Ideal))) W (Proc.devRef .tc b) = W (Proc.devRef .tc b) :=
  StableHlo.after_of_forall_not_mem (b := Proc.devRef .tc b) _ _ (List.forall_iff_forall_mem.mp (by
    simp only [hostOps1_5, StableHlo.TRef.nullary, StableHlo.TRef.unary, StableHlo.TRef.binary]
    simp only [List.Forall, StableHlo.nullary_writes, StableHlo.unary_writes, StableHlo.binary_writes,
      StableHlo.ternary_writes, StableHlo.reshape_writes, StableHlo.nary_writes, Finset.mem_singleton]
    repeat' apply And.intro
    all_goals exact StableHlo.devRef_ne_of_ne (ne_of_mem_of_not_mem hb (by decide))))

/-- Stretch 7 leaves the buffers later stretches still read as it finds them. -/
theorem keep7 (b : Ref sig .tc) (hb : b ∈ ([main_arg1, main_arg2, main_arg3, main_arg7, main_arg8, main_arg9, main_v3, main_v22, main_v46, main_v70] : List (Ref sig .tc))) :
    StableHlo.after (hostOps1_6 : List (HloOp τ sig (Elt Ideal))) W (Proc.devRef .tc b) = W (Proc.devRef .tc b) :=
  StableHlo.after_of_forall_not_mem (b := Proc.devRef .tc b) _ _ (List.forall_iff_forall_mem.mp (by
    simp only [hostOps1_6, StableHlo.TRef.nullary, StableHlo.TRef.unary, StableHlo.TRef.binary]
    simp only [List.Forall, StableHlo.nullary_writes, StableHlo.unary_writes, StableHlo.binary_writes,
      StableHlo.ternary_writes, StableHlo.reshape_writes, StableHlo.nary_writes, Finset.mem_singleton]
    repeat' apply And.intro
    all_goals exact StableHlo.devRef_ne_of_ne (ne_of_mem_of_not_mem hb (by decide))))

/-- Stretch 8 leaves the buffers later stretches still read as it finds them. -/
theorem keep8 (b : Ref sig .tc) (hb : b ∈ ([main_arg1, main_arg2, main_arg3, main_arg7, main_arg8, main_arg9, main_v3, main_v22, main_v46, main_v70] : List (Ref sig .tc))) :
    StableHlo.after (hostOps1_7 : List (HloOp τ sig (Elt Ideal))) W (Proc.devRef .tc b) = W (Proc.devRef .tc b) :=
  StableHlo.after_of_forall_not_mem (b := Proc.devRef .tc b) _ _ (List.forall_iff_forall_mem.mp (by
    simp only [hostOps1_7, StableHlo.TRef.nullary, StableHlo.TRef.unary, StableHlo.TRef.binary]
    simp only [List.Forall, StableHlo.nullary_writes, StableHlo.unary_writes, StableHlo.binary_writes,
      StableHlo.ternary_writes, StableHlo.reshape_writes, StableHlo.nary_writes, Finset.mem_singleton]
    repeat' apply And.intro
    all_goals exact StableHlo.devRef_ne_of_ne (ne_of_mem_of_not_mem hb (by decide))))

/-- Stretch 1: the block sum of the readout array, and layer 0 before its positive part. -/
theorem s1_v3 :
    (StableHlo.after (hostOps1 : List (HloOp τ sig (Elt Ideal))) W (Proc.devRef .tc main_v3) : FVec Ideal S64x512 .f32)
      = readX (W (Proc.devRef .tc main_v2_1)) := by
  simp only [hostOps1]
  simp (disch := decide) only [StableHlo.after_cons, StableHlo.after_nil,
      StableHlo.nullary_result', StableHlo.unary_result', StableHlo.binary_result', StableHlo.ternary_result',
      StableHlo.reshape_result', StableHlo.nary_result',
      StableHlo.nullary_result_ne', StableHlo.unary_result_ne', StableHlo.binary_result_ne', StableHlo.ternary_result_ne',
      StableHlo.reshape_result_ne', StableHlo.nary_result_ne', Matrix.cons_val]
  rfl

theorem s1_v21 :
    (StableHlo.after (hostOps1 : List (HloOp τ sig (Elt Ideal))) W (Proc.devRef .tc main_v21) : FVec Ideal S100000 .f32)
      = pre0 (W (Proc.devRef .tc main_v2_0)) (W (Proc.devRef .tc main_arg1)) (W (Proc.devRef .tc main_arg2)) (W (Proc.devRef .tc main_arg6)) := by
  simp only [hostOps1]
  simp (disch := decide) only [StableHlo.after_cons, StableHlo.after_nil,
      StableHlo.nullary_result', StableHlo.unary_result', StableHlo.binary_result', StableHlo.ternary_result',
      StableHlo.reshape_result', StableHlo.nary_result',
      StableHlo.nullary_result_ne', StableHlo.unary_result_ne', StableHlo.binary_result_ne', StableHlo.ternary_result_ne',
      StableHlo.reshape_result_ne', StableHlo.nary_result_ne', Matrix.cons_val]
  rfl

/-- Stretches 2, 4, 6, 8: the positive part. -/
theorem s2_v22 :
    (StableHlo.after (hostOps1_1 : List (HloOp τ sig (Elt Ideal))) W (Proc.devRef .tc main_v22) : FVec Ideal S100000 .f32)
      = reluOp (W (Proc.devRef .tc main_v21)) := by
  simp only [hostOps1_1, StableHlo.TRef.nullary, StableHlo.TRef.unary, StableHlo.TRef.binary]
  simp (disch := decide) only [StableHlo.after_cons, StableHlo.after_nil,
      StableHlo.nullary_result', StableHlo.unary_result', StableHlo.binary_result', StableHlo.ternary_result',
      StableHlo.reshape_result', StableHlo.nary_result',
      StableHlo.nullary_result_ne', StableHlo.unary_result_ne', StableHlo.binary_result_ne', StableHlo.ternary_result_ne',
      StableHlo.reshape_result_ne', StableHlo.nary_result_ne', Matrix.cons_val]
  rfl

theorem s4_v46 :
    (StableHlo.after (hostOps1_3 : List (HloOp τ sig (Elt Ideal))) W (Proc.devRef .tc main_v46) : FVec Ideal S100000 .f32)
      = reluOp (W (Proc.devRef .tc main_v45)) := by
  simp only [hostOps1_3, StableHlo.TRef.nullary, StableHlo.TRef.unary, StableHlo.TRef.binary]
  simp (disch := decide) only [StableHlo.after_cons, StableHlo.after_nil,
      StableHlo.nullary_result', StableHlo.unary_result', StableHlo.binary_result', StableHlo.ternary_result',
      StableHlo.reshape_result', StableHlo.nary_result',
      StableHlo.nullary_result_ne', StableHlo.unary_result_ne', StableHlo.binary_result_ne', StableHlo.ternary_result_ne',
      StableHlo.reshape_result_ne', StableHlo.nary_result_ne', Matrix.cons_val]
  rfl

theorem s6_v70 :
    (StableHlo.after (hostOps1_5 : List (HloOp τ sig (Elt Ideal))) W (Proc.devRef .tc main_v70) : FVec Ideal S100000 .f32)
      = reluOp (W (Proc.devRef .tc main_v69)) := by
  simp only [hostOps1_5, StableHlo.TRef.nullary, StableHlo.TRef.unary, StableHlo.TRef.binary]
  simp (disch := decide) only [StableHlo.after_cons, StableHlo.after_nil,
      StableHlo.nullary_result', StableHlo.unary_result', StableHlo.binary_result', StableHlo.ternary_result',
      StableHlo.reshape_result', StableHlo.nary_result',
      StableHlo.nullary_result_ne', StableHlo.unary_result_ne', StableHlo.binary_result_ne', StableHlo.ternary_result_ne',
      StableHlo.reshape_result_ne', StableHlo.nary_result_ne', Matrix.cons_val]
  rfl

theorem s8_v94 :
    (StableHlo.after (hostOps1_7 : List (HloOp τ sig (Elt Ideal))) W (Proc.devRef .tc main_v94) : FVec Ideal S100000 .f32)
      = reluOp (W (Proc.devRef .tc main_v93)) := by
  simp only [hostOps1_7, StableHlo.TRef.nullary, StableHlo.TRef.unary, StableHlo.TRef.binary]
  simp (disch := decide) only [StableHlo.after_cons, StableHlo.after_nil,
      StableHlo.nullary_result', StableHlo.unary_result', StableHlo.binary_result', StableHlo.ternary_result',
      StableHlo.reshape_result', StableHlo.nary_result',
      StableHlo.nullary_result_ne', StableHlo.unary_result_ne', StableHlo.binary_result_ne', StableHlo.ternary_result_ne',
      StableHlo.reshape_result_ne', StableHlo.nary_result_ne', Matrix.cons_val]
  rfl

/-- Stretches 3, 5, 7: a later layer before its positive part. -/
theorem s3_v45 :
    (StableHlo.after (hostOps1_2 : List (HloOp τ sig (Elt Ideal))) W (Proc.devRef .tc main_v45) : FVec Ideal S100000 .f32)
      = preL (W (Proc.devRef .tc main_arg1)) (W (Proc.devRef .tc main_arg2)) (w3_0 (W (Proc.devRef .tc main_arg7))) (w3_0 (W (Proc.devRef .tc main_arg8)))
          (b2_0 (W (Proc.devRef .tc main_arg9))) (W (Proc.devRef .tc main_v22)) := by
  simp only [hostOps1_2]
  simp (disch := decide) only [StableHlo.after_cons, StableHlo.after_nil,
      StableHlo.nullary_result', StableHlo.unary_result', StableHlo.binary_result', StableHlo.ternary_result',
      StableHlo.reshape_result', StableHlo.nary_result',
      StableHlo.nullary_result_ne', StableHlo.unary_result_ne', StableHlo.binary_result_ne', StableHlo.ternary_result_ne',
      StableHlo.reshape_result_ne', StableHlo.nary_result_ne', Matrix.cons_val]
  rfl

theorem s5_v69 :
    (StableHlo.after (hostOps1_4 : List (HloOp τ sig (Elt Ideal))) W (Proc.devRef .tc main_v69) : FVec Ideal S100000 .f32)
      = preL (W (Proc.devRef .tc main_arg1)) (W (Proc.devRef .tc main_arg2)) (w3_1 (W (Proc.devRef .tc main_arg7))) (w3_1 (W (Proc.devRef .tc main_arg8)))
          (b2_1 (W (Proc.devRef .tc main_arg9))) (W (Proc.devRef .tc main_v46)) := by
  simp only [hostOps1_4]
  simp (disch := decide) only [StableHlo.after_cons, StableHlo.after_nil,
      StableHlo.nullary_result', StableHlo.unary_result', StableHlo.binary_result', StableHlo.ternary_result',
      StableHlo.reshape_result', StableHlo.nary_result',
      StableHlo.nullary_result_ne', StableHlo.unary_result_ne', StableHlo.binary_result_ne', StableHlo.ternary_result_ne',
      StableHlo.reshape_result_ne', StableHlo.nary_result_ne', Matrix.cons_val]
  rfl

theorem s7_v93 :
    (StableHlo.after (hostOps1_6 : List (HloOp τ sig (Elt Ideal))) W (Proc.devRef .tc main_v93) : FVec Ideal S100000 .f32)
      = preL (W (Proc.devRef .tc main_arg1)) (W (Proc.devRef .tc main_arg2)) (w3_2 (W (Proc.devRef .tc main_arg7))) (w3_2 (W (Proc.devRef .tc main_arg8)))
          (b2_2 (W (Proc.devRef .tc main_arg9))) (W (Proc.devRef .tc main_v70)) := by
  simp only [hostOps1_6]
  simp (disch := decide) only [StableHlo.after_cons, StableHlo.after_nil,
      StableHlo.nullary_result', StableHlo.unary_result', StableHlo.binary_result', StableHlo.ternary_result',
      StableHlo.reshape_result', StableHlo.nary_result',
      StableHlo.nullary_result_ne', StableHlo.unary_result_ne', StableHlo.binary_result_ne', StableHlo.ternary_result_ne',
      StableHlo.reshape_result_ne', StableHlo.nary_result_ne', Matrix.cons_val]
  rfl

theorem cat4_eq (a b c d : FVec Ideal S100000x1 .f32) :
    concatenate S100000x4 1 [⟨S100000x1, a⟩, ⟨S100000x1, b⟩, ⟨S100000x1, c⟩, ⟨S100000x1, d⟩]
      concatenates_S100000x1_S100000x1_S100000x1_S100000x1_S100000x4_d1 = cat4 a b c d := rfl
theorem cat2_eq (a : FVec Ideal S64x512 .f32) (b : FVec Ideal S64x4 .f32) :
    concatenate S64x516 1 [⟨S64x512, a⟩, ⟨S64x4, b⟩] concatenates_S64x512_S64x4_S64x516_d1 = cat2 a b := rfl

/-- Stretch 9: the four layers' vectors as columns, their per-graph sums, and the result array. -/
theorem s9_v103 :
    (StableHlo.after (hostOps1_8 : List (HloOp τ sig (Elt Ideal))) W (Proc.devRef .tc main_v103) : FVec Ideal S64x516 .f32)
      = lastOp (W (Proc.devRef .tc main_arg3)) (W (Proc.devRef .tc main_v3)) (W (Proc.devRef .tc main_v22)) (W (Proc.devRef .tc main_v46)) (W (Proc.devRef .tc main_v70))
          (W (Proc.devRef .tc main_v94)) := by
  simp only [hostOps1_8, cat2_eq]
  simp (disch := decide) only [StableHlo.after_cons, StableHlo.after_nil,
      StableHlo.nullary_result', StableHlo.unary_result', StableHlo.binary_result', StableHlo.ternary_result',
      StableHlo.reshape_result', StableHlo.nary_result',
      StableHlo.nullary_result_ne', StableHlo.unary_result_ne', StableHlo.binary_result_ne', StableHlo.ternary_result_ne',
      StableHlo.reshape_result_ne', StableHlo.nary_result_ne', Matrix.cons_val]
  rw [cat4_eq]
  simp (disch := decide) only [StableHlo.after_cons, StableHlo.after_nil,
      StableHlo.nullary_result', StableHlo.unary_result', StableHlo.binary_result', StableHlo.ternary_result',
      StableHlo.reshape_result', StableHlo.nary_result',
      StableHlo.nullary_result_ne', StableHlo.unary_result_ne', StableHlo.binary_result_ne', StableHlo.ternary_result_ne',
      StableHlo.reshape_result_ne', StableHlo.nary_result_ne', Matrix.cons_val]
  rfl

end Stretches

variable (m : (ℓ : Loc nD τ sig) → Buf (Elt Ideal) ℓ)

/-- The result array after the host lines that follow the region, as the stages of the region's two result arrays and
    the launch's argument arrays: stretch by stretch, each stretch's result is its stage of what the earlier stretches
    left, and it leaves the arrays the later stretches read as it found them. -/
theorem tail_term (c : Dev nD) :
    (Pipeline.afterTail₀ cfgs (dats m) 0 (V0 m) tailOps c main_v103 : FVec Ideal S64x516 .f32)
      = resultOp (pArr m c) (rArr m c) (m ((c.tc : Thread nD τ).loc main_arg1)) (m ((c.tc : Thread nD τ).loc main_arg2))
          (m ((c.tc : Thread nD τ).loc main_arg3)) (m ((c.tc : Thread nD τ).loc main_arg6))
          (m ((c.tc : Thread nD τ).loc main_arg7)) (m ((c.tc : Thread nD τ).loc main_arg8)) (m ((c.tc : Thread nD τ).loc main_arg9)) := by
  unfold Pipeline.afterTail₀
  have f0_main_v2_0 : Pipeline.withArrays (cfgs 0).spec c (V0 m c) (fun w => (dats m 0 c).arrAt w (cfgs 0).N) (Proc.devRef .tc main_v2_0)
      = pArr m c := Pipeline.withArrays_arr spec0 launch0.win.arr_inj c _ _ 3
  have f0_main_v2_1 : Pipeline.withArrays (cfgs 0).spec c (V0 m c) (fun w => (dats m 0 c).arrAt w (cfgs 0).N) (Proc.devRef .tc main_v2_1)
      = rArr m c := Pipeline.withArrays_arr spec0 launch0.win.arr_inj c _ _ 4
  have hA : ∀ b : Ref sig .tc, (∀ w, Pipeline.arrRef spec0 w ≠ b) → b ≠ main_v0 → b ≠ main_v1 →
      Pipeline.withArrays (cfgs 0).spec c (V0 m c) (fun w => (dats m 0 c).arrAt w (cfgs 0).N) (Proc.devRef .tc b)
        = m ((c.tc : Thread nD τ).loc b) := fun b hb h0 h1 =>
    (Pipeline.withArrays_of_ne spec0 c _ _ b hb).trans (V_of_ne m c b h0 h1)
  have f0_main_arg1 := hA main_arg1 (by decide) (by decide) (by decide)
  have f0_main_arg2 := hA main_arg2 (by decide) (by decide) (by decide)
  have f0_main_arg3 := hA main_arg3 (by decide) (by decide) (by decide)
  have f0_main_arg6 := hA main_arg6 (by decide) (by decide) (by decide)
  have f0_main_arg7 := hA main_arg7 (by decide) (by decide) (by decide)
  have f0_main_arg8 := hA main_arg8 (by decide) (by decide) (by decide)
  have f0_main_arg9 := hA main_arg9 (by decide) (by decide) (by decide)
  clear hA
  generalize Pipeline.withArrays (cfgs 0).spec c (V0 m c) (fun w => (dats m 0 c).arrAt w (cfgs 0).N) = W0 at *
  simp only [tailOps, List.flatten_cons, List.flatten_nil, List.append_nil, StableHlo.after_append]
  -- stretch 1
  have f1_main_arg1 := (keep1 W0 main_arg1 (by decide)).trans f0_main_arg1
  have f1_main_arg2 := (keep1 W0 main_arg2 (by decide)).trans f0_main_arg2
  have f1_main_arg3 := (keep1 W0 main_arg3 (by decide)).trans f0_main_arg3
  have f1_main_arg7 := (keep1 W0 main_arg7 (by decide)).trans f0_main_arg7
  have f1_main_arg8 := (keep1 W0 main_arg8 (by decide)).trans f0_main_arg8
  have f1_main_arg9 := (keep1 W0 main_arg9 (by decide)).trans f0_main_arg9
  have f1_main_v3 : StableHlo.after (hostOps1 : List (HloOp τ sig (Elt Ideal))) W0 (Proc.devRef .tc main_v3) = readX (rArr m c) :=
    (s1_v3 W0).trans (congrArg readX f0_main_v2_1)
  have f1_main_v21 : StableHlo.after (hostOps1 : List (HloOp τ sig (Elt Ideal))) W0 (Proc.devRef .tc main_v21) = pre0 (pArr m c) (m ((c.tc : Thread nD τ).loc main_arg1)) (m ((c.tc : Thread nD τ).loc main_arg2)) (m ((c.tc : Thread nD τ).loc main_arg6)) :=
    by rw [s1_v21 W0, f0_main_v2_0, f0_main_arg1, f0_main_arg2, f0_main_arg6]
  generalize StableHlo.after (hostOps1 : List (HloOp τ sig (Elt Ideal))) W0 = W1 at *
  -- stretch 2
  have f2_main_arg1 := (keep2 W1 main_arg1 (by decide)).trans f1_main_arg1
  have f2_main_arg2 := (keep2 W1 main_arg2 (by decide)).trans f1_main_arg2
  have f2_main_arg3 := (keep2 W1 main_arg3 (by decide)).trans f1_main_arg3
  have f2_main_arg7 := (keep2 W1 main_arg7 (by decide)).trans f1_main_arg7
  have f2_main_arg8 := (keep2 W1 main_arg8 (by decide)).trans f1_main_arg8
  have f2_main_arg9 := (keep2 W1 main_arg9 (by decide)).trans f1_main_arg9
  have f2_main_v3 := (keep2 W1 main_v3 (by decide)).trans f1_main_v3
  have f2_main_v22 : StableHlo.after (hostOps1_1 : List (HloOp τ sig (Elt Ideal))) W1 (Proc.devRef .tc main_v22) = (L0 (pArr m c) (m ((c.tc : Thread nD τ).loc main_arg1)) (m ((c.tc : Thread nD τ).loc main_arg2)) (m ((c.tc : Thread nD τ).loc main_arg6))) :=
    (s2_v22 W1).trans (congrArg reluOp f1_main_v21)
  generalize StableHlo.after (hostOps1_1 : List (HloOp τ sig (Elt Ideal))) W1 = W2 at *
  -- stretch 3
  have f3_main_arg1 := (keep3 W2 main_arg1 (by decide)).trans f2_main_arg1
  have f3_main_arg2 := (keep3 W2 main_arg2 (by decide)).trans f2_main_arg2
  have f3_main_arg3 := (keep3 W2 main_arg3 (by decide)).trans f2_main_arg3
  have f3_main_arg7 := (keep3 W2 main_arg7 (by decide)).trans f2_main_arg7
  have f3_main_arg8 := (keep3 W2 main_arg8 (by decide)).trans f2_main_arg8
  have f3_main_arg9 := (keep3 W2 main_arg9 (by decide)).trans f2_main_arg9
  have f3_main_v3 := (keep3 W2 main_v3 (by decide)).trans f2_main_v3
  have f3_main_v22 := (keep3 W2 main_v22 (by decide)).trans f2_main_v22
  have f3_main_v45 : StableHlo.after (hostOps1_2 : List (HloOp τ sig (Elt Ideal))) W2 (Proc.devRef .tc main_v45) = preL (m ((c.tc : Thread nD τ).loc main_arg1)) (m ((c.tc : Thread nD τ).loc main_arg2)) (w3_0 (m ((c.tc : Thread nD τ).loc main_arg7))) (w3_0 (m ((c.tc : Thread nD τ).loc main_arg8))) (b2_0 (m ((c.tc : Thread nD τ).loc main_arg9))) (L0 (pArr m c) (m ((c.tc : Thread nD τ).loc main_arg1)) (m ((c.tc : Thread nD τ).loc main_arg2)) (m ((c.tc : Thread nD τ).loc main_arg6))) :=
    by rw [s3_v45 W2, f2_main_arg1, f2_main_arg2, f2_main_arg7, f2_main_arg8, f2_main_arg9, f2_main_v22]
  generalize StableHlo.after (hostOps1_2 : List (HloOp τ sig (Elt Ideal))) W2 = W3 at *
  -- stretch 4
  have f4_main_arg1 := (keep4 W3 main_arg1 (by decide)).trans f3_main_arg1
  have f4_main_arg2 := (keep4 W3 main_arg2 (by decide)).trans f3_main_arg2
  have f4_main_arg3 := (keep4 W3 main_arg3 (by decide)).trans f3_main_arg3
  have f4_main_arg7 := (keep4 W3 main_arg7 (by decide)).trans f3_main_arg7
  have f4_main_arg8 := (keep4 W3 main_arg8 (by decide)).trans f3_main_arg8
  have f4_main_arg9 := (keep4 W3 main_arg9 (by decide)).trans f3_main_arg9
  have f4_main_v3 := (keep4 W3 main_v3 (by decide)).trans f3_main_v3
  have f4_main_v22 := (keep4 W3 main_v22 (by decide)).trans f3_main_v22
  have f4_main_v46 : StableHlo.after (hostOps1_3 : List (HloOp τ sig (Elt Ideal))) W3 (Proc.devRef .tc main_v46) = (L1 (pArr m c) (m ((c.tc : Thread nD τ).loc main_arg1)) (m ((c.tc : Thread nD τ).loc main_arg2)) (m ((c.tc : Thread nD τ).loc main_arg6)) (m ((c.tc : Thread nD τ).loc main_arg7)) (m ((c.tc : Thread nD τ).loc main_arg8)) (m ((c.tc : Thread nD τ).loc main_arg9))) :=
    (s4_v46 W3).trans (congrArg reluOp f3_main_v45)
  generalize StableHlo.after (hostOps1_3 : List (HloOp τ sig (Elt Ideal))) W3 = W4 at *
  -- stretch 5
  have f5_main_arg1 := (keep5 W4 main_arg1 (by decide)).trans f4_main_arg1
  have f5_main_arg2 := (keep5 W4 main_arg2 (by decide)).trans f4_main_arg2
  have f5_main_arg3 := (keep5 W4 main_arg3 (by decide)).trans f4_main_arg3
  have f5_main_arg7 := (keep5 W4 main_arg7 (by decide)).trans f4_main_arg7
  have f5_main_arg8 := (keep5 W4 main_arg8 (by decide)).trans f4_main_arg8
  have f5_main_arg9 := (keep5 W4 main_arg9 (by decide)).trans f4_main_arg9
  have f5_main_v3 := (keep5 W4 main_v3 (by decide)).trans f4_main_v3
  have f5_main_v22 := (keep5 W4 main_v22 (by decide)).trans f4_main_v22
  have f5_main_v46 := (keep5 W4 main_v46 (by decide)).trans f4_main_v46
  have f5_main_v69 : StableHlo.after (hostOps1_4 : List (HloOp τ sig (Elt Ideal))) W4 (Proc.devRef .tc main_v69) = preL (m ((c.tc : Thread nD τ).loc main_arg1)) (m ((c.tc : Thread nD τ).loc main_arg2)) (w3_1 (m ((c.tc : Thread nD τ).loc main_arg7))) (w3_1 (m ((c.tc : Thread nD τ).loc main_arg8))) (b2_1 (m ((c.tc : Thread nD τ).loc main_arg9))) (L1 (pArr m c) (m ((c.tc : Thread nD τ).loc main_arg1)) (m ((c.tc : Thread nD τ).loc main_arg2)) (m ((c.tc : Thread nD τ).loc main_arg6)) (m ((c.tc : Thread nD τ).loc main_arg7)) (m ((c.tc : Thread nD τ).loc main_arg8)) (m ((c.tc : Thread nD τ).loc main_arg9))) :=
    by rw [s5_v69 W4, f4_main_arg1, f4_main_arg2, f4_main_arg7, f4_main_arg8, f4_main_arg9, f4_main_v46]
  generalize StableHlo.after (hostOps1_4 : List (HloOp τ sig (Elt Ideal))) W4 = W5 at *
  -- stretch 6
  have f6_main_arg1 := (keep6 W5 main_arg1 (by decide)).trans f5_main_arg1
  have f6_main_arg2 := (keep6 W5 main_arg2 (by decide)).trans f5_main_arg2
  have f6_main_arg3 := (keep6 W5 main_arg3 (by decide)).trans f5_main_arg3
  have f6_main_arg7 := (keep6 W5 main_arg7 (by decide)).trans f5_main_arg7
  have f6_main_arg8 := (keep6 W5 main_arg8 (by decide)).trans f5_main_arg8
  have f6_main_arg9 := (keep6 W5 main_arg9 (by decide)).trans f5_main_arg9
  have f6_main_v3 := (keep6 W5 main_v3 (by decide)).trans f5_main_v3
  have f6_main_v22 := (keep6 W5 main_v22 (by decide)).trans f5_main_v22
  have f6_main_v46 := (keep6 W5 main_v46 (by decide)).trans f5_main_v46
  have f6_main_v70 : StableHlo.after (hostOps1_5 : List (HloOp τ sig (Elt Ideal))) W5 (Proc.devRef .tc main_v70) = (L2 (pArr m c) (m ((c.tc : Thread nD τ).loc main_arg1)) (m ((c.tc : Thread nD τ).loc main_arg2)) (m ((c.tc : Thread nD τ).loc main_arg6)) (m ((c.tc : Thread nD τ).loc main_arg7)) (m ((c.tc : Thread nD τ).loc main_arg8)) (m ((c.tc : Thread nD τ).loc main_arg9))) :=
    (s6_v70 W5).trans (congrArg reluOp f5_main_v69)
  generalize StableHlo.after (hostOps1_5 : List (HloOp τ sig (Elt Ideal))) W5 = W6 at *
  -- stretch 7
  have f7_main_arg3 := (keep7 W6 main_arg3 (by decide)).trans f6_main_arg3
  have f7_main_v3 := (keep7 W6 main_v3 (by decide)).trans f6_main_v3
  have f7_main_v22 := (keep7 W6 main_v22 (by decide)).trans f6_main_v22
  have f7_main_v46 := (keep7 W6 main_v46 (by decide)).trans f6_main_v46
  have f7_main_v70 := (keep7 W6 main_v70 (by decide)).trans f6_main_v70
  have f7_main_v93 : StableHlo.after (hostOps1_6 : List (HloOp τ sig (Elt Ideal))) W6 (Proc.devRef .tc main_v93) = preL (m ((c.tc : Thread nD τ).loc main_arg1)) (m ((c.tc : Thread nD τ).loc main_arg2)) (w3_2 (m ((c.tc : Thread nD τ).loc main_arg7))) (w3_2 (m ((c.tc : Thread nD τ).loc main_arg8))) (b2_2 (m ((c.tc : Thread nD τ).loc main_arg9))) (L2 (pArr m c) (m ((c.tc : Thread nD τ).loc main_arg1)) (m ((c.tc : Thread nD τ).loc main_arg2)) (m ((c.tc : Thread nD τ).loc main_arg6)) (m ((c.tc : Thread nD τ).loc main_arg7)) (m ((c.tc : Thread nD τ).loc main_arg8)) (m ((c.tc : Thread nD τ).loc main_arg9))) :=
    by rw [s7_v93 W6, f6_main_arg1, f6_main_arg2, f6_main_arg7, f6_main_arg8, f6_main_arg9, f6_main_v70]
  generalize StableHlo.after (hostOps1_6 : List (HloOp τ sig (Elt Ideal))) W6 = W7 at *
  -- stretch 8
  have f8_main_arg3 := (keep8 W7 main_arg3 (by decide)).trans f7_main_arg3
  have f8_main_v3 := (keep8 W7 main_v3 (by decide)).trans f7_main_v3
  have f8_main_v22 := (keep8 W7 main_v22 (by decide)).trans f7_main_v22
  have f8_main_v46 := (keep8 W7 main_v46 (by decide)).trans f7_main_v46
  have f8_main_v70 := (keep8 W7 main_v70 (by decide)).trans f7_main_v70
  have f8_main_v94 : StableHlo.after (hostOps1_7 : List (HloOp τ sig (Elt Ideal))) W7 (Proc.devRef .tc main_v94) = (L3 (pArr m c) (m ((c.tc : Thread nD τ).loc main_arg1)) (m ((c.tc : Thread nD τ).loc main_arg2)) (m ((c.tc : Thread nD τ).loc main_arg6)) (m ((c.tc : Thread nD τ).loc main_arg7)) (m ((c.tc : Thread nD τ).loc main_arg8)) (m ((c.tc : Thread nD τ).loc main_arg9))) :=
    (s8_v94 W7).trans (congrArg reluOp f7_main_v93)
  generalize StableHlo.after (hostOps1_7 : List (HloOp τ sig (Elt Ideal))) W7 = W8 at *
  -- stretch 9
  rw [s9_v103 W8, f8_main_arg3, f8_main_v3, f8_main_v22, f8_main_v46, f8_main_v70, f8_main_v94]
  rfl

/-! ## The result against the specification -/

/-- The joined weight pair's column 0 is the first weight column … -/
theorem wArr_col0 (c : Dev nD) (k : Fin 512) :
    wArr m c (ix2 k 0) = (m ((c.tc : Thread nD τ).loc main_arg4) : FVec Ideal S512x1 .f32) (ix2 k 0) := by
  show (V m c main_v0 : FVec Ideal S512x2 .f32) (ix2 k 0) = _
  rw [V_v0]
  exact concatenate_pair_apply_left (1 : Fin S512x2.rank) _ _ concatenates_S512x1_S512x1_S512x2_d1 (ix2 k 0) rfl (ix2 k 0)
    (fun b => match b with | ⟨0, _⟩ => rfl | ⟨1, _⟩ => rfl)

/-- … and its column 1 the second. -/
theorem wArr_col1 (c : Dev nD) (k : Fin 512) :
    wArr m c (ix2 k 1) = (m ((c.tc : Thread nD τ).loc main_arg5) : FVec Ideal S512x1 .f32) (ix2 k 0) := by
  show (V m c main_v0 : FVec Ideal S512x2 .f32) (ix2 k 1) = _
  rw [V_v0]
  exact concatenate_pair_apply_right (1 : Fin S512x2.rank) _ _ concatenates_S512x1_S512x1_S512x2_d1 (ix2 k 1) rfl rfl (ix2 k 0)
    (fun b => match b with | ⟨0, _⟩ => fun _ => rfl | ⟨1, _⟩ => fun hb => absurd (Fin.ext rfl) hb) rfl

/-- The product array's two columns are the node rows against the two weight columns. -/
theorem pArr_col0 (c : Dev nD) (n : Fin 100000) :
    pArr m c (ix2 n 0) = Cert.GraphSpec.proj (m ((c.tc : Thread nD τ).loc main_arg0)) (m ((c.tc : Thread nD τ).loc main_arg4)) n := by
  rw [pArr_apply]
  unfold Cert.GraphSpec.proj
  refine Finset.sum_congr rfl (fun k _ => ?_)
  rw [xArr_eq, wArr_col0]

theorem pArr_col1 (c : Dev nD) (n : Fin 100000) :
    pArr m c (ix2 n 1) = Cert.GraphSpec.proj (m ((c.tc : Thread nD τ).loc main_arg0)) (m ((c.tc : Thread nD τ).loc main_arg5)) n := by
  rw [pArr_apply]
  unfold Cert.GraphSpec.proj
  refine Finset.sum_congr rfl (fun k _ => ?_)
  rw [xArr_eq, wArr_col1]

/-- The result array after the host lines that follow the region is the specification's result of the launch's
    argument arrays. -/
theorem tail_out (c : Dev nD) :
    (Pipeline.afterTail₀ cfgs (dats m) 0 (V0 m) tailOps c main_v103 : FVec Ideal S64x516 .f32)
      = Cert.GraphSpec.out (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) :=
  (tail_term m c).trans
    (resultOp_spec (m ((c.tc : Thread nD τ).loc main_arg0)) (pArr m c) (rArr m c) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))
      (m ((c.tc : Thread nD τ).loc main_arg7)) (m ((c.tc : Thread nD τ).loc main_arg8)) (m ((c.tc : Thread nD τ).loc main_arg9)) (pArr_col0 m c) (pArr_col1 m c) (fun g f => readout_x m c g f))

end Cert.KernelIdeal.Region

end
-- ==== Proof.RefValue.lean ====
/-
  The reference at the exact reals: its result, read stage by stage, is the specification's result of its
  argument arrays.
-/
import proofs.«417001_j56040733278664_2_alg».proof.Proof.Gen.ReferenceIdeal.Read
import proofs.«417001_j56040733278664_2_alg».proof.Proof.Spec
import proofs.«417001_j56040733278664_2_alg».proof.Proof.Scatter
import proofs.«417001_j56040733278664_2_alg».proof.Proof.Gather

set_option maxRecDepth 16384

noncomputable section

namespace Cert.ReferenceIdeal.RefValue

open Cert.ReferenceIdeal Cert.ReferenceIdeal.Gen Cert.ReferenceIdeal.Read
open Idealize.ShloMosaic Idealize.ShloMosaic.TcCoe Idealize.ShloMosaic.ValueIdx
open Cert.GraphSpec

/-! ## One round of message passing on columns -/

/-- The accumulating scatter, into a column of zeros, of the gather of a column `c` at the edges' source words, by the
    edges' destination words: at node `n`, the sum over the edges ending at `n` of `c` at the edge's source node. -/
theorem msg_col (c z : FVec Ideal S100000x1 .f32) (I D : IVec S3200000x1 32) (x1 x2 : IVec S3200000 32)
    (hz : ∀ n : Fin 100000, z (ix2 n 0) = 0)
    (hI : ∀ e : Fin 3200000, I (ix2 e 0) = srcWord (x1 (ix1 e)))
    (hD : ∀ e : Fin 3200000, D (ix2 e 0) = x2 (ix1 e)) (n : Fin 100000) :
    Host.scatterAdd (F := Ideal) scatter_S100000x1_S3200000x1_S3200000x1_1_0_0_1 z D
        (Host.gather gather_S100000x1_S3200000x1_S3200000x1_1_0_n_n_0_1_11 c I) (ix2 n 0)
      = msg x1 x2 (fun j => c (ix2 j 0)) n := by
  rw [scatterAdd_rows _ rfl rfl rfl rfl, hz, zero_add]
  unfold msg
  simp only [hD]
  refine Finset.sum_congr rfl (fun e _ => ?_)
  rw [gather_col _ rfl rfl rfl rfl rfl rfl _ _ e (by decide)]
  refine congrArg (fun t : Fin 100000 => c (ix2 t 0)) (Fin.ext ?_)
  show min (I (ix2 e 0)).toInt.toNat (100000 - 1) = min (srcWord (x1 (ix1 e))).toInt.toNat (100000 - 1)
  rw [hI]

/-- The source word of an edge, read at the edge's index however that index is written. -/
theorem srcWord_at (x1 : IVec S3200000 32) (j : S3200000.Idx) (e : Fin 3200000) (hj : j = ix1 e) :
    Scalar.select (IntOp.cmpi .slt (x1 j) 0#32) (IntOp.addi (x1 j) 100000#32) (x1 j) = srcWord (x1 (ix1 e)) := by
  subst hj; rfl

/-! ## Layer 0 -/

theorem proj_v0 (x0 : FVec Ideal S100000x512 .f32) (x4 : FVec Ideal S512x1 .f32) (n : Fin 100000) :
    val_main_v0 (F := Ideal) x0 x4 (ix2 n 0) = proj x0 x4 n := by
  rw [val_main_v0_apply]
  unfold proj
  refine Finset.sum_congr rfl (fun k _ => ?_)
  congr 2
  · funext a; match a with | ⟨0, _⟩ => rfl | ⟨1, _⟩ => rfl
  · funext a; match a with | ⟨0, _⟩ => rfl | ⟨1, _⟩ => rfl

theorem proj_v14 (x0 : FVec Ideal S100000x512 .f32) (x5 : FVec Ideal S512x1 .f32) (n : Fin 100000) :
    val_main_v14 (F := Ideal) x0 x5 (ix2 n 0) = proj x0 x5 n := by
  rw [val_main_v14_apply]
  unfold proj
  refine Finset.sum_congr rfl (fun k _ => ?_)
  congr 2
  · funext a; match a with | ⟨0, _⟩ => rfl | ⟨1, _⟩ => rfl
  · funext a; match a with | ⟨0, _⟩ => rfl | ⟨1, _⟩ => rfl

theorem src_v6 (x1 : IVec S3200000 32) (e : Fin 3200000) :
    val_main_v6 (F := Ideal) x1 (ix2 e 0) = srcWord (x1 (ix1 e)) := by
  rw [val_main_v6_apply, val_main_v5_apply, val_main_v2_apply, val_main_v4_apply, val_main_v1_apply,
    val_main_v3_apply, val_main_c_apply, val_main_c_0_apply]
  exact srcWord_at x1 _ e (by funext a; match a with | ⟨0, _⟩ => rfl)

theorem dst_v9 (x2 : IVec S3200000 32) (e : Fin 3200000) :
    val_main_v9 (F := Ideal) x2 (ix2 e 0) = x2 (ix1 e) := by
  rw [val_main_v9_apply]
  congr 1
  funext a; match a with | ⟨0, _⟩ => rfl

theorem zero_v8 (i : S100000x1.Idx) : val_main_v8 (F := Ideal) i = 0 := by
  rw [val_main_v8_apply, val_main_cst_apply]
  exact Ideal.ofBits_zero_f32

theorem zero_call0 (i : S100000x1.Idx) : val_main_call0_v0 (F := Ideal) i = 0 := by
  rw [val_main_call0_v0_apply, val_main_call0_cst_apply]
  exact Ideal.ofBits_zero_f32

theorem bias_v12 (x6 : FVec Ideal S1 .f32) (i : S100000x1.Idx) :
    val_main_v12 (F := Ideal) x6 i = x6 (ix1 0) := by
  rw [val_main_v12_apply, val_main_v11_apply]
  congr 1
  funext a; match a with | ⟨0, _⟩ => rfl

theorem msg_v10 (x0 : FVec Ideal S100000x512 .f32) (x1 x2 : IVec S3200000 32) (x4 : FVec Ideal S512x1 .f32)
    (n : Fin 100000) :
    val_main_v10 (F := Ideal) x0 x1 x2 x4 (ix2 n 0) = msg x1 x2 (proj x0 x4) n := by
  unfold val_main_v10 val_main_v7
  rw [msg_col _ _ _ _ x1 x2 (fun n => zero_v8 _) (src_v6 x1) (dst_v9 x2) n]
  exact congrArg (fun v => msg x1 x2 v n) (funext fun j => proj_v0 x0 x4 j)

/-- The first layer's stage is the specification's first layer. -/
theorem stage_h0 (x0 : FVec Ideal S100000x512 .f32) (x1 x2 : IVec S3200000 32) (x4 x5 : FVec Ideal S512x1 .f32)
    (x6 : FVec Ideal S1 .f32) (n : Fin 100000) :
    val_main_v16 (F := Ideal) x0 x1 x2 x4 x5 x6 (ix2 n 0) = h0 x0 x1 x2 x4 x5 x6 n := by
  rw [val_main_v16_apply, val_main_v15_apply, val_main_v13_apply, msg_v10, bias_v12, proj_v14, zero_call0]
  rfl

/-! ## Layer 1 -/

theorem wn_v18 (x7 : FVec Ideal S3x1x1 .f32) (j : S1x1.Idx) :
    val_main_v18 (F := Ideal) x7 j = x7 (ix3 0 0 0) := by
  rw [val_main_v18_apply, val_main_v17_apply]
  congr 1
  funext a; match a with | ⟨0, _⟩ => rfl | ⟨1, _⟩ => rfl | ⟨2, _⟩ => rfl

theorem ws_v20 (x8 : FVec Ideal S3x1x1 .f32) (j : S1x1.Idx) :
    val_main_v20 (F := Ideal) x8 j = x8 (ix3 0 0 0) := by
  rw [val_main_v20_apply, val_main_v19_apply]
  congr 1
  funext a; match a with | ⟨0, _⟩ => rfl | ⟨1, _⟩ => rfl | ⟨2, _⟩ => rfl

theorem bias_v35 (x9 : FVec Ideal S3x1 .f32) (i : S100000x1.Idx) :
    val_main_v35 (F := Ideal) x9 i = x9 (ix2 0 0) := by
  rw [val_main_v35_apply, val_main_v34_apply, val_main_v22_apply, val_main_v21_apply]
  congr 1
  funext a; match a with | ⟨0, _⟩ => rfl | ⟨1, _⟩ => rfl

theorem src_v29 (x1 : IVec S3200000 32) (e : Fin 3200000) :
    val_main_v29 (F := Ideal) x1 (ix2 e 0) = srcWord (x1 (ix1 e)) := by
  rw [val_main_v29_apply, val_main_v28_apply, val_main_v25_apply, val_main_v27_apply, val_main_v24_apply,
    val_main_v26_apply, val_main_c_1_apply, val_main_c_2_apply]
  exact srcWord_at x1 _ e (by funext a; match a with | ⟨0, _⟩ => rfl)

theorem dst_v32 (x2 : IVec S3200000 32) (e : Fin 3200000) :
    val_main_v32 (F := Ideal) x2 (ix2 e 0) = x2 (ix1 e) := by
  rw [val_main_v32_apply]
  congr 1
  funext a; match a with | ⟨0, _⟩ => rfl

theorem zero_v31 (i : S100000x1.Idx) : val_main_v31 (F := Ideal) i = 0 := by
  rw [val_main_v31_apply, val_main_cst_3_apply]
  exact Ideal.ofBits_zero_f32

theorem zero_call1 (i : S100000x1.Idx) : val_main_call1_v0 (F := Ideal) i = 0 := by
  rw [val_main_call1_v0_apply, val_main_call1_cst_apply]
  exact Ideal.ofBits_zero_f32

/-- The column against the 1x1 neighbour weight: a sum over one index, one product. -/
theorem nb_v23 (x0 : FVec Ideal S100000x512 .f32) (x1 x2 : IVec S3200000 32) (x4 x5 : FVec Ideal S512x1 .f32)
    (x6 : FVec Ideal S1 .f32) (x7 : FVec Ideal S3x1x1 .f32) (n : Fin 100000) :
    val_main_v23 (F := Ideal) x0 x1 x2 x4 x5 x6 x7 (ix2 n 0) = h0 x0 x1 x2 x4 x5 x6 n * x7 (ix3 0 0 0) := by
  have e : lidx_main_v23 (ix2 n 0) 0 = ix2 n 0 := by funext a; match a with | ⟨0, _⟩ => rfl | ⟨1, _⟩ => rfl
  rw [val_main_v23_apply, Fin.sum_univ_one, wn_v18, e, stage_h0]

/-- The column against the 1x1 self weight. -/
theorem self_v37 (x0 : FVec Ideal S100000x512 .f32) (x1 x2 : IVec S3200000 32) (x4 x5 : FVec Ideal S512x1 .f32)
    (x6 : FVec Ideal S1 .f32) (x8 : FVec Ideal S3x1x1 .f32) (n : Fin 100000) :
    val_main_v37 (F := Ideal) x0 x1 x2 x4 x5 x6 x8 (ix2 n 0) = h0 x0 x1 x2 x4 x5 x6 n * x8 (ix3 0 0 0) := by
  have e : lidx_main_v37 (ix2 n 0) 0 = ix2 n 0 := by funext a; match a with | ⟨0, _⟩ => rfl | ⟨1, _⟩ => rfl
  rw [val_main_v37_apply, Fin.sum_univ_one, ws_v20, e, stage_h0]

theorem msg_v33 (x0 : FVec Ideal S100000x512 .f32) (x1 x2 : IVec S3200000 32) (x4 x5 : FVec Ideal S512x1 .f32)
    (x6 : FVec Ideal S1 .f32) (x7 : FVec Ideal S3x1x1 .f32) (n : Fin 100000) :
    val_main_v33 (F := Ideal) x0 x1 x2 x4 x5 x6 x7 (ix2 n 0)
      = msg x1 x2 (fun j => h0 x0 x1 x2 x4 x5 x6 j * x7 (ix3 0 0 0)) n := by
  unfold val_main_v33 val_main_v30
  rw [msg_col _ _ _ _ x1 x2 (fun n => zero_v31 _) (src_v29 x1) (dst_v32 x2) n]
  exact congrArg (fun v => msg x1 x2 v n) (funext fun j => nb_v23 x0 x1 x2 x4 x5 x6 x7 j)

/-- Layer 1's stage is the specification's layer 1. -/
theorem stage_h1 (x0 : FVec Ideal S100000x512 .f32) (x1 x2 : IVec S3200000 32) (x4 x5 : FVec Ideal S512x1 .f32)
    (x6 : FVec Ideal S1 .f32) (x7 x8 : FVec Ideal S3x1x1 .f32) (x9 : FVec Ideal S3x1 .f32) (n : Fin 100000) :
    val_main_v39 (F := Ideal) x0 x1 x2 x4 x5 x6 x7 x8 x9 (ix2 n 0) = h1 x0 x1 x2 x4 x5 x6 x7 x8 x9 n := by
  rw [val_main_v39_apply, val_main_v38_apply, val_main_v36_apply, msg_v33, bias_v35, self_v37, zero_call1]
  rfl

/-! ## Layer 2 -/

theorem wn_v41 (x7 : FVec Ideal S3x1x1 .f32) (j : S1x1.Idx) :
    val_main_v41 (F := Ideal) x7 j = x7 (ix3 1 0 0) := by
  rw [val_main_v41_apply, val_main_v40_apply]
  congr 1
  funext a; match a with | ⟨0, _⟩ => rfl | ⟨1, _⟩ => rfl | ⟨2, _⟩ => rfl

theorem ws_v43 (x8 : FVec Ideal S3x1x1 .f32) (j : S1x1.Idx) :
    val_main_v43 (F := Ideal) x8 j = x8 (ix3 1 0 0) := by
  rw [val_main_v43_apply, val_main_v42_apply]
  congr 1
  funext a; match a with | ⟨0, _⟩ => rfl | ⟨1, _⟩ => rfl | ⟨2, _⟩ => rfl

theorem bias_v58 (x9 : FVec Ideal S3x1 .f32) (i : S100000x1.Idx) :
    val_main_v58 (F := Ideal) x9 i = x9 (ix2 1 0) := by
  rw [val_main_v58_apply, val_main_v57_apply, val_main_v45_apply, val_main_v44_apply]
  congr 1
  funext a; match a with | ⟨0, _⟩ => rfl | ⟨1, _⟩ => rfl

theorem src_v52 (x1 : IVec S3200000 32) (e : Fin 3200000) :
    val_main_v52 (F := Ideal) x1 (ix2 e 0) = srcWord (x1 (ix1 e)) := by
  rw [val_main_v52_apply, val_main_v51_apply, val_main_v48_apply, val_main_v50_apply, val_main_v47_apply,
    val_main_v49_apply, val_main_c_4_apply, val_main_c_5_apply]
  exact srcWord_at x1 _ e (by funext a; match a with | ⟨0, _⟩ => rfl)

theorem dst_v55 (x2 : IVec S3200000 32) (e : Fin 3200000) :
    val_main_v55 (F := Ideal) x2 (ix2 e 0) = x2 (ix1 e) := by
  rw [val_main_v55_apply]
  congr 1
  funext a; match a with | ⟨0, _⟩ => rfl

theorem zero_v54 (i : S100000x1.Idx) : val_main_v54 (F := Ideal) i = 0 := by
  rw [val_main_v54_apply, val_main_cst_6_apply]
  exact Ideal.ofBits_zero_f32

theorem zero_call2 (i : S100000x1.Idx) : val_main_call2_v0 (F := Ideal) i = 0 := by
  rw [val_main_call2_v0_apply, val_main_call2_cst_apply]
  exact Ideal.ofBits_zero_f32

/-- The column against the 1x1 neighbour weight: a sum over one index, one product. -/
theorem nb_v46 (x0 : FVec Ideal S100000x512 .f32) (x1 x2 : IVec S3200000 32) (x4 x5 : FVec Ideal S512x1 .f32)
    (x6 : FVec Ideal S1 .f32) (x7 x8 : FVec Ideal S3x1x1 .f32) (x9 : FVec Ideal S3x1 .f32) (n : Fin 100000) :
    val_main_v46 (F := Ideal) x0 x1 x2 x4 x5 x6 x7 x8 x9 (ix2 n 0) = h1 x0 x1 x2 x4 x5 x6 x7 x8 x9 n * x7 (ix3 1 0 0) := by
  have e : lidx_main_v46 (ix2 n 0) 0 = ix2 n 0 := by funext a; match a with | ⟨0, _⟩ => rfl | ⟨1, _⟩ => rfl
  rw [val_main_v46_apply, Fin.sum_univ_one, wn_v41, e, stage_h1]

/-- The column against the 1x1 self weight. -/
theorem self_v60 (x0 : FVec Ideal S100000x512 .f32) (x1 x2 : IVec S3200000 32) (x4 x5 : FVec Ideal S512x1 .f32)
    (x6 : FVec Ideal S1 .f32) (x7 x8 : FVec Ideal S3x1x1 .f32) (x9 : FVec Ideal S3x1 .f32) (n : Fin 100000) :
    val_main_v60 (F := Ideal) x0 x1 x2 x4 x5 x6 x7 x8 x9 (ix2 n 0) = h1 x0 x1 x2 x4 x5 x6 x7 x8 x9 n * x8 (ix3 1 0 0) := by
  have e : lidx_main_v60 (ix2 n 0) 0 = ix2 n 0 := by funext a; match a with | ⟨0, _⟩ => rfl | ⟨1, _⟩ => rfl
  rw [val_main_v60_apply, Fin.sum_univ_one, ws_v43, e, stage_h1]

theorem msg_v56 (x0 : FVec Ideal S100000x512 .f32) (x1 x2 : IVec S3200000 32) (x4 x5 : FVec Ideal S512x1 .f32)
    (x6 : FVec Ideal S1 .f32) (x7 x8 : FVec Ideal S3x1x1 .f32) (x9 : FVec Ideal S3x1 .f32) (n : Fin 100000) :
    val_main_v56 (F := Ideal) x0 x1 x2 x4 x5 x6 x7 x8 x9 (ix2 n 0)
      = msg x1 x2 (fun j => h1 x0 x1 x2 x4 x5 x6 x7 x8 x9 j * x7 (ix3 1 0 0)) n := by
  unfold val_main_v56 val_main_v53
  rw [msg_col _ _ _ _ x1 x2 (fun n => zero_v54 _) (src_v52 x1) (dst_v55 x2) n]
  exact congrArg (fun v => msg x1 x2 v n) (funext fun j => nb_v46 x0 x1 x2 x4 x5 x6 x7 x8 x9 j)

/-- Layer 2's stage is the specification's layer 2. -/
theorem stage_h2 (x0 : FVec Ideal S100000x512 .f32) (x1 x2 : IVec S3200000 32) (x4 x5 : FVec Ideal S512x1 .f32)
    (x6 : FVec Ideal S1 .f32) (x7 x8 : FVec Ideal S3x1x1 .f32) (x9 : FVec Ideal S3x1 .f32) (n : Fin 100000) :
    val_main_v62 (F := Ideal) x0 x1 x2 x4 x5 x6 x7 x8 x9 (ix2 n 0) = h2 x0 x1 x2 x4 x5 x6 x7 x8 x9 n := by
  rw [val_main_v62_apply, val_main_v61_apply, val_main_v59_apply, msg_v56, bias_v58, self_v60, zero_call2]
  rfl

/-! ## Layer 3 -/

theorem wn_v64 (x7 : FVec Ideal S3x1x1 .f32) (j : S1x1.Idx) :
    val_main_v64 (F := Ideal) x7 j = x7 (ix3 2 0 0) := by
  rw [val_main_v64_apply, val_main_v63_apply]
  congr 1
  funext a; match a with | ⟨0, _⟩ => rfl | ⟨1, _⟩ => rfl | ⟨2, _⟩ => rfl

theorem ws_v66 (x8 : FVec Ideal S3x1x1 .f32) (j : S1x1.Idx) :
    val_main_v66 (F := Ideal) x8 j = x8 (ix3 2 0 0) := by
  rw [val_main_v66_apply, val_main_v65_apply]
  congr 1
  funext a; match a with | ⟨0, _⟩ => rfl | ⟨1, _⟩ => rfl | ⟨2, _⟩ => rfl

theorem bias_v81 (x9 : FVec Ideal S3x1 .f32) (i : S100000x1.Idx) :
    val_main_v81 (F := Ideal) x9 i = x9 (ix2 2 0) := by
  rw [val_main_v81_apply, val_main_v80_apply, val_main_v68_apply, val_main_v67_apply]
  congr 1
  funext a; match a with | ⟨0, _⟩ => rfl | ⟨1, _⟩ => rfl

theorem src_v75 (x1 : IVec S3200000 32) (e : Fin 3200000) :
    val_main_v75 (F := Ideal) x1 (ix2 e 0) = srcWord (x1 (ix1 e)) := by
  rw [val_main_v75_apply, val_main_v74_apply, val_main_v71_apply, val_main_v73_apply, val_main_v70_apply,
    val_main_v72_apply, val_main_c_7_apply, val_main_c_8_apply]
  exact srcWord_at x1 _ e (by funext a; match a with | ⟨0, _⟩ => rfl)

theorem dst_v78 (x2 : IVec S3200000 32) (e : Fin 3200000) :
    val_main_v78 (F := Ideal) x2 (ix2 e 0) = x2 (ix1 e) := by
  rw [val_main_v78_apply]
  congr 1
  funext a; match a with | ⟨0, _⟩ => rfl

theorem zero_v77 (i : S100000x1.Idx) : val_main_v77 (F := Ideal) i = 0 := by
  rw [val_main_v77_apply, val_main_cst_9_apply]
  exact Ideal.ofBits_zero_f32

theorem zero_call3 (i : S100000x1.Idx) : val_main_call3_v0 (F := Ideal) i = 0 := by
  rw [val_main_call3_v0_apply, val_main_call3_cst_apply]
  exact Ideal.ofBits_zero_f32

/-- The column against the 1x1 neighbour weight: a sum over one index, one product. -/
theorem nb_v69 (x0 : FVec Ideal S100000x512 .f32) (x1 x2 : IVec S3200000 32) (x4 x5 : FVec Ideal S512x1 .f32)
    (x6 : FVec Ideal S1 .f32) (x7 x8 : FVec Ideal S3x1x1 .f32) (x9 : FVec Ideal S3x1 .f32) (n : Fin 100000) :
    val_main_v69 (F := Ideal) x0 x1 x2 x4 x5 x6 x7 x8 x9 (ix2 n 0) = h2 x0 x1 x2 x4 x5 x6 x7 x8 x9 n * x7 (ix3 2 0 0) := by
  have e : lidx_main_v69 (ix2 n 0) 0 = ix2 n 0 := by funext a; match a with | ⟨0, _⟩ => rfl | ⟨1, _⟩ => rfl
  rw [val_main_v69_apply, Fin.sum_univ_one, wn_v64, e, stage_h2]

/-- The column against the 1x1 self weight. -/
theorem self_v83 (x0 : FVec Ideal S100000x512 .f32) (x1 x2 : IVec S3200000 32) (x4 x5 : FVec Ideal S512x1 .f32)
    (x6 : FVec Ideal S1 .f32) (x7 x8 : FVec Ideal S3x1x1 .f32) (x9 : FVec Ideal S3x1 .f32) (n : Fin 100000) :
    val_main_v83 (F := Ideal) x0 x1 x2 x4 x5 x6 x7 x8 x9 (ix2 n 0) = h2 x0 x1 x2 x4 x5 x6 x7 x8 x9 n * x8 (ix3 2 0 0) := by
  have e : lidx_main_v83 (ix2 n 0) 0 = ix2 n 0 := by funext a; match a with | ⟨0, _⟩ => rfl | ⟨1, _⟩ => rfl
  rw [val_main_v83_apply, Fin.sum_univ_one, ws_v66, e, stage_h2]

theorem msg_v79 (x0 : FVec Ideal S100000x512 .f32) (x1 x2 : IVec S3200000 32) (x4 x5 : FVec Ideal S512x1 .f32)
    (x6 : FVec Ideal S1 .f32) (x7 x8 : FVec Ideal S3x1x1 .f32) (x9 : FVec Ideal S3x1 .f32) (n : Fin 100000) :
    val_main_v79 (F := Ideal) x0 x1 x2 x4 x5 x6 x7 x8 x9 (ix2 n 0)
      = msg x1 x2 (fun j => h2 x0 x1 x2 x4 x5 x6 x7 x8 x9 j * x7 (ix3 2 0 0)) n := by
  unfold val_main_v79 val_main_v76
  rw [msg_col _ _ _ _ x1 x2 (fun n => zero_v77 _) (src_v75 x1) (dst_v78 x2) n]
  exact congrArg (fun v => msg x1 x2 v n) (funext fun j => nb_v69 x0 x1 x2 x4 x5 x6 x7 x8 x9 j)

/-- Layer 3's stage is the specification's layer 3. -/
theorem stage_h3 (x0 : FVec Ideal S100000x512 .f32) (x1 x2 : IVec S3200000 32) (x4 x5 : FVec Ideal S512x1 .f32)
    (x6 : FVec Ideal S1 .f32) (x7 x8 : FVec Ideal S3x1x1 .f32) (x9 : FVec Ideal S3x1 .f32) (n : Fin 100000) :
    val_main_v85 (F := Ideal) x0 x1 x2 x4 x5 x6 x7 x8 x9 (ix2 n 0) = h3 x0 x1 x2 x4 x5 x6 x7 x8 x9 n := by
  rw [val_main_v85_apply, val_main_v84_apply, val_main_v82_apply, msg_v79, bias_v81, self_v83, zero_call3]
  rfl

/-! ## The result: the joined columns, summed per graph -/

theorem gid_v88 (x3 : IVec S100000 32) (n : Fin 100000) :
    val_main_v88 (F := Ideal) x3 (ix2 n 0) = x3 (ix1 n) := by
  rw [val_main_v88_apply]
  congr 1
  funext a; match a with | ⟨0, _⟩ => rfl

theorem zero_v87 (i : S64x516.Idx) : val_main_v87 (F := Ideal) i = 0 := by
  rw [val_main_v87_apply, val_main_cst_10_apply]
  exact Ideal.ofBits_zero_f32

/-- The joined array at a feature column: the feature. -/
theorem cat_x (x0 : FVec Ideal S100000x512 .f32) (x1 x2 : IVec S3200000 32) (x4 x5 : FVec Ideal S512x1 .f32)
    (x6 : FVec Ideal S1 .f32) (x7 x8 : FVec Ideal S3x1x1 .f32) (x9 : FVec Ideal S3x1 .f32) (n : Fin 100000) (f : Fin 516)
    (h : f.val < 512) :
    val_main_v86 (F := Ideal) x0 x1 x2 x4 x5 x6 x7 x8 x9 (ix2 n f) = x0 (ix2 n ⟨f.val, h⟩) := by
  unfold val_main_v86
  refine concatenate_apply_piece (1 : Fin 2) _ _ (ix2 n f) 0 ?_ S100000x512 x0 ?_ ?_ 0 ?_
    (ix2 n ⟨f.val, h⟩) ?_ ?_
  · exact (by decide : (0 : Nat) < 5)
  · rfl
  · rfl
  · rfl
  · intro b hb
    match b with
    | ⟨0, _⟩ => rfl
    | ⟨1, _⟩ => exact absurd (Fin.ext rfl) hb
  · show 0 + f.val = f.val
    omega

/-- The joined array at column `512 + l`: layer `l`'s value. -/
theorem cat_h (x0 : FVec Ideal S100000x512 .f32) (x1 x2 : IVec S3200000 32) (x4 x5 : FVec Ideal S512x1 .f32)
    (x6 : FVec Ideal S1 .f32) (x7 x8 : FVec Ideal S3x1x1 .f32) (x9 : FVec Ideal S3x1 .f32) (n : Fin 100000) (f : Fin 516)
    (l : Fin 4) (hl : f.val = 512 + l.val) :
    val_main_v86 (F := Ideal) x0 x1 x2 x4 x5 x6 x7 x8 x9 (ix2 n f) = hcol x0 x1 x2 x4 x5 x6 x7 x8 x9 l n := by
  unfold val_main_v86
  match l, hl with
  | ⟨0, _⟩, hl =>
    refine Eq.trans ?_ (stage_h0 x0 x1 x2 x4 x5 x6 n)
    refine concatenate_apply_piece (1 : Fin 2) _ _ (ix2 n f) 1 ?_ S100000x1
      (val_main_v16 (F := Ideal) x0 x1 x2 x4 x5 x6) ?_ ?_ 512 ?_ (ix2 n 0) ?_ ?_
    · exact (by decide : (1 : Nat) < 5)
    · rfl
    · rfl
    · rfl
    · intro b hb
      match b with
      | ⟨0, _⟩ => rfl
      | ⟨1, _⟩ => exact absurd (Fin.ext rfl) hb
    · show 512 + 0 = f.val
      have hl' : f.val = 512 + 0 := hl
      omega
  | ⟨1, _⟩, hl =>
    refine Eq.trans ?_ (stage_h1 x0 x1 x2 x4 x5 x6 x7 x8 x9 n)
    refine concatenate_apply_piece (1 : Fin 2) _ _ (ix2 n f) 2 ?_ S100000x1
      (val_main_v39 (F := Ideal) x0 x1 x2 x4 x5 x6 x7 x8 x9) ?_ ?_ 513 ?_ (ix2 n 0) ?_ ?_
    · exact (by decide : (2 : Nat) < 5)
    · rfl
    · rfl
    · rfl
    · intro b hb
      match b with
      | ⟨0, _⟩ => rfl
      | ⟨1, _⟩ => exact absurd (Fin.ext rfl) hb
    · show 513 + 0 = f.val
      have hl' : f.val = 512 + 1 := hl
      omega
  | ⟨2, _⟩, hl =>
    refine Eq.trans ?_ (stage_h2 x0 x1 x2 x4 x5 x6 x7 x8 x9 n)
    refine concatenate_apply_piece (1 : Fin 2) _ _ (ix2 n f) 3 ?_ S100000x1
      (val_main_v62 (F := Ideal) x0 x1 x2 x4 x5 x6 x7 x8 x9) ?_ ?_ 514 ?_ (ix2 n 0) ?_ ?_
    · exact (by decide : (3 : Nat) < 5)
    · rfl
    · rfl
    · rfl
    · intro b hb
      match b with
      | ⟨0, _⟩ => rfl
      | ⟨1, _⟩ => exact absurd (Fin.ext rfl) hb
    · show 514 + 0 = f.val
      have hl' : f.val = 512 + 2 := hl
      omega
  | ⟨3, _⟩, hl =>
    refine Eq.trans ?_ (stage_h3 x0 x1 x2 x4 x5 x6 x7 x8 x9 n)
    refine concatenate_apply_piece (1 : Fin 2) _ _ (ix2 n f) 4 ?_ S100000x1
      (val_main_v85 (F := Ideal) x0 x1 x2 x4 x5 x6 x7 x8 x9) ?_ ?_ 515 ?_ (ix2 n 0) ?_ ?_
    · exact (by decide : (4 : Nat) < 5)
    · rfl
    · rfl
    · rfl
    · intro b hb
      match b with
      | ⟨0, _⟩ => rfl
      | ⟨1, _⟩ => exact absurd (Fin.ext rfl) hb
    · show 515 + 0 = f.val
      have hl' : f.val = 512 + 3 := hl
      omega

theorem out_lt (x0 : FVec Ideal S100000x512 .f32) (x1 x2 : IVec S3200000 32) (x3 : IVec S100000 32)
    (x4 x5 : FVec Ideal S512x1 .f32) (x6 : FVec Ideal S1 .f32) (x7 x8 : FVec Ideal S3x1x1 .f32)
    (x9 : FVec Ideal S3x1 .f32) (g : Fin 64) (f : Fin 516) (h : f.val < 512) :
    out x0 x1 x2 x3 x4 x5 x6 x7 x8 x9 (ix2 g f) = gsum x3 (fun n => x0 (ix2 n ⟨f.val, h⟩)) g := by
  unfold out
  exact dif_pos h

theorem out_ge (x0 : FVec Ideal S100000x512 .f32) (x1 x2 : IVec S3200000 32) (x3 : IVec S100000 32)
    (x4 x5 : FVec Ideal S512x1 .f32) (x6 : FVec Ideal S1 .f32) (x7 x8 : FVec Ideal S3x1x1 .f32)
    (x9 : FVec Ideal S3x1 .f32) (g : Fin 64) (f : Fin 516) (h : ¬ f.val < 512) :
    out x0 x1 x2 x3 x4 x5 x6 x7 x8 x9 (ix2 g f)
      = gsum x3 (hcol x0 x1 x2 x4 x5 x6 x7 x8 x9 ⟨f.val - 512, by have := f.isLt; omega⟩) g := by
  unfold out
  exact dif_neg h

/-- The reference's result stage is the specification's result. -/
theorem ref_out (x0 : FVec Ideal S100000x512 .f32) (x1 x2 : IVec S3200000 32) (x3 : IVec S100000 32)
    (x4 x5 : FVec Ideal S512x1 .f32) (x6 : FVec Ideal S1 .f32) (x7 x8 : FVec Ideal S3x1x1 .f32)
    (x9 : FVec Ideal S3x1 .f32) :
    val_main_v89 (F := Ideal) x0 x1 x2 x3 x4 x5 x6 x7 x8 x9 = Cert.GraphSpec.out x0 x1 x2 x3 x4 x5 x6 x7 x8 x9 := by
  funext i
  obtain ⟨g, f, rfl⟩ : ∃ (g : Fin 64) (f : Fin 516), i = ix2 g f := ⟨i 0, i 1, eq_ix2 i⟩
  unfold val_main_v89
  rw [scatterAdd_rows _ rfl rfl rfl rfl, zero_v87, zero_add]
  simp only [gid_v88]
  by_cases h : f.val < 512
  · rw [out_lt _ _ _ _ _ _ _ _ _ _ g f h]
    unfold gsum
    exact Finset.sum_congr rfl (fun n _ => cat_x x0 x1 x2 x4 x5 x6 x7 x8 x9 n f h)
  · rw [out_ge _ _ _ _ _ _ _ _ _ _ g f h]
    unfold gsum
    exact Finset.sum_congr rfl (fun n _ => cat_h x0 x1 x2 x4 x5 x6 x7 x8 x9 n f _ (by show f.val = 512 + (f.val - 512); omega))

end Cert.ReferenceIdeal.RefValue

end
-- ==== Proof.lean ====
/-
  The certificate. A graph network over 100000 nodes, 3200000 edges and 64 graphs: four layers of message
  passing (project, gather along the edges' sources, sum at the edges' destinations, add a bias and the node's
  own term, keep the positive part) and a per-graph sum of the node features and of the four layers' values.

  The kernel computes the layer-0 projections and, block by block of 4000 nodes, the per-graph feature sums as a
  product with the 0/1 indicator of the graph word, in one pipelined region; host lines after the region do the
  message passing on one value per node and join the two parts. The reference keeps every node vector as a
  column and sums all 516 columns per graph in one accumulating scatter.

  Both programs run to the end without a fault and leave their arguments alone. At the exact reals both results
  are the one function `Cert.GraphSpec.out` of the arguments: a matrix product into a zero accumulator is the
  plain sum of products; a sum over 25 blocks of 4000 rows is the sum over the 100000 rows; multiplying by the
  indicator of a graph word and summing keeps exactly the rows the accumulating scatter adds to that graph; a
  contraction over an axis of size one is a single product. No rounding step was rewritten between the kernel
  and its idealization, so that conjunct is trivial.
-/
import proofs.«417001_j56040733278664_2_alg».proof.Defs
import proofs.«417001_j56040733278664_2_alg».proof.Proof.Gen.Kernel
import proofs.«417001_j56040733278664_2_alg».proof.Proof.Gen.KernelIdeal
import proofs.«417001_j56040733278664_2_alg».proof.Proof.Gen.ReferenceIdeal
import proofs.«417001_j56040733278664_2_alg».proof.Proof.Gen.ReferenceIdeal.Run
import proofs.«417001_j56040733278664_2_alg».proof.Proof.Gen.ReferenceIdeal.Read
import proofs.«417001_j56040733278664_2_alg».proof.Proof.Gen.Pre_finite_inputs
import proofs.«417001_j56040733278664_2_alg».proof.Proof.Kernel.Frame
import proofs.«417001_j56040733278664_2_alg».proof.Proof.KernelIdeal.Frame
import proofs.«417001_j56040733278664_2_alg».proof.Proof.KernelIdeal.Tail
import proofs.«417001_j56040733278664_2_alg».proof.Proof.RefValue
import Idealize.ShloMosaic.Adequacy
import Idealize.ShloMosaic.Init

noncomputable section

namespace Cert.Proof

open Idealize.ShloMosaic Idealize.ShloMosaic.TcCoe Idealize.SL.Sem

/-- The word-level kernel runs and leaves its arguments alone. -/
theorem frame_k [Cert.Kernel.Facts] [Cert.Pre_finite_inputs.Facts] : Cert.frame_Kernel :=
  fun m ρ _ => Cert.Kernel.Region.frame m ρ

/-- So does the kernel read at the exact reals. -/
theorem frame_ki [Cert.KernelIdeal.Facts] [Cert.Pre_finite_inputs.Facts] : Cert.frame_KernelIdeal :=
  fun m ρ _ => Cert.KernelIdeal.Region.frame m ρ

/-- And the reference: its run, with the result dropped. -/
theorem frame_ri [Cert.ReferenceIdeal.Facts] [Cert.Pre_finite_inputs.Facts] : Cert.frame_ReferenceIdeal :=
  fun m ρ _ => (θ_run Cert.ReferenceIdeal.defs _ _).mono (fun _ h c => (h c).2)
    (Cert.ReferenceIdeal.Value.run (F := Ideal) m ρ)

/-- Both results are the specification's function of the arguments, which agree. -/
theorem algebraic [Cert.KernelIdeal.Facts] [Cert.ReferenceIdeal.Facts] [Cert.Pre_finite_inputs.Facts] :
    Cert.algebraic_KernelIdeal_ReferenceIdeal := by
  intro m ρ m' ρ' _ hagree
  refine ⟨fun c => Cert.GraphSpec.out
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9)),
    ?_, ?_⟩
  · exact (θ_run Cert.KernelIdeal.defs _ _).mono
      (fun _ h c => ⟨(h c).1.trans (Cert.KernelIdeal.Region.tail_out m c), (h c).2⟩)
      (Cert.KernelIdeal.Region.run_value (F := Ideal) m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v89_eq, Cert.ReferenceIdeal.RefValue.ref_out,
      (hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
